-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S512x256 : Shape := ⟨2, ![512, 256]⟩
abbrev S256x64 : Shape := ⟨2, ![256, 64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg1 : IVec S262144 32) (main_arg2 : IVec S262144 32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_c_6 : IVec S_ 32 := constantI S_ 32 0#32
  let main_v19 : IVec S262144 32 := broadcastInDim S262144 ![] bcast_S_S262144 main_c_6
  let main_v20 : IVec S262144 1 := cmpi .sge main_arg1 main_v19
  let main_c_7 : IVec S_ 32 := constantI S_ 32 8192#32
  let main_v21 : IVec S262144 32 := broadcastInDim S262144 ![] bcast_S_S262144 main_c_7
  let main_v22 : IVec S262144 1 := cmpi .slt main_arg1 main_v21
  let main_v23 : IVec S262144 1 := andi main_v20 main_v22
  let main_c_8 : IVec S_ 1 := constantI S_ 1 1#1
  let main_v24 : IVec S_ 1 := (fun x v => Host.reduce IntOp.andi x v reducesTo_S262144_S_d0 h_S_) main_v23 main_c_8
  let main_v25 : IVec S_ 1 := andi main_v18 main_v24
  let main_c_9 : IVec S_ 32 := constantI S_ 32 0#32
  let main_v26 : IVec S262144 32 := broadcastInDim S262144 ![] bcast_S_S262144 main_c_9
  let main_v27 : IVec S262144 1 := cmpi .sge main_arg2 main_v26
  let main_c_10 : IVec S_ 32 := constantI S_ 32 8192#32
  let main_v28 : IVec S262144 32 := broadcastInDim S262144 ![] bcast_S_S262144 main_c_10
  let main_v29 : IVec S262144 1 := cmpi .slt main_arg2 main_v28
  let main_v30 : IVec S262144 1 := andi main_v27 main_v29
  let main_c_11 : IVec S_ 1 := constantI S_ 1 1#1
  let main_v31 : IVec S_ 1 := (fun x v => Host.reduce IntOp.andi x v reducesTo_S262144_S_d0 h_S_) main_v30 main_c_11
  let main_v32 : IVec S_ 1 := andi main_v25 main_v31
  main_v32

def fn {F : FTy → Type} [FloatOps F] (main_arg0 : FVec F S8192x512 .f32) (main_arg1 : IVec S262144 32) (main_arg2 : IVec S262144 32) (main_arg3 : FVec F S262144 .f32) (main_arg4 : FVec F S512x256 .f32) (main_arg5 : FVec F S256x64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg3
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg1 main_arg2 main_v13 main_v16
-- ==== Kernel.lean ====
abbrev S8192x512 : Shape := ⟨2, ![8192, 512]⟩
abbrev S262144 : Shape := ⟨1, ![262144]⟩
abbrev S512x256 : Shape := ⟨2, ![512, 256]⟩
abbrev S256x64 : Shape := ⟨2, ![256, 64]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192x256 : Shape := ⟨2, ![8192, 256]⟩
abbrev S2048x512 : Shape := ⟨2, ![2048, 512]⟩
abbrev S2048x256 : Shape := ⟨2, ![2048, 256]⟩
abbrev S8192x64 : Shape := ⟨2, ![8192, 64]⟩
abbrev S2048x2048 : Shape := ⟨2, ![2048, 2048]⟩
abbrev S2048x64 : Shape := ⟨2, ![2048, 64]⟩
abbrev S1024x64 : Shape := ⟨2, ![1024, 64]⟩
abbrev S2048x1024 : Shape := ⟨2, ![2048, 1024]⟩

abbrev nBuf : Space → Nat
  | .hbm => 33
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S512x256, .f32⟩
  | .hbm, ⟨5, _⟩ => ⟨S256x64, .f32⟩
  | .hbm, ⟨6, _⟩ => ⟨S_, .f32⟩
  | .hbm, ⟨7, _⟩ => ⟨S8192x8192, .f32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x1, .i32⟩
  | .hbm, ⟨24, _⟩ => ⟨S262144x2, .i32⟩
  | .hbm, ⟨25, _⟩ => ⟨S8192x8192, .f32⟩
  | .hbm, ⟨26, _⟩ => ⟨S8192x8192, .bf16⟩
  | .hbm, ⟨27, _⟩ => ⟨S512x256, .bf16⟩
  | .hbm, ⟨28, _⟩ => ⟨S256x64, .bf16⟩
  | .hbm, ⟨29, _⟩ => ⟨S8192x256, .f32⟩
  | .hbm, ⟨30, _⟩ => ⟨S8192x64, .f32⟩
  | .hbm, ⟨31, _⟩ => ⟨S8192x64, .f32⟩
  | .hbm, ⟨32, _⟩ => ⟨S8192x8192, .f32⟩
  | .local _ .vmem, ⟨0, _⟩ => ⟨S2048x512, .f32⟩
  | .local _ .vmem, ⟨1, _⟩ => ⟨S2048x512, .f32⟩
  | .local _ .vmem, ⟨2, _⟩ => ⟨S512x256, .bf16⟩
  | .local _ .vmem, ⟨3, _⟩ => ⟨S2048x256, .f32⟩
  | .local _ .vmem, ⟨4, _⟩ => ⟨S2048x256, .f32⟩
  | .local _ .vmem, ⟨5, _⟩ => ⟨S2048x2048, .bf16⟩
  | .local _ .vmem, ⟨6, _⟩ => ⟨S2048x2048, .bf16⟩
  | .local _ .vmem, ⟨7, _⟩ => ⟨S8192x256, .f32⟩
  | .local _ .vmem, ⟨8, _⟩ => ⟨S256x64, .bf16⟩
  | .local _ .vmem, ⟨9, _⟩ => ⟨S2048x64, .f32⟩
  | .local _ .vmem, ⟨10, _⟩ => ⟨S2048x64, .f32⟩
  | .local _ .vmem, ⟨11, _⟩ => ⟨S2048x256, .f32⟩
  | .local _ .vmem, ⟨12, _⟩ => ⟨S2048x2048, .bf16⟩
  | .local _ .vmem, ⟨13, _⟩ => ⟨S2048x2048, .bf16⟩
  | .local _ .vmem, ⟨14, _⟩ => ⟨S8192x64, .f32⟩
  | .local _ .vmem, ⟨15, _⟩ => ⟨S2048x64, .f32⟩
  | .local _ .vmem, ⟨16, _⟩ => ⟨S2048x64, .f32⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | .local _ .vmem, ⟨20, _⟩ => ⟨S1024x64, .f32⟩
  | .local _ .vmem, ⟨21, _⟩ => ⟨S1024x64, .f32⟩
  | .local _ .vmem, ⟨22, _⟩ => ⟨S2048x1024, .f32⟩
  | .local _ .vmem, ⟨23, _⟩ => ⟨S2048x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 4], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x1024_S2048x1024_0_0 : ∀ a, (![0, 0] : Fin 2 → Nat) a + S2048x1024.size a ≤ S2048x1024.size a
  h_S2048x1024 : 0 < S2048x1024.numel
  scatter_S8192x8192_S262144x2_S262144_n_01_01_1_wf : ScatterDims.WF S8192x8192 S262144x2 S262144 [] [0, 1] [0, 1] 1
  dot_S2048x512_S512x256_S2048x256_1_0_0_1_n_n_wf : DotDims.WF S2048x512 S512x256 S2048x256 [1] [0] [0] [1] [] []
  dot_S2048x2048_S2048x256_S2048x256_1_0_0_1_n_n_wf : DotDims.WF S2048x2048 S2048x256 S2048x256 [1] [0] [0] [1] [] []
  dot_S2048x256_S256x64_S2048x64_1_0_0_1_n_n_wf : DotDims.WF S2048x256 S256x64 S2048x64 [1] [0] [0] [1] [] []
  dot_S2048x2048_S2048x64_S2048x64_1_0_0_1_n_n_wf : DotDims.WF S2048x2048 S2048x64 S2048x64 [1] [0] [0] [1] [] []
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .bf16 = 32 ∨ (Rect.block (s := S256x64) S256x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S8192x64.size a
  hwx1_3 : ∀ i : grid1.Coords, EltTy.bits .f32 = 32 ∨ (Rect.block (s := S8192x64) S2048x64.size (cc1_transform_3 i) (hinb1_3 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x64.size a ≤ S8192x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .bf16 = 32 ∨ (Rect.block (s := S8192x8192) S2048x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .f32 = 32 ∨ (Rect.block (s := S8192x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S8192x64.size a
  hwx2_2 : ∀ i : grid2.Coords, EltTy.bits .f32 = 32 ∨ (Rect.block (s := S8192x64) S2048x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S8192x64.size a
  hwx3_0 : ∀ i : grid3.Coords, EltTy.bits .f32 = 32 ∨ (Rect.block (s := S8192x64) S2048x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S8192x64.size a
  hwx3_1 : ∀ i : grid3.Coords, EltTy.bits .f32 = 32 ∨ (Rect.block (s := S8192x64) S1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1024.size a ≤ S8192x8192.size a
  hwx3_2 : ∀ i : grid3.Coords, EltTy.bits .f32 = 32 ∨ (Rect.block (s := S8192x8192) S2048x1024.size (cc3_transform_2 i) (hinb3_2 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v15) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S2048x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v20) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S2048x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192x512 : Shape := ⟨2, ![8192, 512]⟩
abbrev S262144 : Shape := ⟨1, ![262144]⟩
abbrev S512x256 : Shape := ⟨2, ![512, 256]⟩
abbrev S256x64 : Shape := ⟨2, ![256, 64]⟩
abbrev S8192x256 : Shape := ⟨2, ![8192, 256]⟩
abbrev S_ : Shape := ⟨0, ![]⟩
abbrev S262144x1 : Shape := ⟨2, ![262144, 1]⟩
abbrev S262144x256 : Shape := ⟨2, ![262144, 256]⟩
abbrev S8192x64 : Shape := ⟨2, ![8192, 64]⟩
abbrev S262144x64 : Shape := ⟨2, ![262144, 64]⟩
abbrev S8192x8192 : Shape := ⟨2, ![8192, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S512x256, .f32⟩
  | .hbm, ⟨5, _⟩ => ⟨S256x64, .f32⟩
  | .hbm, ⟨6, _⟩ => ⟨S8192x256, .f32⟩
  | .hbm, ⟨7, _⟩ => ⟨S_, .i32⟩
  | .hbm, ⟨8, _⟩ => ⟨S262144, .i32⟩
  | .hbm, ⟨9, _⟩ => ⟨S262144, .i1⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S262144, .i32⟩
  | .hbm, ⟨14, _⟩ => ⟨S262144x1, .i32⟩
  | .hbm, ⟨15, _⟩ => ⟨S262144x256, .f32⟩
  | .hbm, ⟨16, _⟩ => ⟨S262144x1, .f32⟩
  | .hbm, ⟨17, _⟩ => ⟨S262144x256, .f32⟩
  | .hbm, ⟨18, _⟩ => ⟨S262144x256, .f32⟩
  | .hbm, ⟨19, _⟩ => ⟨S_, .f32⟩
  | .hbm, ⟨20, _⟩ => ⟨S8192x256, .f32⟩
  | .hbm, ⟨21, _⟩ => ⟨S262144x1, .i32⟩
  | .hbm, ⟨22, _⟩ => ⟨S8192x256, .f32⟩
  | .hbm, ⟨23, _⟩ => ⟨S_, .f32⟩
  | .hbm, ⟨24, _⟩ => ⟨S8192x256, .f32⟩
  | .hbm, ⟨25, _⟩ => ⟨S8192x256, .f32⟩
  | .hbm, ⟨26, _⟩ => ⟨S8192x64, .f32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144x64, .f32⟩
  | .hbm, ⟨36, _⟩ => ⟨S262144x1, .f32⟩
  | .hbm, ⟨37, _⟩ => ⟨S262144x64, .f32⟩
  | .hbm, ⟨38, _⟩ => ⟨S262144x64, .f32⟩
  | .hbm, ⟨39, _⟩ => ⟨S_, .f32⟩
  | .hbm, ⟨40, _⟩ => ⟨S8192x64, .f32⟩
  | .hbm, ⟨41, _⟩ => ⟨S262144x1, .i32⟩
  | .hbm, ⟨42, _⟩ => ⟨S8192x64, .f32⟩
  | .hbm, ⟨43, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S262144x1_S262144x64_0_1 : S262144x1.BroadcastsInDim S262144x64 (![0, 1] : Fin 2 → Fin S262144x64.rank)
  bcast_S_S8192x64 : S_.BroadcastsInDim S8192x64 (![] : Fin 0 → Fin S8192x64.rank)
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x64_S8192x64_1_0_0_1_n_n_wf : DotDims.WF S8192x256 S256x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S8192x64_S8192x8192_1_1_0_0_n_n_wf : DotDims.WF S8192x64 S8192x64 S8192x8192 [1] [1] [0] [0] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Kernel.R0.lean ====
/-
  The first pallas_call: P1 = x · W1, four row blocks of 2048 rows, each block one matrix product.
  Stated at any contents `V` of the core's buffers when the call is entered.
-/
import proofs.«412814_j42056319762467_3_alg».proof.Proof.Gen.Kernel.Launch
import proofs.«412814_j42056319762467_3_alg».proof.Proof.Gen.Kernel.Skeleton
import proofs.«412814_j42056319762467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S2048x512 := Rect.unit (s := S2048x512) ![0, 0] S2048x512.size inb_S2048x512_S2048x512_0_0
abbrev rw0 : Rect S512x256 := Rect.unit (s := S512x256) ![0, 0] S512x256.size inb_S512x256_S512x256_0_0
abbrev ro0 : Rect S2048x256 := Rect.unit (s := S2048x256) ![0, 0] S2048x256.size inb_S2048x256_S2048x256_0_0

/-- What the body leaves in the output window's buffer: the product of the two input blocks, stored whole. -/
def out0_2 (x0 : Vec F S2048x512 .f32) (x1 : Vec F S512x256 .bf16) : Vec F S2048x256 .f32 :=
  View.canon [⟨ro0, k0_pay1 (View.ld x0 rx0) (View.ld x1 rw0)⟩]

theorem cover0_2 (p0 : Vec F S2048x256 .f32) (y : S2048x256.Idx) :
    ∃ pc ∈ ([⟨ro0, p0⟩] : List (View.Piece (Elt F) S2048x256 .f32)), y ∈ pc.1.set :=
  View.cover_of_tiled [⟨ro0, p0⟩] S2048x256.size (by rfl) y

set_option maxHeartbeats 1000000 in
/-- The body on whole staging buffers: the inputs are read and kept, the output ends at the product. -/
theorem sound_kernel0 (c : Dev nD) (E : Set ℕ) (i : grid0.Coords)
    (arg1 : Memref sig .tc .vmem S2048x512 .f32) (harg1 : arg1.IsWhole) (arg2 : Memref sig .tc .vmem S512x256 .bf16) (harg2 : arg2.IsWhole)
    (arg3 : Memref sig .tc .vmem S2048x256 .f32) (harg3 : arg3.IsWhole)
    (x0 : Vec F S2048x512 .f32) (x1 : Vec F S512x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__p1_kernel i arg1 harg1 arg2 harg2 arg3 harg3) K := by
  simp only [cc0__p1_kernel_eq_skeleton]; unfold cc0__p1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the call on core `c`: the arrays as the call finds them; after the body each input's buffer at
    its block and the output's at the product of the blocks; the scratch and the generator register untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.R1.lean ====
/-
  The second pallas_call: P2 = relu (A · P1) · W2 on a 4 × 4 grid (row block i, column block k of A).
  A scratch accumulator is zeroed at k = 0, gains A(i, k) · P1(rows of block k) at every point, and at k = 3 its
  positive part times W2 is stored into the output block of row block i.
  Stated at any contents `V` of the core's buffers when the call is entered.
-/
import proofs.«412814_j42056319762467_3_alg».proof.Proof.Gen.Kernel.Launch
import proofs.«412814_j42056319762467_3_alg».proof.Proof.Gen.Kernel.Skeleton
import proofs.«412814_j42056319762467_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 2048 rows of the resident P1 buffer that the point with column block `k` reads: rows `2048 k …`. -/
abbrev rP1 (i : grid1.Coords) : Rect S8192x256 := Rect.unit (s := S8192x256) (k1_off1 i) S2048x256.size (k1_off1_inb i)

/-- Those rows of P1 at point `t`. -/
def P1blk1 (c : Dev nD) (t : Fin cfg1.N) : Vec F S2048x256 .f32 := View.ld (iblk1 V c 1 t) (rP1 (grid1.coords t))

/-- THE ACCUMULATOR: what the scratch holds after the body at position `n`. At the first point of a row block
    (`n % 4 = 0`) the zeros plus this point's product; otherwise what the point before left plus this point's product. -/
def acc1 (c : Dev nD) : (n : ℕ) → n < cfg1.N → Vec F S2048x256 .f32
  | 0, hn => k1_pay2 (P1blk1 V c ⟨0, hn⟩) (k1_pay1 (F := F)) (iblk1 V c 0 ⟨0, hn⟩)
  | n + 1, hn =>
    if (n + 1) % 4 = 0 then k1_pay2 (P1blk1 V c ⟨n + 1, hn⟩) (k1_pay1 (F := F)) (iblk1 V c 0 ⟨n + 1, hn⟩)
    else k1_pay2 (P1blk1 V c ⟨n + 1, hn⟩) (acc1 c n (Nat.lt_of_succ_lt hn)) (iblk1 V c 0 ⟨n + 1, hn⟩)

theorem acc1_first (c : Dev nD) (t : Fin cfg1.N) (h : t.val % 4 = 0) :
    acc1 V c t.val t.isLt = k1_pay2 (P1blk1 V c t) (k1_pay1 (F := F)) (iblk1 V c 0 t) := by
  obtain ⟨n, hn⟩ := t
  cases n with
  | zero => rfl
  | succ n => exact if_pos h

theorem acc1_next (c : Dev nD) (t : Fin cfg1.N) (h : ¬ t.val % 4 = 0) :
    acc1 V c t.val t.isLt
      = k1_pay2 (P1blk1 V c t) (acc1 V c (t.val - 1) (Nat.lt_of_le_of_lt (Nat.sub_le _ _) t.isLt)) (iblk1 V c 0 t) := by
  obtain ⟨n, hn⟩ := t
  cases n with
  | zero => exact absurd (Nat.zero_mod 4) h
  | succ n => exact if_neg h

/-- The region invariant before position `n`: before the first point every scoped buffer the call does not stage is at
    anything; afterwards the scratch holds the accumulator the point before left, the others are at anything. -/
def restS1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

abbrev scM1 : Memref sig .tc .vmem S2048x256 .f32 := Memref.whole cc1_scratch0

def PhiS1 (c : Dev nD) : (n : ℕ) → n ≤ cfg1.N → sProp 𝕄
  | 0, _ => Pipeline.ΦA spec1 c
  | n + 1, hn => iprop(owns (c : Thread nD τ) scM1 fullShare (acc1 V c n hn) ∗ restS1 (F := F) c ∗ (∃ r, prngReg c r))

/-- The proof data of the call on core `c`. The output window's buffer is stated after every point as the positive
    part of the accumulator times W2; it is consulted only at the points `k = 3`, where the body stores it (elsewhere
    the window is idle and its buffer is handed back untouched). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

/-! ## The two branch conditions and the idle table, in closed form over the grid -/

/-- The first conditional's condition (column block `k = 0`), as the body spells it. -/
abbrev cond1_0 (i : grid1.Coords) : Prop :=
  (Scalar.cmpi .ne (Scalar.extui (Scalar.cmpi .eq (BitVec.ofNat 32 (i 1).val) 0#32)) 0#32) = 1#1
/-- The second conditional's condition (column block `k = 3`). -/
abbrev cond1_1 (i : grid1.Coords) : Prop := k1_cond2 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; the output window is idle exactly off `k = 3`, where it is not written back. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, t.val % 4 = 3 → cfg1.idle 3 (grid1.coords t) = false := by decide +kernel
theorem idle1_3 : ∀ t : Fin cfg1.N, ¬ t.val % 4 = 3 → cfg1.idle 3 (grid1.coords t) = true := by decide +kernel
theorem noflush1_3 (t : Fin cfg1.N) (h : ¬ t.val % 4 = 3) : (cfg1.win 3).flush t = false := by
  cases hf : (cfg1.win 3).flush t
  · rfl
  · exact absurd ((flush1_3 t).mp hf) h

/-! ## What the body finds in the input windows' buffers -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The invariant: the scratch taken out of the scoped rest and put back -/

theorem scratch_mem1 :
    cc1_scratch0 ∈ (Finset.univ.filter fun b : Ref sig .tc => b.isScoped) \ Finset.univ.image (Pipeline.stageRef spec1) := by
  decide

/-- What the launch hands the call, with the scratch as a memref owned at some contents. -/
theorem PhiA1_eq (c : Dev nD) :
    (Pipeline.ΦA spec1 c : sProp 𝕄)
      = iprop((∃ d, owns (c : Thread nD τ) scM1 fullShare d) ∗ restS1 (F := F) c ∗ (∃ r, prngReg c r)) := by
  unfold Pipeline.ΦA Pipeline.scopedRest restS1
  rw [bigSep_erase scratch_mem1]
  simp only [scM1, owns_whole]
  exact BI.equiv_iff.mp ⟨Idealize.SL.BI.sep_assoc, Idealize.SL.BI.sep_assoc'⟩

theorem PhiS1_pos (c : Dev nD) (n : ℕ) (h : n ≤ cfg1.N) (hz : n ≠ 0) :
    PhiS1 V c n h = iprop(owns (c : Thread nD τ) scM1 fullShare (acc1 V c (n - 1) (by omega)) ∗ restS1 (F := F) c ∗ (∃ r, prngReg c r)) := by
  cases n with
  | zero => exact absurd rfl hz
  | succ n => rfl

/-! ## Loads and stores through a whole-buffer rectangle -/

/-- Zero offsets, as the body spells them. -/
theorem zeros2 : (![0, 0] : Fin 2 → ℕ) = fun _ => 0 := by funext a; fin_cases a <;> rfl

section Whole
variable {κ : Kind} {sp : Space} {S : Shape} {e : EltTy}

/-- A load through the whole-buffer rectangle reads the buffer's contents. -/
theorem readAt_whole (v : View sig κ sp S e) (f : v.ty.Contents (Elt F)) {off : Fin S.rank → ℕ} (h : off = fun _ => 0)
    (inb : ∀ a, off a + S.size a ≤ S.size a) :
    View.readAt (Elt F) v (Rect.unit off S.size inb).toLoadRect f = v.read (Elt F) f :=
  View.ld_unit_zero h inb _

/-- A last store through the whole-buffer rectangle covers the buffer, whatever was stored before it. -/
theorem cover_whole {off : Fin S.rank → ℕ} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons.mpr (Or.inl rfl), View.mem_set_unit_zero h inb y⟩

/-- So the buffer then reads that store's payload. -/
theorem read_writes_whole (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (cover_whole h inb w L), View.canon_cons_unit_zero h inb w L]

end Whole

/-! ## The body on whole memrefs, case by case -/

set_option maxHeartbeats 1000000 in
/-- Column blocks `k = 1, 2`: the scratch gains this point's product; the two buffers read are kept. -/
theorem run1_B (c : Dev nD) (E : Set ℕ) (i : grid1.Coords) (hc0 : ¬ cond1_0 i) (hc1 : ¬ cond1_1 i)
    (arg2 : Memref sig .tc .vmem S2048x2048 .bf16) (harg2 : arg2.IsWhole) (arg3 : Memref sig .tc .vmem S8192x256 .f32) (harg3 : arg3.IsWhole)
    (arg4 : Memref sig .tc .vmem S256x64 .bf16) (harg4 : arg4.IsWhole) (arg5 : Memref sig .tc .vmem S2048x64 .f32) (harg5 : arg5.IsWhole)
    (arg6 : Memref sig .tc .vmem S2048x256 .f32) (harg6 : arg6.IsWhole)
    (x0 : Vec F S2048x2048 .bf16) (x1 : Vec F S8192x256 .f32) (xs : Vec F S2048x256 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k1_pay2 (View.ld x1 (rP1 i)) xs x0)) -∗ K ⟨⟩))
      ⊢ wp frame (wpE (defs₀ (F := F)) Variants.none c none) E
          (cc1__gcn1_kernel i arg2 harg2 arg3 harg3 arg4 harg4 arg5 harg5 arg6 harg6) K := by
  simp only [cc1__gcn1_kernel_eq_skeleton]; unfold cc1__gcn1_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_writes_whole (S := S2048x256) _ _ zeros2, readAt_whole (S := S2048x256) _ _ zeros2,
    readAt_whole (S := S2048x2048) _ _ zeros2]
  rfl

set_option maxHeartbeats 1000000 in
/-- Column block `k = 0`: the scratch is zeroed, then gains this point's product. -/
theorem run1_A (c : Dev nD) (E : Set ℕ) (i : grid1.Coords) (hc0 : cond1_0 i) (hc1 : ¬ cond1_1 i)
    (arg2 : Memref sig .tc .vmem S2048x2048 .bf16) (harg2 : arg2.IsWhole) (arg3 : Memref sig .tc .vmem S8192x256 .f32) (harg3 : arg3.IsWhole)
    (arg4 : Memref sig .tc .vmem S256x64 .bf16) (harg4 : arg4.IsWhole) (arg5 : Memref sig .tc .vmem S2048x64 .f32) (harg5 : arg5.IsWhole)
    (arg6 : Memref sig .tc .vmem S2048x256 .f32) (harg6 : arg6.IsWhole)
    (x0 : Vec F S2048x2048 .bf16) (x1 : Vec F S8192x256 .f32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 (View.ld x1 (rP1 i)) (k1_pay1 (F := F)) x0)) -∗ K ⟨⟩))
      ⊢ wp frame (wpE (defs₀ (F := F)) Variants.none c none) E
          (cc1__gcn1_kernel i arg2 harg2 arg3 harg3 arg4 harg4 arg5 harg5 arg6 harg6) K := by
  simp only [cc1__gcn1_kernel_eq_skeleton]; unfold cc1__gcn1_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_writes_whole (S := S2048x256) _ _ zeros2, View.readCov_unit_zero (S := S2048x256) _ zeros2,
    readAt_whole (S := S2048x2048) _ _ zeros2]
  rfl

set_option maxHeartbeats 1000000 in
/-- Column block `k = 3`: the scratch gains this point's product, and its positive part times W2 is stored whole
    into the output buffer. -/
theorem run1_C (c : Dev nD) (E : Set ℕ) (i : grid1.Coords) (hc0 : ¬ cond1_0 i) (hc1 : cond1_1 i)
    (arg2 : Memref sig .tc .vmem S2048x2048 .bf16) (harg2 : arg2.IsWhole) (arg3 : Memref sig .tc .vmem S8192x256 .f32) (harg3 : arg3.IsWhole)
    (arg4 : Memref sig .tc .vmem S256x64 .bf16) (harg4 : arg4.IsWhole) (arg5 : Memref sig .tc .vmem S2048x64 .f32) (harg5 : arg5.IsWhole)
    (arg6 : Memref sig .tc .vmem S2048x256 .f32) (harg6 : arg6.IsWhole)
    (x0 : Vec F S2048x2048 .bf16) (x1 : Vec F S8192x256 .f32) (x2 : Vec F S256x64 .bf16) (xs : Vec F S2048x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 (View.ld x1 (rP1 i)) xs x0) x2)
            ∗ owns (c : Thread nD τ) arg6 fullShare (k1_pay2 (View.ld x1 (rP1 i)) xs x0)) -∗ K ⟨⟩))
      ⊢ wp frame (wpE (defs₀ (F := F)) Variants.none c none) E
          (cc1__gcn1_kernel i arg2 harg2 arg3 harg3 arg4 harg4 arg5 harg5 arg6 harg6) K := by
  simp only [cc1__gcn1_kernel_eq_skeleton]; unfold cc1__gcn1_kernel_skel
  unfold owns
  iintro ⟨⟨%f0, %hf0, H0⟩, ⟨%f1, %hf1, H1⟩, ⟨%f2, %hf2, H2⟩, ⟨%d5, %f5, -, H5⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    rw [read_writes_whole (S := S2048x64) _ _ zeros2, View.readCov_unit_zero (S := S2048x256) _ zeros2,
      readAt_whole (S := S2048x256) _ _ zeros2, readAt_whole (S := S2048x2048) _ _ zeros2, readAt_whole (S := S256x64) _ _ zeros2]
    rfl
  iexists _; isplitr
  swap; · iexact HS
  ipureintro
  sl_unfold_run_names
  rw [read_writes_whole (S := S2048x256) _ _ zeros2, readAt_whole (S := S2048x256) _ _ zeros2,
    readAt_whole (S := S2048x2048) _ _ zeros2]
  rfl

/-! ## The body obligation, point by point -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(owns (c : Thread nD τ) scM1 fullShare (acc1 V c n hn) ∗ restS1 (F := F) c ∗ (∃ r, prngReg c r)) := rfl

/-- The invariant a point starts from, by the point's number. -/
theorem Phi1_castSucc (c : Dev nD) (t : Fin cfg1.N) : (dat1 V c).Φ t.castSucc = PhiS1 V c t.val (Nat.le_of_lt t.isLt) := rfl

/-- The input windows are live everywhere: the body leaves each at its block. -/
theorem leaves1_0 (c : Dev nD) (t : Fin cfg1.N) :
    (dat1 V c).leavesExact 0 t = owns (c : Thread nD τ) (st1_0 t) fullShare (iblk1 V c 0 t) := by
  unfold Dat.leavesExact; rw [live1_0 t, after1_0]
theorem leaves1_1 (c : Dev nD) (t : Fin cfg1.N) :
    (dat1 V c).leavesExact 1 t = owns (c : Thread nD τ) (st1_1 t) fullShare (iblk1 V c 1 t) := by
  unfold Dat.leavesExact; rw [live1_1 t, after1_1]
theorem leaves1_2 (c : Dev nD) (t : Fin cfg1.N) :
    (dat1 V c).leavesExact 2 t = owns (c : Thread nD τ) (st1_2 t) fullShare (iblk1 V c 2 t) := by
  unfold Dat.leavesExact; rw [live1_2 t, after1_2]
/-- The output window is live at `k = 3`, where the body stores it whole. -/
theorem leaves1_3 (c : Dev nD) (t : Fin cfg1.N) (h3 : t.val % 4 = 3) :
    (dat1 V c).leavesExact 3 t
      = owns (c : Thread nD τ) (st1_3 t) fullShare (k1_pay3 (acc1 V c t.val t.isLt) (iblk1 V c 2 t)) := by
  unfold Dat.leavesExact; rw [live1_3 t h3, after1_3]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 1000000 in
/-- A point with `k = 0`: the scratch, at anything, is zeroed and gains the first product; the output window is idle. -/
theorem sound_body1_A (c : Dev nD) (t : Fin cfg1.N) (h0 : t.val % 4 = 0) :
    bodyPre1 V c t ⊢ wp frame (wpE (defs₀ (F := F)) Variants.none c none) Set.univ (bodyAt1 t) (fun _ => bodyPost1 V c t) := by
  have h3 : ¬ t.val % 4 = 3 := by omega
  have hc0 : cond1_0 (grid1.coords t) := (hcond1_0 t).mpr h0
  have hc1 : ¬ cond1_1 (grid1.coords t) := fun h => h3 ((hcond1_1 t).mp h)
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl, PhiS1_succ, Phi1_castSucc,
    leaves1_0, leaves1_1, leaves1_2, Dat.leavesExact_idle (dat1 V c) 3 t (idle1_3 t h3) (noflush1_3 t h3),
    acc1_first V c t h0]
  unfold P1blk1
  by_cases hz : t.val = 0
  · rw [PhiS1_zero V c _ _ hz, PhiA1_eq]
    iintro ⟨⟨HS, HR, Hg⟩, Ho, ⟨%d0, H0⟩, ⟨%d1, H1⟩, ⟨%d2, H2⟩, ⟨%d3, H3⟩⟩
    iapply (run1_A c Set.univ _ hc0 hc1 _ _ _ _ _ _ _ _ _ _ (iblk1 V c 0 t) (iblk1 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexists _; iexact H3
  · rw [PhiS1_pos V c _ _ hz]
    iintro ⟨⟨HS, HR, Hg⟩, Ho, ⟨%d0, H0⟩, ⟨%d1, H1⟩, ⟨%d2, H2⟩, ⟨%d3, H3⟩⟩
    iapply (run1_A c Set.univ _ hc0 hc1 _ _ _ _ _ _ _ _ _ _ (iblk1 V c 0 t) (iblk1 V c 1 t) _)
    isplitl [H0]; · iexact H0
    isplitl [H1]; · iexact H1
    isplitl [HS]; · iexists _; iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexists _; iexact H3

set_option maxHeartbeats 1000000 in
/-- A point with `k = 1, 2`: the scratch gains this point's product over what the point before left; the output window
    is idle. -/
theorem sound_body1_B (c : Dev nD) (t : Fin cfg1.N) (h0 : ¬ t.val % 4 = 0) (h3 : ¬ t.val % 4 = 3) :
    bodyPre1 V c t ⊢ wp frame (wpE (defs₀ (F := F)) Variants.none c none) Set.univ (bodyAt1 t) (fun _ => bodyPost1 V c t) := by
  have hz : t.val ≠ 0 := fun e => h0 (by rw [e])
  have hc0 : ¬ cond1_0 (grid1.coords t) := fun h => h0 ((hcond1_0 t).mp h)
  have hc1 : ¬ cond1_1 (grid1.coords t) := fun h => h3 ((hcond1_1 t).mp h)
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl, PhiS1_succ, Phi1_castSucc, PhiS1_pos V c _ _ hz,
    leaves1_0, leaves1_1, leaves1_2, Dat.leavesExact_idle (dat1 V c) 3 t (idle1_3 t h3) (noflush1_3 t h3),
    acc1_next V c t h0]
  unfold P1blk1
  iintro ⟨⟨HS, HR, Hg⟩, Ho, ⟨%d0, H0⟩, ⟨%d1, H1⟩, ⟨%d2, H2⟩, ⟨%d3, H3⟩⟩
  iapply (run1_B c Set.univ _ hc0 hc1 _ _ _ _ _ _ _ _ _ _ (iblk1 V c 0 t) (iblk1 V c 1 t) _ _)
  isplitl [H0]; · iexact H0
  isplitl [H1]; · iexact H1
  isplitl [HS]; · iexact HS
  iintro ⟨H0, H1, HS⟩
  isplitl [HS HR Hg]
  · isplitl [HS]; · iexact HS
    isplitl [HR]; · iexact HR
    iexact Hg
  isplitl [Ho]; · iexact Ho
  isplitl [H0]; · iexact H0
  isplitl [H1]; · iexact H1
  isplitl [H2]; · iexact H2
  iexists _; iexact H3

set_option maxHeartbeats 1000000 in
/-- A point with `k = 3`: the scratch gains the last product, and the output buffer, whatever it held, is stored whole. -/
theorem sound_body1_C (c : Dev nD) (t : Fin cfg1.N) (h3 : t.val % 4 = 3) :
    bodyPre1 V c t ⊢ wp frame (wpE (defs₀ (F := F)) Variants.none c none) Set.univ (bodyAt1 t) (fun _ => bodyPost1 V c t) := by
  have h0 : ¬ t.val % 4 = 0 := by omega
  have hz : t.val ≠ 0 := fun e => h0 (by rw [e])
  have hc0 : ¬ cond1_0 (grid1.coords t) := fun h => h0 ((hcond1_0 t).mp h)
  have hc1 : cond1_1 (grid1.coords t) := (hcond1_1 t).mpr h3
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl, PhiS1_succ, Phi1_castSucc, PhiS1_pos V c _ _ hz,
    leaves1_0, leaves1_1, leaves1_2, leaves1_3 V c t h3, acc1_next V c t h0]
  unfold P1blk1
  iintro ⟨⟨HS, HR, Hg⟩, Ho, ⟨%d0, H0⟩, ⟨%d1, H1⟩, ⟨%d2, H2⟩, ⟨%d3, H3⟩⟩
  iapply (run1_C c Set.univ _ hc0 hc1 _ _ _ _ _ _ _ _ _ _ (iblk1 V c 0 t) (iblk1 V c 1 t) (iblk1 V c 2 t) _ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR Hg]
  · isplitl [HS]; · iexact HS
    isplitl [HR]; · iexact HR
    iexact Hg
  isplitl [Ho]; · iexact Ho
  isplitl [H0]; · iexact H0
  isplitl [H1]; · iexact H1
  isplitl [H2]; · iexact H2
  iexact H3

/-- The body at any point: the point's column block says which case it is. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · exact sound_body1_A V c t h0
  · by_cases h3 : t.val % 4 = 3
    · exact sound_body1_C V c t h3
    · exact sound_body1_B V c t h0 h3

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl]
  exact Entails.of_eq rfl

/-- The invariant after the last point gives the scoped buffers and the generator register back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨HS, HR, Hg⟩
  isplitl [HS]
  · iexists _; iexact HS
  isplitl [HR]
  · iexact HR
  iexact Hg

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.R2.lean ====
/-
  The third pallas_call: Z = A · P2 on a 4 × 4 grid (row block i, column block k of A).
  A scratch accumulator is zeroed at k = 0, gains A(i, k) · P2(rows of block k) at every point, and at k = 3 is
  copied into the output block of row block i.
  Stated at any contents `V` of the core's buffers when the call is entered.
-/
import proofs.«412814_j42056319762467_3_alg».proof.Proof.Gen.Kernel.Launch
import proofs.«412814_j42056319762467_3_alg».proof.Proof.Gen.Kernel.Skeleton
import proofs.«412814_j42056319762467_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The 2048 rows of the resident P2 buffer that the point with column block `k` reads: rows `2048 k …`. -/
abbrev rP2 (i : grid2.Coords) : Rect S8192x64 := Rect.unit (s := S8192x64) (k2_off1 i) S2048x64.size (k2_off1_inb i)

/-- Those rows of P2 at point `t`. -/
def P2blk2 (c : Dev nD) (t : Fin cfg2.N) : Vec F S2048x64 .f32 := View.ld (iblk2 V c 1 t) (rP2 (grid2.coords t))

/-- THE ACCUMULATOR: what the scratch holds after the body at position `n`. At the first point of a row block
    (`n % 4 = 0`) the zeros plus this point's product; otherwise what the point before left plus this point's product. -/
def acc2 (c : Dev nD) : (n : ℕ) → n < cfg2.N → Vec F S2048x64 .f32
  | 0, hn => k2_pay2 (P2blk2 V c ⟨0, hn⟩) (k2_pay1 (F := F)) (iblk2 V c 0 ⟨0, hn⟩)
  | n + 1, hn =>
    if (n + 1) % 4 = 0 then k2_pay2 (P2blk2 V c ⟨n + 1, hn⟩) (k2_pay1 (F := F)) (iblk2 V c 0 ⟨n + 1, hn⟩)
    else k2_pay2 (P2blk2 V c ⟨n + 1, hn⟩) (acc2 c n (Nat.lt_of_succ_lt hn)) (iblk2 V c 0 ⟨n + 1, hn⟩)

theorem acc2_first (c : Dev nD) (t : Fin cfg2.N) (h : t.val % 4 = 0) :
    acc2 V c t.val t.isLt = k2_pay2 (P2blk2 V c t) (k2_pay1 (F := F)) (iblk2 V c 0 t) := by
  obtain ⟨n, hn⟩ := t
  cases n with
  | zero => rfl
  | succ n => exact if_pos h

theorem acc2_next (c : Dev nD) (t : Fin cfg2.N) (h : ¬ t.val % 4 = 0) :
    acc2 V c t.val t.isLt
      = k2_pay2 (P2blk2 V c t) (acc2 V c (t.val - 1) (Nat.lt_of_le_of_lt (Nat.sub_le _ _) t.isLt)) (iblk2 V c 0 t) := by
  obtain ⟨n, hn⟩ := t
  cases n with
  | zero => exact absurd (Nat.zero_mod 4) h
  | succ n => exact if_neg h

/-- The region invariant before position `n`: before the first point every scoped buffer the call does not stage is at
    anything; afterwards the scratch holds the accumulator the point before left, the others are at anything. -/
def restS2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

abbrev scM2 : Memref sig .tc .vmem S2048x64 .f32 := Memref.whole cc2_scratch0

def PhiS2 (c : Dev nD) : (n : ℕ) → n ≤ cfg2.N → sProp 𝕄
  | 0, _ => Pipeline.ΦA spec2 c
  | n + 1, hn => iprop(owns (c : Thread nD τ) scM2 fullShare (acc2 V c n hn) ∗ restS2 (F := F) c ∗ (∃ r, prngReg c r))

/-- The proof data of the call on core `c`. The output window's buffer is stated after every point as the
    accumulator; it is consulted only at the points `k = 3`, where the body stores it (elsewhere the window is idle
    and its buffer is handed back untouched). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-! ## The scoped rest with the scratch taken out -/

/-- The scratch is a scoped buffer that no window stages. -/
theorem scratch2_mem : cc2_scratch0 ∈ (Finset.univ.filter fun b : Ref sig .tc => b.isScoped) \ Finset.univ.image (Pipeline.stageRef spec2) := by
  decide

/-- What the launch hands the call, with the scratch named: the scratch owned whole at some contents, the other
    scoped buffers at anything, the generator register at some state. -/
theorem PhiA2_eq (c : Dev nD) :
    (Pipeline.ΦA spec2 c : sProp 𝕄)
      = iprop((∃ d, owns (c : Thread nD τ) scM2 fullShare d) ∗ restS2 (F := F) c ∗ (∃ r, prngReg c r)) := by
  unfold Pipeline.ΦA Pipeline.scopedRest restS2
  rw [bigSep_erase scratch2_mem]
  simp only [scM2, owns_whole]
  exact (Std.Associative.assoc (op := (BI.sep : sProp 𝕄 → _ → _)) _ _ _)

/-- What the launch hands the call is the invariant before the first point. -/
theorem hin2 (c : Dev nD) : Pipeline.ΦA spec2 c ⊢ (dat2 V c).Φ 0 := by
  rw [show (dat2 V c).Φ 0 = Pipeline.ΦA spec2 c from rfl]

theorem PhiS2_pos (c : Dev nD) (n : ℕ) (h : n ≤ cfg2.N) (hz : n ≠ 0) :
    PhiS2 V c n h = iprop(owns (c : Thread nD τ) scM2 fullShare (acc2 V c (n - 1) (by omega)) ∗ restS2 (F := F) c ∗ (∃ r, prngReg c r)) := by
  cases n with
  | zero => exact absurd rfl hz
  | succ n => rfl

/-- The invariant after the last point gives the scoped buffers and the generator register back. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨HS, Hr, Hg⟩
  isplitl [HS]
  · iexists _; iexact HS
  isplitl [Hr]; · iexact Hr
  iexact Hg

/-! ## The body's two conditions and the output window's idle points, decided over the grid -/

/-- The first `scf.if`'s condition: the column block is the first. -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second `scf.if`'s condition: the column block is the last. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
/-- Where the column block is not the last the output window is idle and its block is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The body on whole buffers, one run per case -/

theorem zeros2 : (![0, 0] : Fin 2 → Nat) = fun _ => 0 := funext fun a => by fin_cases a <;> rfl

/-- The whole-buffer rectangle of the scratch and of the output block. -/
abbrev rS2 : Rect S2048x64 := Rect.unit (s := S2048x64) ![0, 0] S2048x64.size inb_S2048x64_S2048x64_0_0

/-- A list of stores whose last is of the whole buffer covers it. -/
theorem cover2 (p0 : Vec F S2048x64 .f32) (L : List (View.Piece (Elt F) S2048x64 .f32)) (y : S2048x64.Idx) :
    ∃ pc ∈ ((⟨rS2, p0⟩ : View.Piece (Elt F) S2048x64 .f32) :: L), y ∈ pc.1.set :=
  ⟨_, List.mem_cons_self, View.mem_set_unit_zero (S := S2048x64) zeros2 inb_S2048x64_S2048x64_0_0 y⟩

set_option maxHeartbeats 1000000 in
/-- First column block: the scratch is zeroed, then gains this point's product; the output buffer is not touched. -/
theorem run2_A (c : Dev nD) (E : Set ℕ) (i : grid2.Coords) (hc0 : cond2_0 i) (hc1 : ¬cond2_1 i)
    (arg2 : Memref sig .tc .vmem S2048x2048 .bf16) (harg2 : arg2.IsWhole) (arg3 : Memref sig .tc .vmem S8192x64 .f32) (harg3 : arg3.IsWhole)
    (arg4 : Memref sig .tc .vmem S2048x64 .f32) (harg4 : arg4.IsWhole) (arg5 : Memref sig .tc .vmem S2048x64 .f32) (harg5 : arg5.IsWhole)
    (x0 : Vec F S2048x2048 .bf16) (x1 : Vec F S8192x64 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k2_pay2 (View.ld x1 (rP2 i)) (k2_pay1 (F := F)) x0)) -∗ K ⟨⟩))
      ⊢ wp frame (wpE (defs₀ (F := F)) Variants.none c none) E (cc2__z_kernel i arg2 harg2 arg3 harg3 arg4 harg4 arg5 harg5) K := by
  simp only [cc2__z_kernel_eq_skeleton]; unfold cc2__z_kernel_skel
  unfold owns
  iintro ⟨⟨%f0, %hf0, H0⟩, ⟨%f1, %hf1, H1⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.read_writes_eq_canon _ _ _ (cover2 _ _), View.canon_cons_unit_zero (S := S2048x64) zeros2,
    View.readCov_unit_zero (S := S2048x64) _ zeros2, View.readAt_eq_ld, View.readAt_eq_ld, View.ld_unit_zero (S := S2048x2048) zeros2]

set_option maxHeartbeats 1000000 in
/-- A middle column block: the scratch gains this point's product; the output buffer is not touched. -/
theorem run2_B (c : Dev nD) (E : Set ℕ) (i : grid2.Coords) (hc0 : ¬cond2_0 i) (hc1 : ¬cond2_1 i)
    (arg2 : Memref sig .tc .vmem S2048x2048 .bf16) (harg2 : arg2.IsWhole) (arg3 : Memref sig .tc .vmem S8192x64 .f32) (harg3 : arg3.IsWhole)
    (arg4 : Memref sig .tc .vmem S2048x64 .f32) (harg4 : arg4.IsWhole) (arg5 : Memref sig .tc .vmem S2048x64 .f32) (harg5 : arg5.IsWhole)
    (x0 : Vec F S2048x2048 .bf16) (x1 : Vec F S8192x64 .f32) (a : Vec F S2048x64 .f32) (K : PUnit → sProp 𝕄) :
    iprop(owns (c : Thread nD τ) arg2 fullShare x0 ∗ owns (c : Thread nD τ) arg3 fullShare x1 ∗ owns (c : Thread nD τ) arg5 fullShare a
        ∗ (iprop(owns (c : Thread nD τ) arg2 fullShare x0 ∗ owns (c : Thread nD τ) arg3 fullShare x1
            ∗ owns (c : Thread nD τ) arg5 fullShare (k2_pay2 (View.ld x1 (rP2 i)) a x0)) -∗ K ⟨⟩))
      ⊢ wp frame (wpE (defs₀ (F := F)) Variants.none c none) E (cc2__z_kernel i arg2 harg2 arg3 harg3 arg4 harg4 arg5 harg5) K := by
  simp only [cc2__z_kernel_eq_skeleton]; unfold cc2__z_kernel_skel
  unfold owns
  iintro ⟨⟨%f0, %hf0, H0⟩, ⟨%f1, %hf1, H1⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.read_writes_eq_canon _ _ _ (cover2 _ _), View.canon_cons_unit_zero (S := S2048x64) zeros2]
  simp only [View.readAt_eq_ld]
  rw [View.ld_unit_zero (S := S2048x64) zeros2, View.ld_unit_zero (S := S2048x2048) zeros2]

set_option maxHeartbeats 1000000 in
/-- Last column block: the scratch gains this point's product and is then copied into the output buffer. -/
theorem run2_C (c : Dev nD) (E : Set ℕ) (i : grid2.Coords) (hc0 : ¬cond2_0 i) (hc1 : cond2_1 i)
    (arg2 : Memref sig .tc .vmem S2048x2048 .bf16) (harg2 : arg2.IsWhole) (arg3 : Memref sig .tc .vmem S8192x64 .f32) (harg3 : arg3.IsWhole)
    (arg4 : Memref sig .tc .vmem S2048x64 .f32) (harg4 : arg4.IsWhole) (arg5 : Memref sig .tc .vmem S2048x64 .f32) (harg5 : arg5.IsWhole)
    (x0 : Vec F S2048x2048 .bf16) (x1 : Vec F S8192x64 .f32) (a : Vec F S2048x64 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare a
        ∗ (iprop(owns (c : Thread nD τ) arg2 fullShare x0 ∗ owns (c : Thread nD τ) arg3 fullShare x1
            ∗ owns (c : Thread nD τ) arg4 fullShare (k2_pay2 (View.ld x1 (rP2 i)) a x0)
            ∗ owns (c : Thread nD τ) arg5 fullShare (k2_pay2 (View.ld x1 (rP2 i)) a x0)) -∗ K ⟨⟩))
      ⊢ wp frame (wpE (defs₀ (F := F)) Variants.none c none) E (cc2__z_kernel i arg2 harg2 arg3 harg3 arg4 harg4 arg5 harg5) K := by
  simp only [cc2__z_kernel_eq_skeleton]; unfold cc2__z_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (cover2 _ _), View.canon_cons_unit_zero (S := S2048x64) zeros2,
      View.readCov_unit_zero (S := S2048x64) _ zeros2]
    simp only [View.readAt_eq_ld]
    rw [View.ld_unit_zero (S := S2048x64) zeros2, View.ld_unit_zero (S := S2048x2048) zeros2]
  iexists _; isplitr
  swap; · iexact H5
  ipureintro
  sl_unfold_run_names
  rw [View.read_writes_eq_canon _ _ _ (cover2 _ _), View.canon_cons_unit_zero (S := S2048x64) zeros2]
  simp only [View.readAt_eq_ld]
  rw [View.ld_unit_zero (S := S2048x64) zeros2, View.ld_unit_zero (S := S2048x2048) zeros2]

/-! ## The body obligation -/

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (acc2 V c n hn) ∗ restS2 (F := F) c ∗ (∃ r, prngReg c r)) := rfl

theorem PhiS2_castSucc (c : Dev nD) (t : Fin cfg2.N) :
    (dat2 V c).Φ t.castSucc = PhiS2 V c t.val (Nat.le_of_lt t.isLt) := by
  dsimp only [dat2]; simp only [Fin.coe_castSucc]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem leaves2_0 (c : Dev nD) (t : Fin cfg2.N) :
    (dat2 V c).leavesExact 0 t = owns (c : Thread nD τ) (st2_0 t) fullShare (iblk2 V c 0 t) := by
  rw [show (dat2 V c).leavesExact 0 t = owns (c : Thread nD τ) (st2_0 t) fullShare ((dat2 V c).after 0 t) from by
    unfold Dat.leavesExact; rw [liveAt2_0 t], after2_0]

theorem leaves2_1 (c : Dev nD) (t : Fin cfg2.N) :
    (dat2 V c).leavesExact 1 t = owns (c : Thread nD τ) (st2_1 t) fullShare (iblk2 V c 1 t) := by
  rw [show (dat2 V c).leavesExact 1 t = owns (c : Thread nD τ) (st2_1 t) fullShare ((dat2 V c).after 1 t) from by
    unfold Dat.leavesExact; rw [liveAt2_1 t], after2_1]

theorem leaves2_2_live (c : Dev nD) (t : Fin cfg2.N) (h : cond2_1 (grid2.coords t)) :
    (dat2 V c).leavesExact 2 t = owns (c : Thread nD τ) (st2_2 t) fullShare (acc2 V c t.val t.isLt) := by
  rw [show (dat2 V c).leavesExact 2 t = owns (c : Thread nD τ) (st2_2 t) fullShare ((dat2 V c).after 2 t) from by
    unfold Dat.leavesExact; rw [liveAt2_2 t h], after2_2]

set_option maxHeartbeats 1000000 in
/-- The body at any point, by the column block it is in. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ, leaves2_0, leaves2_1, PhiS2_castSucc]
  have hN : t.val < 16 := lt_of_lt_of_eq t.isLt (show cfg2.N = 16 from N_2)
  by_cases h0 : t.val % 4 = 0
  · have h1 : ¬t.val % 4 = 3 := by omega
    have hc1 : ¬cond2_1 (grid2.coords t) := fun h => h1 ((hcond2_1 t).mp h)
    rw [Dat.leavesExact_idle (dat2 V c) 2 t (idleAt2_2 t hc1) (noFlush2_2 t hc1), acc2_first V c t h0]
    unfold P2blk2
    by_cases hz : t.val = 0
    · rw [PhiS2_zero V c _ _ hz, PhiA2_eq]
      iintro ⟨⟨HS, Hr, Hg⟩, Ho, ⟨%d0, H0⟩, ⟨%d1, H1⟩, H2⟩
      iapply (run2_A c Set.univ (grid2.coords t) ((hcond2_0 t).mpr h0) hc1 _ _ _ _ _ _ _ _ (iblk2 V c 0 t) (iblk2 V c 1 t) _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · rw [PhiS2_pos V c _ _ hz]
      iintro ⟨⟨HS, Hr, Hg⟩, Ho, ⟨%d0, H0⟩, ⟨%d1, H1⟩, H2⟩
      iapply (run2_A c Set.univ (grid2.coords t) ((hcond2_0 t).mpr h0) hc1 _ _ _ _ _ _ _ _ (iblk2 V c 0 t) (iblk2 V c 1 t) _)
      isplitl [H0]; · iexact H0
      isplitl [H1]; · iexact H1
      isplitl [HS]; · iexists _; iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
  · have hz : t.val ≠ 0 := fun e => h0 (by rw [e])
    have hc0 : ¬cond2_0 (grid2.coords t) := fun h => h0 ((hcond2_0 t).mp h)
    rw [PhiS2_pos V c _ _ hz, acc2_next V c t h0]
    unfold P2blk2
    by_cases h1 : t.val % 4 = 3
    · have hc1 : cond2_1 (grid2.coords t) := (hcond2_1 t).mpr h1
      rw [leaves2_2_live V c t hc1, acc2_next V c t h0]
      unfold P2blk2
      iintro ⟨⟨HS, Hr, Hg⟩, Ho, ⟨%d0, H0⟩, ⟨%d1, H1⟩, ⟨%d2, H2⟩⟩
      iapply (run2_C c Set.univ (grid2.coords t) hc0 hc1 _ _ _ _ _ _ _ _ (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t hc1) (noFlush2_2 t hc1)]
      iintro ⟨⟨HS, Hr, Hg⟩, Ho, ⟨%d0, H0⟩, ⟨%d1, H1⟩, H2⟩
      iapply (run2_B c Set.univ (grid2.coords t) hc0 hc1 _ _ _ _ _ _ _ _ (iblk2 V c 0 t) (iblk2 V c 1 t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.R3.lean ====
/-
  The fourth pallas_call: recon = Z · Zᵀ on a 4 × 8 grid, block (i, j) the product of row block i (2048 rows) with
  row block j (1024 rows) of the same array Z, which two input windows read at once, each at half of its share.
  Stated at any contents `V` of the core's buffers when the call is entered.
-/
import proofs.«412814_j42056319762467_3_alg».proof.Proof.Gen.Kernel.Launch
import proofs.«412814_j42056319762467_3_alg».proof.Proof.Gen.Kernel.Skeleton
import proofs.«412814_j42056319762467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rz3 : Rect S2048x64 := Rect.unit (s := S2048x64) ![0, 0] S2048x64.size inb_S2048x64_S2048x64_0_0
abbrev ry3 : Rect S1024x64 := Rect.unit (s := S1024x64) ![0, 0] S1024x64.size inb_S1024x64_S1024x64_0_0
abbrev ro3 : Rect S2048x1024 := Rect.unit (s := S2048x1024) ![0, 0] S2048x1024.size inb_S2048x1024_S2048x1024_0_0

/-- What the body leaves in the output window's buffer: the product of the first block with the transpose of the second. -/
def out3_2 (x0 : Vec F S2048x64 .f32) (x1 : Vec F S1024x64 .f32) : Vec F S2048x1024 .f32 :=
  View.canon [⟨ro3, k3_pay1 (View.ld x0 rz3) (View.ld x1 ry3)⟩]

theorem cover3_2 (p0 : Vec F S2048x1024 .f32) (y : S2048x1024.Idx) :
    ∃ pc ∈ ([⟨ro3, p0⟩] : List (View.Piece (Elt F) S2048x1024 .f32)), y ∈ pc.1.set :=
  View.cover_of_tiled [⟨ro3, p0⟩] S2048x1024.size (by rfl) y

set_option maxHeartbeats 1000000 in
/-- The body on whole staging buffers: the inputs are read and kept, the output ends at the product. -/
theorem sound_kernel3 (c : Dev nD) (E : Set ℕ) (i : grid3.Coords)
    (arg2 : Memref sig .tc .vmem S2048x64 .f32) (harg2 : arg2.IsWhole) (arg3 : Memref sig .tc .vmem S1024x64 .f32) (harg3 : arg3.IsWhole)
    (arg4 : Memref sig .tc .vmem S2048x1024 .f32) (harg4 : arg4.IsWhole)
    (x0 : Vec F S2048x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__recon_kernel i arg2 harg2 arg3 harg3 arg4 harg4) K := by
  simp only [cc3__recon_kernel_eq_skeleton]; unfold cc3__recon_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the call on core `c`: the arrays as the call finds them; after the body each input's buffer at
    its block and the output's at the product; the two windows on Z hold it at the two halves of the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Kernel.Share3.lean ====
/-
  The last pallas_call's two input windows read ONE array, each holding half of its share. Among a core's unscoped
  buffers that array's points-to is split in two at the call's entry and joined again at its exit.
-/
import proofs.«412814_j42056319762467_3_alg».proof.Proof.Gen.Kernel.Launch
import proofs.«412814_j42056319762467_3_alg».proof.Proof.Gen.Kernel.Skeleton
import proofs.«412814_j42056319762467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The references behind the call's windows: the shared operand and the result. -/
theorem image_arrRef3 : (Finset.univ.image (Pipeline.arrRef spec3) : Finset (Ref sig .tc)) = {main_v20, main_v21} := by decide

/-- The buffers behind the windows' arrays: the shared operand and the result, each whole at the full share. -/
theorem arrBufs3_eq (c : Dev nD) (Vc : (b : Ref sig .tc) → Buf (Elt F) ((c : Thread nD τ).loc b)) :
    (Pipeline.arrBufs spec3 c Vc : sProp 𝕄)
      = iprop((((c : Thread nD τ).loc main_v20) ↦{fullShare} Vc main_v20) ∗ (((c : Thread nD τ).loc main_v21) ↦{fullShare} Vc main_v21)) := by
  unfold Pipeline.arrBufs
  rw [image_arrRef3, bigSep_insert (by decide), bigSep_singleton]
  rfl

/-- The call's arrays one by one: the shared operand at the left half for window 0 and at the right half for window 1,
    the result whole for window 2. -/
theorem arrays3_eq (c : Dev nD) (dat : Dat τ (Elt F) Unit ℕ (UR sig nD τ) ℕ cfg3 c)
    (hq0 : dat.q 0 = fullShare.left) (hq1 : dat.q 1 = fullShare.right)
    (Fw : (w : Fin cfg3.W) → Buf (Elt F) ((cfg3.win w).arr.view.loc (c.tc : Thread nD τ))) :
    (dat.arrays Fw : sProp 𝕄)
      = iprop((((c : Thread nD τ).loc main_v20) ↦{fullShare.left} Fw 0) ∗ (((c : Thread nD τ).loc main_v20) ↦{fullShare.right} Fw 1)
          ∗ (((c : Thread nD τ).loc main_v21) ↦{fullShare} Fw 2)) := by
  have hs0 : dat.share 0 = fullShare.left := by unfold Dat.share; rw [if_neg (by decide), hq0]
  have hs1 : dat.share 1 = fullShare.right := by unfold Dat.share; rw [if_neg (by decide), hq1]
  have hs2 : dat.share 2 = fullShare := by unfold Dat.share; rw [if_pos (by decide)]
  have e0 : ((cfg3.win 0).arr.view.loc (c.tc : Thread nD τ) ↦[(cfg3.win 0).arr.view.set]{dat.share 0} Fw 0 : sProp 𝕄)
      = (((c : Thread nD τ).loc main_v20) ↦{fullShare.left} Fw 0) := by rw [(arr_whole3 0).set_eq_univ, hs0]
  have e1 : ((cfg3.win 1).arr.view.loc (c.tc : Thread nD τ) ↦[(cfg3.win 1).arr.view.set]{dat.share 1} Fw 1 : sProp 𝕄)
      = (((c : Thread nD τ).loc main_v20) ↦{fullShare.right} Fw 1) := by rw [(arr_whole3 1).set_eq_univ, hs1]
  have e2 : ((cfg3.win 2).arr.view.loc (c.tc : Thread nD τ) ↦[(cfg3.win 2).arr.view.set]{dat.share 2} Fw 2 : sProp 𝕄)
      = (((c : Thread nD τ).loc main_v21) ↦{fullShare} Fw 2) := by rw [(arr_whole3 2).set_eq_univ, hs2]
  unfold Dat.arrays
  rw [bigSep_W3]
  exact congrArg₂ _ e0 (congrArg₂ _ e1 e2)

/-- ENTRY: the core's unscoped buffers at contents `Vc` are the call's arrays — the shared array at its two halves,
    the result array whole — at the proof data's entry contents, and the unscoped rest. -/
theorem arrays_of_unscopedBufs3 (c : Dev nD) (Vc : (b : Ref sig .tc) → Buf (Elt F) ((c : Thread nD τ).loc b))
    (dat : Dat τ (Elt F) Unit ℕ (UR sig nD τ) ℕ cfg3 c)
    (hq0 : dat.q 0 = fullShare.left) (hq1 : dat.q 1 = fullShare.right)
    (hA : ∀ w, dat.A w = Vc (Pipeline.arrRef spec3 w)) :
    (unscopedBufs c Vc : sProp 𝕄) ⊢ iprop(dat.arrays dat.A ∗ Pipeline.unscopedRest spec3 c Vc) := by
  rw [Pipeline.unscopedBufs_split₀ (fun _ : Unit => cfg3) () winFacts₀3.arr_unscoped c Vc]
  show iprop((Pipeline.arrBufs spec3 c Vc : sProp 𝕄) ∗ Pipeline.unscopedRest spec3 c Vc) ⊢ _
  rw [arrBufs3_eq, arrays3_eq c dat hq0 hq1, hA 0, hA 1, hA 2]
  iintro ⟨⟨H20, H21⟩, HR⟩
  ihave H := (pointsTo_share (PosShare.mem_left_op_right fullShare)).1 $$ H20
  icases H with ⟨Hl, Hr⟩
  isplitr [HR]
  · isplitl [Hl]; · iexact Hl
    isplitl [Hr]; · iexact Hr
    iexact H21
  · iexact HR

/-- EXIT: the call's arrays at contents `Fw` and the unscoped rest at `Vc` are the core's unscoped buffers at any
    valuation `Vc'` that has the arrays at `Fw` and agrees with `Vc` off them. -/
theorem unscopedBufs_of_arrays3 (c : Dev nD) (Vc Vc' : (b : Ref sig .tc) → Buf (Elt F) ((c : Thread nD τ).loc b))
    (dat : Dat τ (Elt F) Unit ℕ (UR sig nD τ) ℕ cfg3 c)
    (hq0 : dat.q 0 = fullShare.left) (hq1 : dat.q 1 = fullShare.right)
    (Fw : (w : Fin cfg3.W) → Buf (Elt F) ((cfg3.win w).arr.view.loc (c.tc : Thread nD τ)))
    (hF : ∀ w, Fw w = Vc' (Pipeline.arrRef spec3 w))
    (hrest : ∀ b, b ∉ Finset.univ.image (Pipeline.arrRef spec3) → Vc' b = Vc b) :
    iprop(dat.arrays Fw ∗ Pipeline.unscopedRest spec3 c Vc) ⊢ (unscopedBufs c Vc' : sProp 𝕄) := by
  have hR : (Pipeline.unscopedRest spec3 c Vc : sProp 𝕄) = Pipeline.unscopedRest spec3 c Vc' := by
    unfold Pipeline.unscopedRest
    exact bigSep_congr fun b hb => by rw [hrest b (Finset.mem_sdiff.mp hb).2]
  rw [Pipeline.unscopedBufs_split₀ (fun _ : Unit => cfg3) () winFacts₀3.arr_unscoped c Vc']
  show _ ⊢ iprop((Pipeline.arrBufs spec3 c Vc' : sProp 𝕄) ∗ Pipeline.unscopedRest spec3 c Vc')
  rw [arrBufs3_eq, arrays3_eq c dat hq0 hq1, hF 0, hF 1, hF 2, hR]
  iintro ⟨⟨Hl, Hr, H21⟩, HR⟩
  isplitr [HR]
  · isplitl [Hl Hr]
    · iapply (pointsTo_share (PosShare.mem_left_op_right fullShare)).2
      isplitl [Hl]; · iexact Hl
      iexact Hr
    · iexact H21
  · iexact HR

end Cert.Kernel.Hand

end
-- ==== Proof.Kernel.Run.lean ====
/-
  The whole run of the program: the host operations, then the four pallas_calls one after the other. Between two of
  them every unscoped buffer of a core is held at named contents — the launch memory, then what the host operations
  compute, then, call by call, the call's arrays at what its write-backs leave — so that at the end every buffer,
  the result among them, is read back at its name.
-/
import proofs.«412814_j42056319762467_3_alg».proof.Proof.Kernel.R0
import proofs.«412814_j42056319762467_3_alg».proof.Proof.Kernel.R1
import proofs.«412814_j42056319762467_3_alg».proof.Proof.Kernel.R2
import proofs.«412814_j42056319762467_3_alg».proof.Proof.Kernel.R3
import proofs.«412814_j42056319762467_3_alg».proof.Proof.Kernel.Share3
import proofs.«412814_j42056319762467_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the host operations (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At pallas_call 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At pallas_call 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At pallas_call 2's exit: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- At the last call's exit: the result array at what the pipeline leaves, every other buffer as entered (the array the
    two input windows share is not written). -/
def W5 (c : Dev nD) : Valuation τ sig (Elt F) :=
  Function.update (W4 m c) (Proc.devRef .tc main_v21) ((dat3 (V4 m) c).arrAt 2 cfg3.N)
abbrev V5 : (c : Dev nD) → (b : Ref sig .tc) → Buf (Elt F) ((c : Thread nD τ).loc b) := fun c b => W5 m c b
theorem W5_main_v21 (c : Dev nD) : W5 m c (Proc.devRef .tc main_v21) = (dat3 (V4 m) c).arrAt 2 cfg3.N := by
  unfold W5; exact Function.update_self ..
theorem W5_of_ne (c : Dev nD) (b : Ref sig .tc) (hb : b ≠ main_v21) :
    W5 m c (Proc.devRef .tc b) = W4 m c (Proc.devRef .tc b) := by
  unfold W5; exact Function.update_of_ne (StableHlo.devRef_ne_of_ne hb) ..
theorem hF3 (c : Dev nD) (w : Fin cfg3.W) : (dat3 (V4 m) c).arrAt w cfg3.N = V5 m c (Pipeline.arrRef spec3 w) := by
  match w with
  | ⟨0, _⟩ => exact ((dat3 (V4 m) c).arrAt_in 0 rfl _).trans ((A_eq3 (V4 m) c 0).trans (W5_of_ne m c main_v20 (by decide)).symm)
  | ⟨1, _⟩ => exact ((dat3 (V4 m) c).arrAt_in 1 rfl _).trans ((A_eq3 (V4 m) c 1).trans (W5_of_ne m c main_v20 (by decide)).symm)
  | ⟨2, _⟩ => exact (W5_main_v21 m c).symm
theorem hrest3 (c : Dev nD) : ∀ b, b ∉ Finset.univ.image (Pipeline.arrRef spec3) → V5 m c b = V4 m c b :=
  fun b hb => W5_of_ne m c b fun e => hb (Finset.mem_image.mpr ⟨2, Finset.mem_univ _, e.symm⟩)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := V1_of m c main_arg0 (by decide)
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = m ((c : Thread nD τ).loc main_arg1) := V1_of m c main_arg1 (by decide)
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := V1_of m c main_arg2 (by decide)
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := V1_of m c main_arg3 (by decide)
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = m ((c : Thread nD τ).loc main_arg4) := V1_of m c main_arg4 (by decide)
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of_ne m c main_arg5 (by decide)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = m ((c : Thread nD τ).loc main_arg5) := V1_of m c main_arg5 (by decide)

/-! ## The proof data family and the thread state -/

abbrev adm : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The calls as segments -/

-- `iapply` of a library lemma stated over `pin pcs a p` unifies with the pinned configuration only when unification may
-- unfold plain definitions in a metavariable's type
set_option backward.isDefEq.respectTransparency.types false in
/-- Pallas_call 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Pallas_call 1 over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Pallas_call 2 over the thread state: entered from every unscoped buffer at `W3`, left at `W4`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h.trans (hin2 (V3 m) c)
  hout c := by
    rw [Pipeline.ownSems0_none]
    have h : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (hout2 (V3 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Pallas_call 3 over the thread state: entered from every unscoped buffer at `W4`, left at `W5`. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := arrays_of_unscopedBufs3 (F := F) c (V4 m c) (pdats m 3 c) rfl rfl fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := unscopedBufs_of_arrays3 (F := F) c (V4 m c) (V5 m c) (pdats m 3 c) rfl rfl
      ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m), .region (reg1 m), .region (reg2 m), .region (reg3 m) ]
theorem main_run (c : Dev nD) : main (F := F) c = Pipeline.Seg.run (segs m) := (main_chain c).trans (by chain_rfl)

variable (ρ : Dev nD → PrngReg)

set_option backward.isDefEq.respectTransparency.types false in
/-- THE RUN: from any memory with zero counters every weakly fair execution of the program terminates, nothing
    faulting, and every final state holds each unscoped buffer of each core at its last named contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.Kernel.Hand

end
-- ==== Proof.KernelIdeal.R0.lean ====
/-
  The first pallas_call: P1 = x · W1, four row blocks of 2048 rows, each block one matrix product.
  Stated at any contents `V` of the core's buffers when the call is entered.
-/
import proofs.«412814_j42056319762467_3_alg».proof.Proof.Gen.KernelIdeal.Launch
import proofs.«412814_j42056319762467_3_alg».proof.Proof.Gen.KernelIdeal.Skeleton
import proofs.«412814_j42056319762467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S2048x512 := Rect.unit (s := S2048x512) ![0, 0] S2048x512.size inb_S2048x512_S2048x512_0_0
abbrev rw0 : Rect S512x256 := Rect.unit (s := S512x256) ![0, 0] S512x256.size inb_S512x256_S512x256_0_0
abbrev ro0 : Rect S2048x256 := Rect.unit (s := S2048x256) ![0, 0] S2048x256.size inb_S2048x256_S2048x256_0_0

/-- What the body leaves in the output window's buffer: the product of the two input blocks, stored whole. -/
def out0_2 (x0 : Vec F S2048x512 .f32) (x1 : Vec F S512x256 .bf16) : Vec F S2048x256 .f32 :=
  View.canon [⟨ro0, k0_pay1 (View.ld x0 rx0) (View.ld x1 rw0)⟩]

theorem cover0_2 (p0 : Vec F S2048x256 .f32) (y : S2048x256.Idx) :
    ∃ pc ∈ ([⟨ro0, p0⟩] : List (View.Piece (Elt F) S2048x256 .f32)), y ∈ pc.1.set :=
  View.cover_of_tiled [⟨ro0, p0⟩] S2048x256.size (by rfl) y

set_option maxHeartbeats 1000000 in
/-- The body on whole staging buffers: the inputs are read and kept, the output ends at the product. -/
theorem sound_kernel0 (c : Dev nD) (E : Set ℕ) (i : grid0.Coords)
    (arg1 : Memref sig .tc .vmem S2048x512 .f32) (harg1 : arg1.IsWhole) (arg2 : Memref sig .tc .vmem S512x256 .bf16) (harg2 : arg2.IsWhole)
    (arg3 : Memref sig .tc .vmem S2048x256 .f32) (harg3 : arg3.IsWhole)
    (x0 : Vec F S2048x512 .f32) (x1 : Vec F S512x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__p1_kernel i arg1 harg1 arg2 harg2 arg3 harg3) K := by
  simp only [cc0__p1_kernel_eq_skeleton]; unfold cc0__p1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the call on core `c`: the arrays as the call finds them; after the body each input's buffer at
    its block and the output's at the product of the blocks; the scratch and the generator register untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.R1.lean ====
/-
  The second pallas_call: P2 = relu (A · P1) · W2 on a 4 × 4 grid (row block i, column block k of A).
  A scratch accumulator is zeroed at k = 0, gains A(i, k) · P1(rows of block k) at every point, and at k = 3 its
  positive part times W2 is stored into the output block of row block i.
  Stated at any contents `V` of the core's buffers when the call is entered.
-/
import proofs.«412814_j42056319762467_3_alg».proof.Proof.Gen.KernelIdeal.Launch
import proofs.«412814_j42056319762467_3_alg».proof.Proof.Gen.KernelIdeal.Skeleton
import proofs.«412814_j42056319762467_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 2048 rows of the resident P1 buffer that the point with column block `k` reads: rows `2048 k …`. -/
abbrev rP1 (i : grid1.Coords) : Rect S8192x256 := Rect.unit (s := S8192x256) (k1_off1 i) S2048x256.size (k1_off1_inb i)

/-- Those rows of P1 at point `t`. -/
def P1blk1 (c : Dev nD) (t : Fin cfg1.N) : Vec F S2048x256 .f32 := View.ld (iblk1 V c 1 t) (rP1 (grid1.coords t))

/-- THE ACCUMULATOR: what the scratch holds after the body at position `n`. At the first point of a row block
    (`n % 4 = 0`) the zeros plus this point's product; otherwise what the point before left plus this point's product. -/
def acc1 (c : Dev nD) : (n : ℕ) → n < cfg1.N → Vec F S2048x256 .f32
  | 0, hn => k1_pay2 (P1blk1 V c ⟨0, hn⟩) (k1_pay1 (F := F)) (iblk1 V c 0 ⟨0, hn⟩)
  | n + 1, hn =>
    if (n + 1) % 4 = 0 then k1_pay2 (P1blk1 V c ⟨n + 1, hn⟩) (k1_pay1 (F := F)) (iblk1 V c 0 ⟨n + 1, hn⟩)
    else k1_pay2 (P1blk1 V c ⟨n + 1, hn⟩) (acc1 c n (Nat.lt_of_succ_lt hn)) (iblk1 V c 0 ⟨n + 1, hn⟩)

theorem acc1_first (c : Dev nD) (t : Fin cfg1.N) (h : t.val % 4 = 0) :
    acc1 V c t.val t.isLt = k1_pay2 (P1blk1 V c t) (k1_pay1 (F := F)) (iblk1 V c 0 t) := by
  obtain ⟨n, hn⟩ := t
  cases n with
  | zero => rfl
  | succ n => exact if_pos h

theorem acc1_next (c : Dev nD) (t : Fin cfg1.N) (h : ¬ t.val % 4 = 0) :
    acc1 V c t.val t.isLt
      = k1_pay2 (P1blk1 V c t) (acc1 V c (t.val - 1) (Nat.lt_of_le_of_lt (Nat.sub_le _ _) t.isLt)) (iblk1 V c 0 t) := by
  obtain ⟨n, hn⟩ := t
  cases n with
  | zero => exact absurd (Nat.zero_mod 4) h
  | succ n => exact if_neg h

/-- The region invariant before position `n`: before the first point every scoped buffer the call does not stage is at
    anything; afterwards the scratch holds the accumulator the point before left, the others are at anything. -/
def restS1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

abbrev scM1 : Memref sig .tc .vmem S2048x256 .f32 := Memref.whole cc1_scratch0

def PhiS1 (c : Dev nD) : (n : ℕ) → n ≤ cfg1.N → sProp 𝕄
  | 0, _ => Pipeline.ΦA spec1 c
  | n + 1, hn => iprop(owns (c : Thread nD τ) scM1 fullShare (acc1 V c n hn) ∗ restS1 (F := F) c ∗ (∃ r, prngReg c r))

/-- The proof data of the call on core `c`. The output window's buffer is stated after every point as the positive
    part of the accumulator times W2; it is consulted only at the points `k = 3`, where the body stores it (elsewhere
    the window is idle and its buffer is handed back untouched). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

/-! ## The two branch conditions and the idle table, in closed form over the grid -/

/-- The first conditional's condition (column block `k = 0`), as the body spells it. -/
abbrev cond1_0 (i : grid1.Coords) : Prop :=
  (Scalar.cmpi .ne (Scalar.extui (Scalar.cmpi .eq (BitVec.ofNat 32 (i 1).val) 0#32)) 0#32) = 1#1
/-- The second conditional's condition (column block `k = 3`). -/
abbrev cond1_1 (i : grid1.Coords) : Prop := k1_cond2 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; the output window is idle exactly off `k = 3`, where it is not written back. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, t.val % 4 = 3 → cfg1.idle 3 (grid1.coords t) = false := by decide +kernel
theorem idle1_3 : ∀ t : Fin cfg1.N, ¬ t.val % 4 = 3 → cfg1.idle 3 (grid1.coords t) = true := by decide +kernel
theorem noflush1_3 (t : Fin cfg1.N) (h : ¬ t.val % 4 = 3) : (cfg1.win 3).flush t = false := by
  cases hf : (cfg1.win 3).flush t
  · rfl
  · exact absurd ((flush1_3 t).mp hf) h

/-! ## What the body finds in the input windows' buffers -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The invariant: the scratch taken out of the scoped rest and put back -/

theorem scratch_mem1 :
    cc1_scratch0 ∈ (Finset.univ.filter fun b : Ref sig .tc => b.isScoped) \ Finset.univ.image (Pipeline.stageRef spec1) := by
  decide

/-- What the launch hands the call, with the scratch as a memref owned at some contents. -/
theorem PhiA1_eq (c : Dev nD) :
    (Pipeline.ΦA spec1 c : sProp 𝕄)
      = iprop((∃ d, owns (c : Thread nD τ) scM1 fullShare d) ∗ restS1 (F := F) c ∗ (∃ r, prngReg c r)) := by
  unfold Pipeline.ΦA Pipeline.scopedRest restS1
  rw [bigSep_erase scratch_mem1]
  simp only [scM1, owns_whole]
  exact BI.equiv_iff.mp ⟨Idealize.SL.BI.sep_assoc, Idealize.SL.BI.sep_assoc'⟩

theorem PhiS1_pos (c : Dev nD) (n : ℕ) (h : n ≤ cfg1.N) (hz : n ≠ 0) :
    PhiS1 V c n h = iprop(owns (c : Thread nD τ) scM1 fullShare (acc1 V c (n - 1) (by omega)) ∗ restS1 (F := F) c ∗ (∃ r, prngReg c r)) := by
  cases n with
  | zero => exact absurd rfl hz
  | succ n => rfl

/-! ## Loads and stores through a whole-buffer rectangle -/

/-- Zero offsets, as the body spells them. -/
theorem zeros2 : (![0, 0] : Fin 2 → ℕ) = fun _ => 0 := by funext a; fin_cases a <;> rfl

section Whole
variable {κ : Kind} {sp : Space} {S : Shape} {e : EltTy}

/-- A load through the whole-buffer rectangle reads the buffer's contents. -/
theorem readAt_whole (v : View sig κ sp S e) (f : v.ty.Contents (Elt F)) {off : Fin S.rank → ℕ} (h : off = fun _ => 0)
    (inb : ∀ a, off a + S.size a ≤ S.size a) :
    View.readAt (Elt F) v (Rect.unit off S.size inb).toLoadRect f = v.read (Elt F) f :=
  View.ld_unit_zero h inb _

/-- A last store through the whole-buffer rectangle covers the buffer, whatever was stored before it. -/
theorem cover_whole {off : Fin S.rank → ℕ} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons.mpr (Or.inl rfl), View.mem_set_unit_zero h inb y⟩

/-- So the buffer then reads that store's payload. -/
theorem read_writes_whole (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (cover_whole h inb w L), View.canon_cons_unit_zero h inb w L]

end Whole

/-! ## The body on whole memrefs, case by case -/

set_option maxHeartbeats 1000000 in
/-- Column blocks `k = 1, 2`: the scratch gains this point's product; the two buffers read are kept. -/
theorem run1_B (c : Dev nD) (E : Set ℕ) (i : grid1.Coords) (hc0 : ¬ cond1_0 i) (hc1 : ¬ cond1_1 i)
    (arg2 : Memref sig .tc .vmem S2048x2048 .bf16) (harg2 : arg2.IsWhole) (arg3 : Memref sig .tc .vmem S8192x256 .f32) (harg3 : arg3.IsWhole)
    (arg4 : Memref sig .tc .vmem S256x64 .bf16) (harg4 : arg4.IsWhole) (arg5 : Memref sig .tc .vmem S2048x64 .f32) (harg5 : arg5.IsWhole)
    (arg6 : Memref sig .tc .vmem S2048x256 .f32) (harg6 : arg6.IsWhole)
    (x0 : Vec F S2048x2048 .bf16) (x1 : Vec F S8192x256 .f32) (xs : Vec F S2048x256 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k1_pay2 (View.ld x1 (rP1 i)) xs x0)) -∗ K ⟨⟩))
      ⊢ wp frame (wpE (defs₀ (F := F)) Variants.none c none) E
          (cc1__gcn1_kernel i arg2 harg2 arg3 harg3 arg4 harg4 arg5 harg5 arg6 harg6) K := by
  simp only [cc1__gcn1_kernel_eq_skeleton]; unfold cc1__gcn1_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_writes_whole (S := S2048x256) _ _ zeros2, readAt_whole (S := S2048x256) _ _ zeros2,
    readAt_whole (S := S2048x2048) _ _ zeros2]
  rfl

set_option maxHeartbeats 1000000 in
/-- Column block `k = 0`: the scratch is zeroed, then gains this point's product. -/
theorem run1_A (c : Dev nD) (E : Set ℕ) (i : grid1.Coords) (hc0 : cond1_0 i) (hc1 : ¬ cond1_1 i)
    (arg2 : Memref sig .tc .vmem S2048x2048 .bf16) (harg2 : arg2.IsWhole) (arg3 : Memref sig .tc .vmem S8192x256 .f32) (harg3 : arg3.IsWhole)
    (arg4 : Memref sig .tc .vmem S256x64 .bf16) (harg4 : arg4.IsWhole) (arg5 : Memref sig .tc .vmem S2048x64 .f32) (harg5 : arg5.IsWhole)
    (arg6 : Memref sig .tc .vmem S2048x256 .f32) (harg6 : arg6.IsWhole)
    (x0 : Vec F S2048x2048 .bf16) (x1 : Vec F S8192x256 .f32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 (View.ld x1 (rP1 i)) (k1_pay1 (F := F)) x0)) -∗ K ⟨⟩))
      ⊢ wp frame (wpE (defs₀ (F := F)) Variants.none c none) E
          (cc1__gcn1_kernel i arg2 harg2 arg3 harg3 arg4 harg4 arg5 harg5 arg6 harg6) K := by
  simp only [cc1__gcn1_kernel_eq_skeleton]; unfold cc1__gcn1_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_writes_whole (S := S2048x256) _ _ zeros2, View.readCov_unit_zero (S := S2048x256) _ zeros2,
    readAt_whole (S := S2048x2048) _ _ zeros2]
  rfl

set_option maxHeartbeats 1000000 in
/-- Column block `k = 3`: the scratch gains this point's product, and its positive part times W2 is stored whole
    into the output buffer. -/
theorem run1_C (c : Dev nD) (E : Set ℕ) (i : grid1.Coords) (hc0 : ¬ cond1_0 i) (hc1 : cond1_1 i)
    (arg2 : Memref sig .tc .vmem S2048x2048 .bf16) (harg2 : arg2.IsWhole) (arg3 : Memref sig .tc .vmem S8192x256 .f32) (harg3 : arg3.IsWhole)
    (arg4 : Memref sig .tc .vmem S256x64 .bf16) (harg4 : arg4.IsWhole) (arg5 : Memref sig .tc .vmem S2048x64 .f32) (harg5 : arg5.IsWhole)
    (arg6 : Memref sig .tc .vmem S2048x256 .f32) (harg6 : arg6.IsWhole)
    (x0 : Vec F S2048x2048 .bf16) (x1 : Vec F S8192x256 .f32) (x2 : Vec F S256x64 .bf16) (xs : Vec F S2048x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 (View.ld x1 (rP1 i)) xs x0) x2)
            ∗ owns (c : Thread nD τ) arg6 fullShare (k1_pay2 (View.ld x1 (rP1 i)) xs x0)) -∗ K ⟨⟩))
      ⊢ wp frame (wpE (defs₀ (F := F)) Variants.none c none) E
          (cc1__gcn1_kernel i arg2 harg2 arg3 harg3 arg4 harg4 arg5 harg5 arg6 harg6) K := by
  simp only [cc1__gcn1_kernel_eq_skeleton]; unfold cc1__gcn1_kernel_skel
  unfold owns
  iintro ⟨⟨%f0, %hf0, H0⟩, ⟨%f1, %hf1, H1⟩, ⟨%f2, %hf2, H2⟩, ⟨%d5, %f5, -, H5⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    rw [read_writes_whole (S := S2048x64) _ _ zeros2, View.readCov_unit_zero (S := S2048x256) _ zeros2,
      readAt_whole (S := S2048x256) _ _ zeros2, readAt_whole (S := S2048x2048) _ _ zeros2, readAt_whole (S := S256x64) _ _ zeros2]
    rfl
  iexists _; isplitr
  swap; · iexact HS
  ipureintro
  sl_unfold_run_names
  rw [read_writes_whole (S := S2048x256) _ _ zeros2, readAt_whole (S := S2048x256) _ _ zeros2,
    readAt_whole (S := S2048x2048) _ _ zeros2]
  rfl

/-! ## The body obligation, point by point -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(owns (c : Thread nD τ) scM1 fullShare (acc1 V c n hn) ∗ restS1 (F := F) c ∗ (∃ r, prngReg c r)) := rfl

/-- The invariant a point starts from, by the point's number. -/
theorem Phi1_castSucc (c : Dev nD) (t : Fin cfg1.N) : (dat1 V c).Φ t.castSucc = PhiS1 V c t.val (Nat.le_of_lt t.isLt) := rfl

/-- The input windows are live everywhere: the body leaves each at its block. -/
theorem leaves1_0 (c : Dev nD) (t : Fin cfg1.N) :
    (dat1 V c).leavesExact 0 t = owns (c : Thread nD τ) (st1_0 t) fullShare (iblk1 V c 0 t) := by
  unfold Dat.leavesExact; rw [live1_0 t, after1_0]
theorem leaves1_1 (c : Dev nD) (t : Fin cfg1.N) :
    (dat1 V c).leavesExact 1 t = owns (c : Thread nD τ) (st1_1 t) fullShare (iblk1 V c 1 t) := by
  unfold Dat.leavesExact; rw [live1_1 t, after1_1]
theorem leaves1_2 (c : Dev nD) (t : Fin cfg1.N) :
    (dat1 V c).leavesExact 2 t = owns (c : Thread nD τ) (st1_2 t) fullShare (iblk1 V c 2 t) := by
  unfold Dat.leavesExact; rw [live1_2 t, after1_2]
/-- The output window is live at `k = 3`, where the body stores it whole. -/
theorem leaves1_3 (c : Dev nD) (t : Fin cfg1.N) (h3 : t.val % 4 = 3) :
    (dat1 V c).leavesExact 3 t
      = owns (c : Thread nD τ) (st1_3 t) fullShare (k1_pay3 (acc1 V c t.val t.isLt) (iblk1 V c 2 t)) := by
  unfold Dat.leavesExact; rw [live1_3 t h3, after1_3]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 1000000 in
/-- A point with `k = 0`: the scratch, at anything, is zeroed and gains the first product; the output window is idle. -/
theorem sound_body1_A (c : Dev nD) (t : Fin cfg1.N) (h0 : t.val % 4 = 0) :
    bodyPre1 V c t ⊢ wp frame (wpE (defs₀ (F := F)) Variants.none c none) Set.univ (bodyAt1 t) (fun _ => bodyPost1 V c t) := by
  have h3 : ¬ t.val % 4 = 3 := by omega
  have hc0 : cond1_0 (grid1.coords t) := (hcond1_0 t).mpr h0
  have hc1 : ¬ cond1_1 (grid1.coords t) := fun h => h3 ((hcond1_1 t).mp h)
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl, PhiS1_succ, Phi1_castSucc,
    leaves1_0, leaves1_1, leaves1_2, Dat.leavesExact_idle (dat1 V c) 3 t (idle1_3 t h3) (noflush1_3 t h3),
    acc1_first V c t h0]
  unfold P1blk1
  by_cases hz : t.val = 0
  · rw [PhiS1_zero V c _ _ hz, PhiA1_eq]
    iintro ⟨⟨HS, HR, Hg⟩, Ho, ⟨%d0, H0⟩, ⟨%d1, H1⟩, ⟨%d2, H2⟩, ⟨%d3, H3⟩⟩
    iapply (run1_A c Set.univ _ hc0 hc1 _ _ _ _ _ _ _ _ _ _ (iblk1 V c 0 t) (iblk1 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexists _; iexact H3
  · rw [PhiS1_pos V c _ _ hz]
    iintro ⟨⟨HS, HR, Hg⟩, Ho, ⟨%d0, H0⟩, ⟨%d1, H1⟩, ⟨%d2, H2⟩, ⟨%d3, H3⟩⟩
    iapply (run1_A c Set.univ _ hc0 hc1 _ _ _ _ _ _ _ _ _ _ (iblk1 V c 0 t) (iblk1 V c 1 t) _)
    isplitl [H0]; · iexact H0
    isplitl [H1]; · iexact H1
    isplitl [HS]; · iexists _; iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexists _; iexact H3

set_option maxHeartbeats 1000000 in
/-- A point with `k = 1, 2`: the scratch gains this point's product over what the point before left; the output window
    is idle. -/
theorem sound_body1_B (c : Dev nD) (t : Fin cfg1.N) (h0 : ¬ t.val % 4 = 0) (h3 : ¬ t.val % 4 = 3) :
    bodyPre1 V c t ⊢ wp frame (wpE (defs₀ (F := F)) Variants.none c none) Set.univ (bodyAt1 t) (fun _ => bodyPost1 V c t) := by
  have hz : t.val ≠ 0 := fun e => h0 (by rw [e])
  have hc0 : ¬ cond1_0 (grid1.coords t) := fun h => h0 ((hcond1_0 t).mp h)
  have hc1 : ¬ cond1_1 (grid1.coords t) := fun h => h3 ((hcond1_1 t).mp h)
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl, PhiS1_succ, Phi1_castSucc, PhiS1_pos V c _ _ hz,
    leaves1_0, leaves1_1, leaves1_2, Dat.leavesExact_idle (dat1 V c) 3 t (idle1_3 t h3) (noflush1_3 t h3),
    acc1_next V c t h0]
  unfold P1blk1
  iintro ⟨⟨HS, HR, Hg⟩, Ho, ⟨%d0, H0⟩, ⟨%d1, H1⟩, ⟨%d2, H2⟩, ⟨%d3, H3⟩⟩
  iapply (run1_B c Set.univ _ hc0 hc1 _ _ _ _ _ _ _ _ _ _ (iblk1 V c 0 t) (iblk1 V c 1 t) _ _)
  isplitl [H0]; · iexact H0
  isplitl [H1]; · iexact H1
  isplitl [HS]; · iexact HS
  iintro ⟨H0, H1, HS⟩
  isplitl [HS HR Hg]
  · isplitl [HS]; · iexact HS
    isplitl [HR]; · iexact HR
    iexact Hg
  isplitl [Ho]; · iexact Ho
  isplitl [H0]; · iexact H0
  isplitl [H1]; · iexact H1
  isplitl [H2]; · iexact H2
  iexists _; iexact H3

set_option maxHeartbeats 1000000 in
/-- A point with `k = 3`: the scratch gains the last product, and the output buffer, whatever it held, is stored whole. -/
theorem sound_body1_C (c : Dev nD) (t : Fin cfg1.N) (h3 : t.val % 4 = 3) :
    bodyPre1 V c t ⊢ wp frame (wpE (defs₀ (F := F)) Variants.none c none) Set.univ (bodyAt1 t) (fun _ => bodyPost1 V c t) := by
  have h0 : ¬ t.val % 4 = 0 := by omega
  have hz : t.val ≠ 0 := fun e => h0 (by rw [e])
  have hc0 : ¬ cond1_0 (grid1.coords t) := fun h => h0 ((hcond1_0 t).mp h)
  have hc1 : cond1_1 (grid1.coords t) := (hcond1_1 t).mpr h3
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl, PhiS1_succ, Phi1_castSucc, PhiS1_pos V c _ _ hz,
    leaves1_0, leaves1_1, leaves1_2, leaves1_3 V c t h3, acc1_next V c t h0]
  unfold P1blk1
  iintro ⟨⟨HS, HR, Hg⟩, Ho, ⟨%d0, H0⟩, ⟨%d1, H1⟩, ⟨%d2, H2⟩, ⟨%d3, H3⟩⟩
  iapply (run1_C c Set.univ _ hc0 hc1 _ _ _ _ _ _ _ _ _ _ (iblk1 V c 0 t) (iblk1 V c 1 t) (iblk1 V c 2 t) _ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR Hg]
  · isplitl [HS]; · iexact HS
    isplitl [HR]; · iexact HR
    iexact Hg
  isplitl [Ho]; · iexact Ho
  isplitl [H0]; · iexact H0
  isplitl [H1]; · iexact H1
  isplitl [H2]; · iexact H2
  iexact H3

/-- The body at any point: the point's column block says which case it is. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · exact sound_body1_A V c t h0
  · by_cases h3 : t.val % 4 = 3
    · exact sound_body1_C V c t h3
    · exact sound_body1_B V c t h0 h3

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl]
  exact Entails.of_eq rfl

/-- The invariant after the last point gives the scoped buffers and the generator register back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨HS, HR, Hg⟩
  isplitl [HS]
  · iexists _; iexact HS
  isplitl [HR]
  · iexact HR
  iexact Hg

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.R2.lean ====
/-
  The third pallas_call: Z = A · P2 on a 4 × 4 grid (row block i, column block k of A).
  A scratch accumulator is zeroed at k = 0, gains A(i, k) · P2(rows of block k) at every point, and at k = 3 is
  copied into the output block of row block i.
  Stated at any contents `V` of the core's buffers when the call is entered.
-/
import proofs.«412814_j42056319762467_3_alg».proof.Proof.Gen.KernelIdeal.Launch
import proofs.«412814_j42056319762467_3_alg».proof.Proof.Gen.KernelIdeal.Skeleton
import proofs.«412814_j42056319762467_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The 2048 rows of the resident P2 buffer that the point with column block `k` reads: rows `2048 k …`. -/
abbrev rP2 (i : grid2.Coords) : Rect S8192x64 := Rect.unit (s := S8192x64) (k2_off1 i) S2048x64.size (k2_off1_inb i)

/-- Those rows of P2 at point `t`. -/
def P2blk2 (c : Dev nD) (t : Fin cfg2.N) : Vec F S2048x64 .f32 := View.ld (iblk2 V c 1 t) (rP2 (grid2.coords t))

/-- THE ACCUMULATOR: what the scratch holds after the body at position `n`. At the first point of a row block
    (`n % 4 = 0`) the zeros plus this point's product; otherwise what the point before left plus this point's product. -/
def acc2 (c : Dev nD) : (n : ℕ) → n < cfg2.N → Vec F S2048x64 .f32
  | 0, hn => k2_pay2 (P2blk2 V c ⟨0, hn⟩) (k2_pay1 (F := F)) (iblk2 V c 0 ⟨0, hn⟩)
  | n + 1, hn =>
    if (n + 1) % 4 = 0 then k2_pay2 (P2blk2 V c ⟨n + 1, hn⟩) (k2_pay1 (F := F)) (iblk2 V c 0 ⟨n + 1, hn⟩)
    else k2_pay2 (P2blk2 V c ⟨n + 1, hn⟩) (acc2 c n (Nat.lt_of_succ_lt hn)) (iblk2 V c 0 ⟨n + 1, hn⟩)

theorem acc2_first (c : Dev nD) (t : Fin cfg2.N) (h : t.val % 4 = 0) :
    acc2 V c t.val t.isLt = k2_pay2 (P2blk2 V c t) (k2_pay1 (F := F)) (iblk2 V c 0 t) := by
  obtain ⟨n, hn⟩ := t
  cases n with
  | zero => rfl
  | succ n => exact if_pos h

theorem acc2_next (c : Dev nD) (t : Fin cfg2.N) (h : ¬ t.val % 4 = 0) :
    acc2 V c t.val t.isLt
      = k2_pay2 (P2blk2 V c t) (acc2 V c (t.val - 1) (Nat.lt_of_le_of_lt (Nat.sub_le _ _) t.isLt)) (iblk2 V c 0 t) := by
  obtain ⟨n, hn⟩ := t
  cases n with
  | zero => exact absurd (Nat.zero_mod 4) h
  | succ n => exact if_neg h

/-- The region invariant before position `n`: before the first point every scoped buffer the call does not stage is at
    anything; afterwards the scratch holds the accumulator the point before left, the others are at anything. -/
def restS2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

abbrev scM2 : Memref sig .tc .vmem S2048x64 .f32 := Memref.whole cc2_scratch0

def PhiS2 (c : Dev nD) : (n : ℕ) → n ≤ cfg2.N → sProp 𝕄
  | 0, _ => Pipeline.ΦA spec2 c
  | n + 1, hn => iprop(owns (c : Thread nD τ) scM2 fullShare (acc2 V c n hn) ∗ restS2 (F := F) c ∗ (∃ r, prngReg c r))

/-- The proof data of the call on core `c`. The output window's buffer is stated after every point as the
    accumulator; it is consulted only at the points `k = 3`, where the body stores it (elsewhere the window is idle
    and its buffer is handed back untouched). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-! ## The scoped rest with the scratch taken out -/

/-- The scratch is a scoped buffer that no window stages. -/
theorem scratch2_mem : cc2_scratch0 ∈ (Finset.univ.filter fun b : Ref sig .tc => b.isScoped) \ Finset.univ.image (Pipeline.stageRef spec2) := by
  decide

/-- What the launch hands the call, with the scratch named: the scratch owned whole at some contents, the other
    scoped buffers at anything, the generator register at some state. -/
theorem PhiA2_eq (c : Dev nD) :
    (Pipeline.ΦA spec2 c : sProp 𝕄)
      = iprop((∃ d, owns (c : Thread nD τ) scM2 fullShare d) ∗ restS2 (F := F) c ∗ (∃ r, prngReg c r)) := by
  unfold Pipeline.ΦA Pipeline.scopedRest restS2
  rw [bigSep_erase scratch2_mem]
  simp only [scM2, owns_whole]
  exact (Std.Associative.assoc (op := (BI.sep : sProp 𝕄 → _ → _)) _ _ _)

/-- What the launch hands the call is the invariant before the first point. -/
theorem hin2 (c : Dev nD) : Pipeline.ΦA spec2 c ⊢ (dat2 V c).Φ 0 := by
  rw [show (dat2 V c).Φ 0 = Pipeline.ΦA spec2 c from rfl]

theorem PhiS2_pos (c : Dev nD) (n : ℕ) (h : n ≤ cfg2.N) (hz : n ≠ 0) :
    PhiS2 V c n h = iprop(owns (c : Thread nD τ) scM2 fullShare (acc2 V c (n - 1) (by omega)) ∗ restS2 (F := F) c ∗ (∃ r, prngReg c r)) := by
  cases n with
  | zero => exact absurd rfl hz
  | succ n => rfl

/-- The invariant after the last point gives the scoped buffers and the generator register back. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨HS, Hr, Hg⟩
  isplitl [HS]
  · iexists _; iexact HS
  isplitl [Hr]; · iexact Hr
  iexact Hg

/-! ## The body's two conditions and the output window's idle points, decided over the grid -/

/-- The first `scf.if`'s condition: the column block is the first. -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second `scf.if`'s condition: the column block is the last. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
/-- Where the column block is not the last the output window is idle and its block is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The body on whole buffers, one run per case -/

theorem zeros2 : (![0, 0] : Fin 2 → Nat) = fun _ => 0 := funext fun a => by fin_cases a <;> rfl

/-- The whole-buffer rectangle of the scratch and of the output block. -/
abbrev rS2 : Rect S2048x64 := Rect.unit (s := S2048x64) ![0, 0] S2048x64.size inb_S2048x64_S2048x64_0_0

/-- A list of stores whose last is of the whole buffer covers it. -/
theorem cover2 (p0 : Vec F S2048x64 .f32) (L : List (View.Piece (Elt F) S2048x64 .f32)) (y : S2048x64.Idx) :
    ∃ pc ∈ ((⟨rS2, p0⟩ : View.Piece (Elt F) S2048x64 .f32) :: L), y ∈ pc.1.set :=
  ⟨_, List.mem_cons_self, View.mem_set_unit_zero (S := S2048x64) zeros2 inb_S2048x64_S2048x64_0_0 y⟩

set_option maxHeartbeats 1000000 in
/-- First column block: the scratch is zeroed, then gains this point's product; the output buffer is not touched. -/
theorem run2_A (c : Dev nD) (E : Set ℕ) (i : grid2.Coords) (hc0 : cond2_0 i) (hc1 : ¬cond2_1 i)
    (arg2 : Memref sig .tc .vmem S2048x2048 .bf16) (harg2 : arg2.IsWhole) (arg3 : Memref sig .tc .vmem S8192x64 .f32) (harg3 : arg3.IsWhole)
    (arg4 : Memref sig .tc .vmem S2048x64 .f32) (harg4 : arg4.IsWhole) (arg5 : Memref sig .tc .vmem S2048x64 .f32) (harg5 : arg5.IsWhole)
    (x0 : Vec F S2048x2048 .bf16) (x1 : Vec F S8192x64 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k2_pay2 (View.ld x1 (rP2 i)) (k2_pay1 (F := F)) x0)) -∗ K ⟨⟩))
      ⊢ wp frame (wpE (defs₀ (F := F)) Variants.none c none) E (cc2__z_kernel i arg2 harg2 arg3 harg3 arg4 harg4 arg5 harg5) K := by
  simp only [cc2__z_kernel_eq_skeleton]; unfold cc2__z_kernel_skel
  unfold owns
  iintro ⟨⟨%f0, %hf0, H0⟩, ⟨%f1, %hf1, H1⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.read_writes_eq_canon _ _ _ (cover2 _ _), View.canon_cons_unit_zero (S := S2048x64) zeros2,
    View.readCov_unit_zero (S := S2048x64) _ zeros2, View.readAt_eq_ld, View.readAt_eq_ld, View.ld_unit_zero (S := S2048x2048) zeros2]

set_option maxHeartbeats 1000000 in
/-- A middle column block: the scratch gains this point's product; the output buffer is not touched. -/
theorem run2_B (c : Dev nD) (E : Set ℕ) (i : grid2.Coords) (hc0 : ¬cond2_0 i) (hc1 : ¬cond2_1 i)
    (arg2 : Memref sig .tc .vmem S2048x2048 .bf16) (harg2 : arg2.IsWhole) (arg3 : Memref sig .tc .vmem S8192x64 .f32) (harg3 : arg3.IsWhole)
    (arg4 : Memref sig .tc .vmem S2048x64 .f32) (harg4 : arg4.IsWhole) (arg5 : Memref sig .tc .vmem S2048x64 .f32) (harg5 : arg5.IsWhole)
    (x0 : Vec F S2048x2048 .bf16) (x1 : Vec F S8192x64 .f32) (a : Vec F S2048x64 .f32) (K : PUnit → sProp 𝕄) :
    iprop(owns (c : Thread nD τ) arg2 fullShare x0 ∗ owns (c : Thread nD τ) arg3 fullShare x1 ∗ owns (c : Thread nD τ) arg5 fullShare a
        ∗ (iprop(owns (c : Thread nD τ) arg2 fullShare x0 ∗ owns (c : Thread nD τ) arg3 fullShare x1
            ∗ owns (c : Thread nD τ) arg5 fullShare (k2_pay2 (View.ld x1 (rP2 i)) a x0)) -∗ K ⟨⟩))
      ⊢ wp frame (wpE (defs₀ (F := F)) Variants.none c none) E (cc2__z_kernel i arg2 harg2 arg3 harg3 arg4 harg4 arg5 harg5) K := by
  simp only [cc2__z_kernel_eq_skeleton]; unfold cc2__z_kernel_skel
  unfold owns
  iintro ⟨⟨%f0, %hf0, H0⟩, ⟨%f1, %hf1, H1⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.read_writes_eq_canon _ _ _ (cover2 _ _), View.canon_cons_unit_zero (S := S2048x64) zeros2]
  simp only [View.readAt_eq_ld]
  rw [View.ld_unit_zero (S := S2048x64) zeros2, View.ld_unit_zero (S := S2048x2048) zeros2]

set_option maxHeartbeats 1000000 in
/-- Last column block: the scratch gains this point's product and is then copied into the output buffer. -/
theorem run2_C (c : Dev nD) (E : Set ℕ) (i : grid2.Coords) (hc0 : ¬cond2_0 i) (hc1 : cond2_1 i)
    (arg2 : Memref sig .tc .vmem S2048x2048 .bf16) (harg2 : arg2.IsWhole) (arg3 : Memref sig .tc .vmem S8192x64 .f32) (harg3 : arg3.IsWhole)
    (arg4 : Memref sig .tc .vmem S2048x64 .f32) (harg4 : arg4.IsWhole) (arg5 : Memref sig .tc .vmem S2048x64 .f32) (harg5 : arg5.IsWhole)
    (x0 : Vec F S2048x2048 .bf16) (x1 : Vec F S8192x64 .f32) (a : Vec F S2048x64 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare a
        ∗ (iprop(owns (c : Thread nD τ) arg2 fullShare x0 ∗ owns (c : Thread nD τ) arg3 fullShare x1
            ∗ owns (c : Thread nD τ) arg4 fullShare (k2_pay2 (View.ld x1 (rP2 i)) a x0)
            ∗ owns (c : Thread nD τ) arg5 fullShare (k2_pay2 (View.ld x1 (rP2 i)) a x0)) -∗ K ⟨⟩))
      ⊢ wp frame (wpE (defs₀ (F := F)) Variants.none c none) E (cc2__z_kernel i arg2 harg2 arg3 harg3 arg4 harg4 arg5 harg5) K := by
  simp only [cc2__z_kernel_eq_skeleton]; unfold cc2__z_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (cover2 _ _), View.canon_cons_unit_zero (S := S2048x64) zeros2,
      View.readCov_unit_zero (S := S2048x64) _ zeros2]
    simp only [View.readAt_eq_ld]
    rw [View.ld_unit_zero (S := S2048x64) zeros2, View.ld_unit_zero (S := S2048x2048) zeros2]
  iexists _; isplitr
  swap; · iexact H5
  ipureintro
  sl_unfold_run_names
  rw [View.read_writes_eq_canon _ _ _ (cover2 _ _), View.canon_cons_unit_zero (S := S2048x64) zeros2]
  simp only [View.readAt_eq_ld]
  rw [View.ld_unit_zero (S := S2048x64) zeros2, View.ld_unit_zero (S := S2048x2048) zeros2]

/-! ## The body obligation -/

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (acc2 V c n hn) ∗ restS2 (F := F) c ∗ (∃ r, prngReg c r)) := rfl

theorem PhiS2_castSucc (c : Dev nD) (t : Fin cfg2.N) :
    (dat2 V c).Φ t.castSucc = PhiS2 V c t.val (Nat.le_of_lt t.isLt) := by
  dsimp only [dat2]; simp only [Fin.coe_castSucc]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem leaves2_0 (c : Dev nD) (t : Fin cfg2.N) :
    (dat2 V c).leavesExact 0 t = owns (c : Thread nD τ) (st2_0 t) fullShare (iblk2 V c 0 t) := by
  rw [show (dat2 V c).leavesExact 0 t = owns (c : Thread nD τ) (st2_0 t) fullShare ((dat2 V c).after 0 t) from by
    unfold Dat.leavesExact; rw [liveAt2_0 t], after2_0]

theorem leaves2_1 (c : Dev nD) (t : Fin cfg2.N) :
    (dat2 V c).leavesExact 1 t = owns (c : Thread nD τ) (st2_1 t) fullShare (iblk2 V c 1 t) := by
  rw [show (dat2 V c).leavesExact 1 t = owns (c : Thread nD τ) (st2_1 t) fullShare ((dat2 V c).after 1 t) from by
    unfold Dat.leavesExact; rw [liveAt2_1 t], after2_1]

theorem leaves2_2_live (c : Dev nD) (t : Fin cfg2.N) (h : cond2_1 (grid2.coords t)) :
    (dat2 V c).leavesExact 2 t = owns (c : Thread nD τ) (st2_2 t) fullShare (acc2 V c t.val t.isLt) := by
  rw [show (dat2 V c).leavesExact 2 t = owns (c : Thread nD τ) (st2_2 t) fullShare ((dat2 V c).after 2 t) from by
    unfold Dat.leavesExact; rw [liveAt2_2 t h], after2_2]

set_option maxHeartbeats 1000000 in
/-- The body at any point, by the column block it is in. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ, leaves2_0, leaves2_1, PhiS2_castSucc]
  have hN : t.val < 16 := lt_of_lt_of_eq t.isLt (show cfg2.N = 16 from N_2)
  by_cases h0 : t.val % 4 = 0
  · have h1 : ¬t.val % 4 = 3 := by omega
    have hc1 : ¬cond2_1 (grid2.coords t) := fun h => h1 ((hcond2_1 t).mp h)
    rw [Dat.leavesExact_idle (dat2 V c) 2 t (idleAt2_2 t hc1) (noFlush2_2 t hc1), acc2_first V c t h0]
    unfold P2blk2
    by_cases hz : t.val = 0
    · rw [PhiS2_zero V c _ _ hz, PhiA2_eq]
      iintro ⟨⟨HS, Hr, Hg⟩, Ho, ⟨%d0, H0⟩, ⟨%d1, H1⟩, H2⟩
      iapply (run2_A c Set.univ (grid2.coords t) ((hcond2_0 t).mpr h0) hc1 _ _ _ _ _ _ _ _ (iblk2 V c 0 t) (iblk2 V c 1 t) _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · rw [PhiS2_pos V c _ _ hz]
      iintro ⟨⟨HS, Hr, Hg⟩, Ho, ⟨%d0, H0⟩, ⟨%d1, H1⟩, H2⟩
      iapply (run2_A c Set.univ (grid2.coords t) ((hcond2_0 t).mpr h0) hc1 _ _ _ _ _ _ _ _ (iblk2 V c 0 t) (iblk2 V c 1 t) _)
      isplitl [H0]; · iexact H0
      isplitl [H1]; · iexact H1
      isplitl [HS]; · iexists _; iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
  · have hz : t.val ≠ 0 := fun e => h0 (by rw [e])
    have hc0 : ¬cond2_0 (grid2.coords t) := fun h => h0 ((hcond2_0 t).mp h)
    rw [PhiS2_pos V c _ _ hz, acc2_next V c t h0]
    unfold P2blk2
    by_cases h1 : t.val % 4 = 3
    · have hc1 : cond2_1 (grid2.coords t) := (hcond2_1 t).mpr h1
      rw [leaves2_2_live V c t hc1, acc2_next V c t h0]
      unfold P2blk2
      iintro ⟨⟨HS, Hr, Hg⟩, Ho, ⟨%d0, H0⟩, ⟨%d1, H1⟩, ⟨%d2, H2⟩⟩
      iapply (run2_C c Set.univ (grid2.coords t) hc0 hc1 _ _ _ _ _ _ _ _ (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t hc1) (noFlush2_2 t hc1)]
      iintro ⟨⟨HS, Hr, Hg⟩, Ho, ⟨%d0, H0⟩, ⟨%d1, H1⟩, H2⟩
      iapply (run2_B c Set.univ (grid2.coords t) hc0 hc1 _ _ _ _ _ _ _ _ (iblk2 V c 0 t) (iblk2 V c 1 t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.R3.lean ====
/-
  The fourth pallas_call: recon = Z · Zᵀ on a 4 × 8 grid, block (i, j) the product of row block i (2048 rows) with
  row block j (1024 rows) of the same array Z, which two input windows read at once, each at half of its share.
  Stated at any contents `V` of the core's buffers when the call is entered.
-/
import proofs.«412814_j42056319762467_3_alg».proof.Proof.Gen.KernelIdeal.Launch
import proofs.«412814_j42056319762467_3_alg».proof.Proof.Gen.KernelIdeal.Skeleton
import proofs.«412814_j42056319762467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rz3 : Rect S2048x64 := Rect.unit (s := S2048x64) ![0, 0] S2048x64.size inb_S2048x64_S2048x64_0_0
abbrev ry3 : Rect S1024x64 := Rect.unit (s := S1024x64) ![0, 0] S1024x64.size inb_S1024x64_S1024x64_0_0
abbrev ro3 : Rect S2048x1024 := Rect.unit (s := S2048x1024) ![0, 0] S2048x1024.size inb_S2048x1024_S2048x1024_0_0

/-- What the body leaves in the output window's buffer: the product of the first block with the transpose of the second. -/
def out3_2 (x0 : Vec F S2048x64 .f32) (x1 : Vec F S1024x64 .f32) : Vec F S2048x1024 .f32 :=
  View.canon [⟨ro3, k3_pay1 (View.ld x0 rz3) (View.ld x1 ry3)⟩]

theorem cover3_2 (p0 : Vec F S2048x1024 .f32) (y : S2048x1024.Idx) :
    ∃ pc ∈ ([⟨ro3, p0⟩] : List (View.Piece (Elt F) S2048x1024 .f32)), y ∈ pc.1.set :=
  View.cover_of_tiled [⟨ro3, p0⟩] S2048x1024.size (by rfl) y

set_option maxHeartbeats 1000000 in
/-- The body on whole staging buffers: the inputs are read and kept, the output ends at the product. -/
theorem sound_kernel3 (c : Dev nD) (E : Set ℕ) (i : grid3.Coords)
    (arg2 : Memref sig .tc .vmem S2048x64 .f32) (harg2 : arg2.IsWhole) (arg3 : Memref sig .tc .vmem S1024x64 .f32) (harg3 : arg3.IsWhole)
    (arg4 : Memref sig .tc .vmem S2048x1024 .f32) (harg4 : arg4.IsWhole)
    (x0 : Vec F S2048x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__recon_kernel i arg2 harg2 arg3 harg3 arg4 harg4) K := by
  simp only [cc3__recon_kernel_eq_skeleton]; unfold cc3__recon_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the call on core `c`: the arrays as the call finds them; after the body each input's buffer at
    its block and the output's at the product; the two windows on Z hold it at the two halves of the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdeal.Share3.lean ====
/-
  The last pallas_call's two input windows read ONE array, each holding half of its share. Among a core's unscoped
  buffers that array's points-to is split in two at the call's entry and joined again at its exit.
-/
import proofs.«412814_j42056319762467_3_alg».proof.Proof.Gen.KernelIdeal.Launch
import proofs.«412814_j42056319762467_3_alg».proof.Proof.Gen.KernelIdeal.Skeleton
import proofs.«412814_j42056319762467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The references behind the call's windows: the shared operand and the result. -/
theorem image_arrRef3 : (Finset.univ.image (Pipeline.arrRef spec3) : Finset (Ref sig .tc)) = {main_v20, main_v21} := by decide

/-- The buffers behind the windows' arrays: the shared operand and the result, each whole at the full share. -/
theorem arrBufs3_eq (c : Dev nD) (Vc : (b : Ref sig .tc) → Buf (Elt F) ((c : Thread nD τ).loc b)) :
    (Pipeline.arrBufs spec3 c Vc : sProp 𝕄)
      = iprop((((c : Thread nD τ).loc main_v20) ↦{fullShare} Vc main_v20) ∗ (((c : Thread nD τ).loc main_v21) ↦{fullShare} Vc main_v21)) := by
  unfold Pipeline.arrBufs
  rw [image_arrRef3, bigSep_insert (by decide), bigSep_singleton]
  rfl

/-- The call's arrays one by one: the shared operand at the left half for window 0 and at the right half for window 1,
    the result whole for window 2. -/
theorem arrays3_eq (c : Dev nD) (dat : Dat τ (Elt F) Unit ℕ (UR sig nD τ) ℕ cfg3 c)
    (hq0 : dat.q 0 = fullShare.left) (hq1 : dat.q 1 = fullShare.right)
    (Fw : (w : Fin cfg3.W) → Buf (Elt F) ((cfg3.win w).arr.view.loc (c.tc : Thread nD τ))) :
    (dat.arrays Fw : sProp 𝕄)
      = iprop((((c : Thread nD τ).loc main_v20) ↦{fullShare.left} Fw 0) ∗ (((c : Thread nD τ).loc main_v20) ↦{fullShare.right} Fw 1)
          ∗ (((c : Thread nD τ).loc main_v21) ↦{fullShare} Fw 2)) := by
  have hs0 : dat.share 0 = fullShare.left := by unfold Dat.share; rw [if_neg (by decide), hq0]
  have hs1 : dat.share 1 = fullShare.right := by unfold Dat.share; rw [if_neg (by decide), hq1]
  have hs2 : dat.share 2 = fullShare := by unfold Dat.share; rw [if_pos (by decide)]
  have e0 : ((cfg3.win 0).arr.view.loc (c.tc : Thread nD τ) ↦[(cfg3.win 0).arr.view.set]{dat.share 0} Fw 0 : sProp 𝕄)
      = (((c : Thread nD τ).loc main_v20) ↦{fullShare.left} Fw 0) := by rw [(arr_whole3 0).set_eq_univ, hs0]
  have e1 : ((cfg3.win 1).arr.view.loc (c.tc : Thread nD τ) ↦[(cfg3.win 1).arr.view.set]{dat.share 1} Fw 1 : sProp 𝕄)
      = (((c : Thread nD τ).loc main_v20) ↦{fullShare.right} Fw 1) := by rw [(arr_whole3 1).set_eq_univ, hs1]
  have e2 : ((cfg3.win 2).arr.view.loc (c.tc : Thread nD τ) ↦[(cfg3.win 2).arr.view.set]{dat.share 2} Fw 2 : sProp 𝕄)
      = (((c : Thread nD τ).loc main_v21) ↦{fullShare} Fw 2) := by rw [(arr_whole3 2).set_eq_univ, hs2]
  unfold Dat.arrays
  rw [bigSep_W3]
  exact congrArg₂ _ e0 (congrArg₂ _ e1 e2)

/-- ENTRY: the core's unscoped buffers at contents `Vc` are the call's arrays — the shared array at its two halves,
    the result array whole — at the proof data's entry contents, and the unscoped rest. -/
theorem arrays_of_unscopedBufs3 (c : Dev nD) (Vc : (b : Ref sig .tc) → Buf (Elt F) ((c : Thread nD τ).loc b))
    (dat : Dat τ (Elt F) Unit ℕ (UR sig nD τ) ℕ cfg3 c)
    (hq0 : dat.q 0 = fullShare.left) (hq1 : dat.q 1 = fullShare.right)
    (hA : ∀ w, dat.A w = Vc (Pipeline.arrRef spec3 w)) :
    (unscopedBufs c Vc : sProp 𝕄) ⊢ iprop(dat.arrays dat.A ∗ Pipeline.unscopedRest spec3 c Vc) := by
  rw [Pipeline.unscopedBufs_split₀ (fun _ : Unit => cfg3) () winFacts₀3.arr_unscoped c Vc]
  show iprop((Pipeline.arrBufs spec3 c Vc : sProp 𝕄) ∗ Pipeline.unscopedRest spec3 c Vc) ⊢ _
  rw [arrBufs3_eq, arrays3_eq c dat hq0 hq1, hA 0, hA 1, hA 2]
  iintro ⟨⟨H20, H21⟩, HR⟩
  ihave H := (pointsTo_share (PosShare.mem_left_op_right fullShare)).1 $$ H20
  icases H with ⟨Hl, Hr⟩
  isplitr [HR]
  · isplitl [Hl]; · iexact Hl
    isplitl [Hr]; · iexact Hr
    iexact H21
  · iexact HR

/-- EXIT: the call's arrays at contents `Fw` and the unscoped rest at `Vc` are the core's unscoped buffers at any
    valuation `Vc'` that has the arrays at `Fw` and agrees with `Vc` off them. -/
theorem unscopedBufs_of_arrays3 (c : Dev nD) (Vc Vc' : (b : Ref sig .tc) → Buf (Elt F) ((c : Thread nD τ).loc b))
    (dat : Dat τ (Elt F) Unit ℕ (UR sig nD τ) ℕ cfg3 c)
    (hq0 : dat.q 0 = fullShare.left) (hq1 : dat.q 1 = fullShare.right)
    (Fw : (w : Fin cfg3.W) → Buf (Elt F) ((cfg3.win w).arr.view.loc (c.tc : Thread nD τ)))
    (hF : ∀ w, Fw w = Vc' (Pipeline.arrRef spec3 w))
    (hrest : ∀ b, b ∉ Finset.univ.image (Pipeline.arrRef spec3) → Vc' b = Vc b) :
    iprop(dat.arrays Fw ∗ Pipeline.unscopedRest spec3 c Vc) ⊢ (unscopedBufs c Vc' : sProp 𝕄) := by
  have hR : (Pipeline.unscopedRest spec3 c Vc : sProp 𝕄) = Pipeline.unscopedRest spec3 c Vc' := by
    unfold Pipeline.unscopedRest
    exact bigSep_congr fun b hb => by rw [hrest b (Finset.mem_sdiff.mp hb).2]
  rw [Pipeline.unscopedBufs_split₀ (fun _ : Unit => cfg3) () winFacts₀3.arr_unscoped c Vc']
  show _ ⊢ iprop((Pipeline.arrBufs spec3 c Vc' : sProp 𝕄) ∗ Pipeline.unscopedRest spec3 c Vc')
  rw [arrBufs3_eq, arrays3_eq c dat hq0 hq1, hF 0, hF 1, hF 2, hR]
  iintro ⟨⟨Hl, Hr, H21⟩, HR⟩
  isplitr [HR]
  · isplitl [Hl Hr]
    · iapply (pointsTo_share (PosShare.mem_left_op_right fullShare)).2
      isplitl [Hl]; · iexact Hl
      iexact Hr
    · iexact H21
  · iexact HR

end Cert.KernelIdeal.Hand

end
-- ==== Proof.KernelIdeal.Run.lean ====
/-
  The whole run of the program: the host operations, then the four pallas_calls one after the other. Between two of
  them every unscoped buffer of a core is held at named contents — the launch memory, then what the host operations
  compute, then, call by call, the call's arrays at what its write-backs leave — so that at the end every buffer,
  the result among them, is read back at its name.
-/
import proofs.«412814_j42056319762467_3_alg».proof.Proof.KernelIdeal.R0
import proofs.«412814_j42056319762467_3_alg».proof.Proof.KernelIdeal.R1
import proofs.«412814_j42056319762467_3_alg».proof.Proof.KernelIdeal.R2
import proofs.«412814_j42056319762467_3_alg».proof.Proof.KernelIdeal.R3
import proofs.«412814_j42056319762467_3_alg».proof.Proof.KernelIdeal.Share3
import proofs.«412814_j42056319762467_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the host operations (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At pallas_call 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At pallas_call 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At pallas_call 2's exit: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- At the last call's exit: the result array at what the pipeline leaves, every other buffer as entered (the array the
    two input windows share is not written). -/
def W5 (c : Dev nD) : Valuation τ sig (Elt F) :=
  Function.update (W4 m c) (Proc.devRef .tc main_v21) ((dat3 (V4 m) c).arrAt 2 cfg3.N)
abbrev V5 : (c : Dev nD) → (b : Ref sig .tc) → Buf (Elt F) ((c : Thread nD τ).loc b) := fun c b => W5 m c b
theorem W5_main_v21 (c : Dev nD) : W5 m c (Proc.devRef .tc main_v21) = (dat3 (V4 m) c).arrAt 2 cfg3.N := by
  unfold W5; exact Function.update_self ..
theorem W5_of_ne (c : Dev nD) (b : Ref sig .tc) (hb : b ≠ main_v21) :
    W5 m c (Proc.devRef .tc b) = W4 m c (Proc.devRef .tc b) := by
  unfold W5; exact Function.update_of_ne (StableHlo.devRef_ne_of_ne hb) ..
theorem hF3 (c : Dev nD) (w : Fin cfg3.W) : (dat3 (V4 m) c).arrAt w cfg3.N = V5 m c (Pipeline.arrRef spec3 w) := by
  match w with
  | ⟨0, _⟩ => exact ((dat3 (V4 m) c).arrAt_in 0 rfl _).trans ((A_eq3 (V4 m) c 0).trans (W5_of_ne m c main_v20 (by decide)).symm)
  | ⟨1, _⟩ => exact ((dat3 (V4 m) c).arrAt_in 1 rfl _).trans ((A_eq3 (V4 m) c 1).trans (W5_of_ne m c main_v20 (by decide)).symm)
  | ⟨2, _⟩ => exact (W5_main_v21 m c).symm
theorem hrest3 (c : Dev nD) : ∀ b, b ∉ Finset.univ.image (Pipeline.arrRef spec3) → V5 m c b = V4 m c b :=
  fun b hb => W5_of_ne m c b fun e => hb (Finset.mem_image.mpr ⟨2, Finset.mem_univ _, e.symm⟩)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := V1_of m c main_arg0 (by decide)
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = m ((c : Thread nD τ).loc main_arg1) := V1_of m c main_arg1 (by decide)
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := V1_of m c main_arg2 (by decide)
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := V1_of m c main_arg3 (by decide)
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = m ((c : Thread nD τ).loc main_arg4) := V1_of m c main_arg4 (by decide)
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of_ne m c main_arg5 (by decide)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = m ((c : Thread nD τ).loc main_arg5) := V1_of m c main_arg5 (by decide)

/-! ## The proof data family and the thread state -/

abbrev adm : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The calls as segments -/

-- `iapply` of a library lemma stated over `pin pcs a p` unifies with the pinned configuration only when unification may
-- unfold plain definitions in a metavariable's type
set_option backward.isDefEq.respectTransparency.types false in
/-- Pallas_call 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Pallas_call 1 over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Pallas_call 2 over the thread state: entered from every unscoped buffer at `W3`, left at `W4`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h.trans (hin2 (V3 m) c)
  hout c := by
    rw [Pipeline.ownSems0_none]
    have h : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (hout2 (V3 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Pallas_call 3 over the thread state: entered from every unscoped buffer at `W4`, left at `W5`. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := arrays_of_unscopedBufs3 (F := F) c (V4 m c) (pdats m 3 c) rfl rfl fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := unscopedBufs_of_arrays3 (F := F) c (V4 m c) (V5 m c) (pdats m 3 c) rfl rfl
      ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m), .region (reg1 m), .region (reg2 m), .region (reg3 m) ]
theorem main_run (c : Dev nD) : main (F := F) c = Pipeline.Seg.run (segs m) := (main_chain c).trans (by chain_rfl)

variable (ρ : Dev nD → PrngReg)

set_option backward.isDefEq.respectTransparency.types false in
/-- THE RUN: from any memory with zero counters every weakly fair execution of the program terminates, nothing
    faulting, and every final state holds each unscoped buffer of each core at its last named contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.KernelIdeal.Hand

end
-- ==== Proof.Spec.lean ====
/-
  The mathematics of the two programs, over abstract finite index types and the extended reals.

  A graph has nodes `ν` and edges `ε`; edge `e` goes from `src e` to `dst e` with weight `w e`.
  `adj` is the dense adjacency matrix (row = destination, column = source, colliding edges summed);
  `spmm` is the sparse product "for every edge add `w e` times row `src e` of `h` to row `dst e`".
  One program computes `gram (adj · (relu (adj · (x · W1)) · W2))`, the other
  `gram (spmm (relu (spmm (x · W1)) · W2))`; they agree as soon as every entry is a real number,
  because then a weight can be moved across the sum over the sources (distributivity, which fails at infinities).
-/
import Mathlib.Data.EReal.Basic
import Mathlib.Data.Fintype.BigOperators
import Mathlib.Algebra.BigOperators.Group.Finset.Basic

open scoped BigOperators

noncomputable section

namespace Cert.Spec

variable {ι κ μ ν ε : Type} [Fintype ι] [Fintype κ] [Fintype μ] [Fintype ν] [Fintype ε] [DecidableEq ν]

/-- The matrix product `a · b`. -/
def mm (a : ι → κ → EReal) (b : κ → μ → EReal) : ι → μ → EReal := fun i j => ∑ k, a i k * b k j

/-- The positive part, entry by entry. -/
def relu (a : ι → κ → EReal) : ι → κ → EReal := fun i j => max (a i j) 0

/-- The dense adjacency matrix: entry `(d, s)` is the sum of the weights of the edges from `s` to `d`. -/
def adj (dst src : ε → ν) (w : ε → EReal) : ν → ν → EReal :=
  fun d s => ∑ e ∈ Finset.univ.filter (fun e => dst e = d ∧ src e = s), w e

/-- The sparse product: row `d` is the sum over the edges into `d` of row `src e` of `h` times `w e`. -/
def spmm (dst src : ε → ν) (w : ε → EReal) (h : ν → μ → EReal) : ν → μ → EReal :=
  fun d j => ∑ e ∈ Finset.univ.filter (fun e => dst e = d), h (src e) j * w e

/-- The matrix of inner products of the rows: `z · zᵀ`. -/
def gram (z : ν → μ → EReal) : ν → ν → EReal := fun i j => ∑ d, z i d * z j d

/-- A matrix all of whose entries are real numbers. -/
def IsReal (a : ι → κ → EReal) : Prop := ∀ i j, ∃ r : ℝ, a i j = (r : EReal)

/-- What the program with the dense adjacency computes. -/
def denseResult (x : ν → ι → EReal) (dst src : ε → ν) (w : ε → EReal) (W1 : ι → κ → EReal) (W2 : κ → μ → EReal) :
    ν → ν → EReal :=
  gram (mm (adj dst src w) (mm (relu (mm (adj dst src w) (mm x W1))) W2))

/-- What the program with the sparse products computes. -/
def sparseResult (x : ν → ι → EReal) (dst src : ε → ν) (w : ε → EReal) (W1 : ι → κ → EReal) (W2 : κ → μ → EReal) :
    ν → ν → EReal :=
  gram (spmm dst src w (mm (relu (spmm dst src w (mm x W1))) W2))

end Cert.Spec

end
-- ==== Proof.Bridge.lean ====
/-
  Arrays as matrices and index vectors as functions: the vocabulary both programs' values are stated in.
  A rank-2 array `v` is the matrix `toM v` with `toM v i j = v (i, j)`; an `i32` vector whose entries lie in
  `[0, 8192)` is the function `nodeOf` from its positions to `Fin 8192`.
-/
import proofs.«412814_j42056319762467_3_alg».proof.Proof.Spec
import Idealize.ShloMosaic.PureOps.Ideal
import Idealize.ShloMosaic.Lib.ValueIdx

noncomputable section

namespace Cert.Bridge

open Idealize.ShloMosaic Idealize.ShloMosaic.ValueIdx

/-- A rank-2 array as a matrix. -/
def toM {n0 n1 : Nat} (v : (⟨2, ![n0, n1]⟩ : Shape).Idx → EReal) : Fin n0 → Fin n1 → EReal := fun i j => v (ix2 i j)

/-- A matrix as a rank-2 array. -/
def ofM {n0 n1 : Nat} (a : Fin n0 → Fin n1 → EReal) : (⟨2, ![n0, n1]⟩ : Shape).Idx → EReal := fun i => a (i 0) (i 1)

theorem ofM_toM {n0 n1 : Nat} (v : (⟨2, ![n0, n1]⟩ : Shape).Idx → EReal) : ofM (toM v) = v := by
  funext i; exact congrArg v (eq_ix2 i).symm

theorem toM_ofM {n0 n1 : Nat} (a : Fin n0 → Fin n1 → EReal) : toM (ofM a) = a := rfl

theorem ofM_apply {n0 n1 : Nat} (a : Fin n0 → Fin n1 → EReal) (i : Fin n0) (j : Fin n1) : ofM a (ix2 i j) = a i j := rfl

/-- A rank-1 array as a function of its position. -/
def toV {n : Nat} {α : Type} (v : (⟨1, ![n]⟩ : Shape).Idx → α) : Fin n → α := fun e => v (ix1 e)

/-- Every entry of an `i32` vector, read signed, lies in `[0, N)`. -/
def InRange {n : Nat} (N : Nat) (v : (⟨1, ![n]⟩ : Shape).Idx → BitVec 32) : Prop :=
  ∀ e : Fin n, 0 ≤ (v (ix1 e)).toInt ∧ (v (ix1 e)).toInt < (N : Int)

/-- The node an in-range index vector names at each position. -/
def nodeOf {n N : Nat} (v : (⟨1, ![n]⟩ : Shape).Idx → BitVec 32) (h : InRange N v) : Fin n → Fin N :=
  fun e => ⟨(v (ix1 e)).toInt.toNat, by have := h e; omega⟩

theorem nodeOf_val {n N : Nat} (v : (⟨1, ![n]⟩ : Shape).Idx → BitVec 32) (h : InRange N v) (e : Fin n) :
    ((nodeOf v h e).val : Int) = (v (ix1 e)).toInt := by
  have := h e; unfold nodeOf; simp only; omega

/-- Every entry of an array is a real number. -/
def Finite {s : Shape} (v : s.Idx → EReal) : Prop := ∀ i, ∃ r : ℝ, v i = (r : EReal)

theorem isReal_toM {n0 n1 : Nat} (v : (⟨2, ![n0, n1]⟩ : Shape).Idx → EReal) (h : Finite v) : Cert.Spec.IsReal (toM v) :=
  fun i j => h (ix2 i j)

end Cert.Bridge

end
-- ==== Proof.Value0.lean ====
/-
  The value of the first pallas_call at the exact instance: after its four points the output array holds x · W1.
  Each point multiplies a block of 2048 rows of x by the whole of W1 and writes the 2048 rows of the product back;
  the four row blocks tile the output, so the array ends as the whole product.
-/
import proofs.«412814_j42056319762467_3_alg».proof.Proof.KernelIdeal.R0
import proofs.«412814_j42056319762467_3_alg».proof.Proof.Bridge
import Idealize.ShloMosaic.Lib.Pipeline.Value
import Idealize.ShloMosaic.Lib.ValueIdx
import Idealize.ShloMosaic.PureOps.Ideal.Laws

set_option maxRecDepth 16384

noncomputable section

namespace Cert.KernelIdeal.HandValue.Call0

open Cert.KernelIdeal Cert.KernelIdeal.Gen Cert.KernelIdeal.Hand
open Idealize.ShloMosaic Idealize.ShloMosaic.TcCoe Idealize.ShloMosaic.ValueIdx Idealize.SL.Sem
open Cert.Bridge Cert.Spec

variable (V : (c : Dev nD) → (b : Ref sig .tc) → Buf (Elt Ideal) ((c : Thread nD τ).loc b))

theorem hz2 : (![0, 0] : Fin 2 → Nat) = fun _ => 0 := funext fun a => by fin_cases a <;> rfl

theorem lhs0_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs0_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs0_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs0_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- One entry of the block product: row p of the first block against column q of the second. -/
theorem pay0_apply (x0 : Vec Ideal S2048x512 .f32) (x1 : Vec Ideal S512x256 .bf16) (p : Fin 2048) (q : Fin 256) :
    k0_pay1 (F := Ideal) x0 x1 (ix2 p q) = ∑ k : Fin 512, x0 (ix2 p k) * x1 (ix2 k q) := by
  unfold k0_pay1
  refine (Ideal.matmul_constant_zero_apply dot_S2048x512_S512x256_S2048x256_1_0_0_1_n_n none _ _ (ix2 p q)).trans ?_
  rw [← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p q) ((contrEquiv1 dot_S2048x512_S512x256_S2048x256_1_0_0_1_n_n 512 rfl rfl).symm k) = ix2 p k := funext fun a => Fin.ext (by
    match a with
    | ⟨0, _⟩ => exact lhs0_0 _ _
    | ⟨1, _⟩ => exact (lhs0_1 _ _).trans hk)
  have er : dot_S2048x512_S512x256_S2048x256_1_0_0_1_n_n.rhsIdx (ix2 p q) ((contrEquiv1 dot_S2048x512_S512x256_S2048x256_1_0_0_1_n_n 512 rfl rfl).symm k) = ix2 k q := funext fun a => Fin.ext (by
    match a with
    | ⟨0, _⟩ => exact (rhs0_0 _ _).trans hk
    | ⟨1, _⟩ => exact rhs0_1 _ _)
  rw [el, er, shapeCast_self]
  rfl

/-- The output block a point leaves, entry by entry: the product of its two input blocks. -/
theorem out0_apply (x0 : Vec Ideal S2048x512 .f32) (x1 : Vec Ideal S512x256 .bf16) (p : Fin 2048) (q : Fin 256) :
    out0_2 (F := Ideal) x0 x1 (ix2 p q) = ∑ k : Fin 512, x0 (ix2 p k) * x1 (ix2 k q) := by
  unfold out0_2
  rw [View.canon_unit_zero hz2]
  simp only [View.ld_unit_zero (S := S2048x512) hz2, View.ld_unit_zero (S := S512x256) hz2]
  exact pay0_apply x0 x1 p q

/-- The block indices of the three windows over the grid: point t takes row block t of the first input and of the
    output, and the whole second input. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The two input arrays as the call finds them, at their literal types. -/
abbrev A0 (c : Dev nD) : S8192x512.Idx → EReal := V c main_arg0
abbrev B0 (c : Dev nD) : S512x256.Idx → EReal := V c main_v16

/-- The whole result: the product of the two input arrays as matrices. -/
abbrev G0 (c : Dev nD) : S8192x256.Idx → EReal := ofM (mm (toM (A0 V c)) (toM (B0 V c)))

/-- Row p of the first window's block at point t is row 2048 t + p of the first array. -/
theorem iblk0_0_apply (c : Dev nD) (t : Fin cfg0.N) (p : Fin 2048) (k : Fin 512) (r : Fin 8192)
    (hr : r.val = t.val * 2048 + p.val) :
    (iblk0 V c 0 t : Vec Ideal S2048x512 .f32) (ix2 p k) = A0 V c (ix2 r k) := by
  obtain ⟨e0, e1, -, -, -, -⟩ := idx_facts0 t
  unfold iblk0
  rw [View.read_apply]
  show V c main_arg0 (((cfg0.win 0).blk t).view.emb (ix2 p k)) = V c main_arg0 (ix2 r k)
  congr 1
  funext a; apply Fin.ext
  match a with
  | ⟨0, _⟩ => show win0_0.index t (0 : Fin 2) * 2048 + 1 * p.val = r.val; omega
  | ⟨1, _⟩ => show win0_0.index t (1 : Fin 2) * 512 + 1 * k.val = k.val; omega

/-- The second window's block at every point is the whole second array. -/
theorem iblk0_1_apply (c : Dev nD) (t : Fin cfg0.N) (k : Fin 512) (q : Fin 256) :
    (iblk0 V c 1 t : Vec Ideal S512x256 .bf16) (ix2 k q) = B0 V c (ix2 k q) := by
  obtain ⟨-, -, e2, e3, -, -⟩ := idx_facts0 t
  unfold iblk0
  rw [View.read_apply]
  show V c main_v16 (((cfg0.win 1).blk t).view.emb (ix2 k q)) = V c main_v16 (ix2 k q)
  congr 1
  funext a; apply Fin.ext
  match a with
  | ⟨0, _⟩ => show win0_1.index t (0 : Fin 2) * 512 + 1 * k.val = k.val; omega
  | ⟨1, _⟩ => show win0_1.index t (1 : Fin 2) * 256 + 1 * q.val = q.val; omega

/-- The whole result read through the output block of point t, at (p, q): entry (2048 t + p, q). -/
theorem G0_read (c : Dev nD) (t : Fin cfg0.N) (p : Fin 2048) (q : Fin 256) (r : Fin 8192)
    (hr : r.val = t.val * 2048 + p.val) :
    ((cfg0.win 2).blk t).view.read (Elt Ideal) (G0 V c) (ix2 p q)
      = ∑ k : Fin 512, A0 V c (ix2 r k) * B0 V c (ix2 k q) := by
  obtain ⟨-, -, -, -, e4, e5⟩ := idx_facts0 t
  rw [View.read_apply]
  have he : ((cfg0.win 2).blk t).view.emb (ix2 p q) = (ix2 r q : S8192x256.Idx) := by
    funext a; apply Fin.ext
    match a with
    | ⟨0, _⟩ => show win0_2.index t (0 : Fin 2) * 2048 + 1 * p.val = r.val; omega
    | ⟨1, _⟩ => show win0_2.index t (1 : Fin 2) * 256 + 1 * q.val = q.val; omega
  show G0 V c (((cfg0.win 2).blk t).view.emb (ix2 p q)) = _
  rw [he]
  rfl

/-- What point t writes back is its block of the whole result. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  funext j
  obtain ⟨p, q, rfl⟩ : ∃ (p : Fin 2048) (q : Fin 256), j = ix2 p q := ⟨j 0, j 1, eq_ix2 j⟩
  have ht : t.val < 4 := t.isLt
  have hp : p.val < 2048 := p.isLt
  refine (out0_apply (iblk0 V c 0 t) (iblk0 V c 1 t) p q).trans ?_
  refine Eq.trans ?_ (G0_read V c t p q ⟨t.val * 2048 + p.val, by omega⟩ rfl).symm
  refine Finset.sum_congr rfl fun k _ => ?_
  exact congrArg₂ (fun a b : EReal => a * b) (iblk0_0_apply V c t p k ⟨t.val * 2048 + p.val, by omega⟩ rfl) (iblk0_1_apply V c t k q)

/-- An index of the output array is in point t's block iff each coordinate is in the block's range on its axis. -/
theorem mem_blk0 (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v18).slice (win0_2.rect t)).set ↔ _
  rw [View.set_slice_whole, Rect.mem_set_unit]
  exact Iff.rfl

/-- Every row r of the output lies in the block of point r / 2048, which is written back. -/
theorem cover0 (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hlt : (i 0).val / 2048 < 4 := by omega
  refine ⟨⟨(i 0).val / 2048, hlt⟩, flush0_2 _, ?_⟩
  obtain ⟨-, -, -, -, e4, e5⟩ := idx_facts0 ⟨(i 0).val / 2048, hlt⟩
  have e4' : win0_2.index ⟨(i 0).val / 2048, hlt⟩ (0 : Fin 2) = (i 0).val / 2048 := e4
  rw [mem_blk0]
  intro a
  match a with
  | ⟨0, _⟩ =>
    show win0_2.index ⟨(i 0).val / 2048, hlt⟩ (0 : Fin 2) * 2048 ≤ (i 0).val ∧ (i 0).val < win0_2.index ⟨(i 0).val / 2048, hlt⟩ (0 : Fin 2) * 2048 + 2048
    omega
  | ⟨1, _⟩ =>
    show win0_2.index ⟨(i 0).val / 2048, hlt⟩ (1 : Fin 2) * 256 ≤ (i 1).val ∧ (i 1).val < win0_2.index ⟨(i 0).val / 2048, hlt⟩ (1 : Fin 2) * 256 + 256
    omega

/-- After the call the array P1 is the product of the two input arrays, as matrices. -/
theorem final0 (c : Dev nD) :
    ((dat0 (F := Ideal) V c).arrAt 2 cfg0.N : S8192x256.Idx → EReal)
      = ofM (mm (toM (V c main_arg0 : S8192x512.Idx → EReal)) (toM (V c main_v16 : S512x256.Idx → EReal))) :=
  (dat0 (F := Ideal) V c).arrAt_eq_of_cover 2 (G0 V c) (fun t _ => flushed0_eq V c t) cover0

end Cert.KernelIdeal.HandValue.Call0

end
-- ==== Proof.LibBlockedSum.lean ====
/-
  Sums over a blocked index.  A sum over `Fin N` with `N = n · m` is the double sum over `n` blocks of `m`
  positions, and an accumulation that starts at block 0 and adds one block after another reaches the whole sum:
  both over any additive commutative monoid (no subtraction and no finiteness are used, so they hold over the
  extended reals as they stand).
-/
import Mathlib.Data.Fintype.BigOperators
import Mathlib.Logic.Equiv.Fin.Basic
import Mathlib.Algebra.BigOperators.Group.Finset.Piecewise
import Mathlib.Algebra.BigOperators.Fin

open scoped BigOperators

namespace Cert.LibBlockedSum

variable {M : Type*} [AddCommMonoid M]

/-- Position `b` of block `a`, the blocks `m` long, as an index below `N = n · m`: `a · m + b`. -/
def blockIdx {N : ℕ} (n m : ℕ) (h : n * m = N) (a : Fin n) (b : Fin m) : Fin N :=
  ⟨a.val * m + b.val, by
    have ha : a.val + 1 ≤ n := a.isLt
    have hb : b.val < m := b.isLt
    calc a.val * m + b.val < a.val * m + m := Nat.add_lt_add_left hb _
      _ = (a.val + 1) * m := (Nat.succ_mul _ _).symm
      _ ≤ n * m := Nat.mul_le_mul_right m ha
      _ = N := h⟩

/-- Its value. -/
theorem blockIdx_val {N : ℕ} (n m : ℕ) (h : n * m = N) (a : Fin n) (b : Fin m) :
    (blockIdx n m h a b).val = a.val * m + b.val := rfl

/-- A sum over `Fin N`, `N = n · m`, is the double sum over the `n` blocks and the `m` positions of a block. -/
theorem sum_blocks {N : ℕ} (n m : ℕ) (h : n * m = N) (f : Fin N → M) :
    ∑ k : Fin N, f k = ∑ a : Fin n, ∑ b : Fin m, f (blockIdx n m h a b) := by
  subst h
  rw [← Equiv.sum_comp finProdFinEquiv f, Fintype.sum_prod_type]
  refine Finset.sum_congr rfl fun a _ => Finset.sum_congr rfl fun b _ => congrArg f (Fin.ext ?_)
  show b.val + m * a.val = a.val * m + b.val
  rw [Nat.add_comm, Nat.mul_comm]

/-- The sum of the terms `g 0, …, g k` of `g : Fin n → M`, written as a sum over all of `Fin n` with the later terms
    dropped (so that no index type depends on `k`). -/
def upto (n : ℕ) (g : Fin n → M) (k : ℕ) : M := ∑ a : Fin n, if a.val ≤ k then g a else 0

/-- Up to 0 it is the first term; -/
theorem upto_zero (n : ℕ) (g : Fin n → M) (h : 0 < n) : upto n g 0 = g ⟨0, h⟩ := by
  unfold upto
  rw [Finset.sum_eq_single (⟨0, h⟩ : Fin n)]
  · exact if_pos (Nat.le_refl 0)
  · intro b _ hb
    exact if_neg fun hle => hb (Fin.ext (Nat.le_zero.mp hle))
  · intro hnm; exact absurd (Finset.mem_univ _) hnm

/-- one step further it takes the next term; -/
theorem upto_succ (n : ℕ) (g : Fin n → M) (k : ℕ) (h : k + 1 < n) :
    upto n g (k + 1) = upto n g k + g ⟨k + 1, h⟩ := by
  unfold upto
  have e : ∀ a : Fin n, (if a.val ≤ k + 1 then g a else 0)
      = (if a.val ≤ k then g a else 0) + (if a = (⟨k + 1, h⟩ : Fin n) then g a else 0) := by
    intro a
    by_cases h1 : a.val ≤ k
    · have h2 : a ≠ (⟨k + 1, h⟩ : Fin n) := fun e => by
        have e' : a.val = k + 1 := congrArg Fin.val e
        omega
      rw [if_pos h1, if_pos (Nat.le_succ_of_le h1), if_neg h2, add_zero]
    · by_cases h3 : a = (⟨k + 1, h⟩ : Fin n)
      · have e' : a.val = k + 1 := congrArg Fin.val h3
        rw [if_pos (Nat.le_of_eq e'), if_neg h1, if_pos h3, zero_add]
      · have h4 : ¬a.val ≤ k + 1 := fun hle => h3 (Fin.ext (by show a.val = k + 1; omega))
        rw [if_neg h1, if_neg h4, if_neg h3, add_zero]
  rw [Finset.sum_congr rfl (fun a _ => e a), Finset.sum_add_distrib, Finset.sum_ite_eq']
  rw [if_pos (Finset.mem_univ _)]

/-- and once `k` is the last position it is the whole sum. -/
theorem upto_last (n : ℕ) (g : Fin n → M) (k : ℕ) (h : n ≤ k + 1) : upto n g k = ∑ a : Fin n, g a := by
  unfold upto
  exact Finset.sum_congr rfl fun a _ => if_pos (by have := a.isLt; omega)

end Cert.LibBlockedSum
-- ==== Proof.Value1.lean ====
/-
  The value of the second pallas_call at the exact instance: after its sixteen points the output array holds
  relu (A · P1) · W2, the accumulation over the four column blocks of A being the whole sum over its columns.
-/
import proofs.«412814_j42056319762467_3_alg».proof.Proof.KernelIdeal.R1
import proofs.«412814_j42056319762467_3_alg».proof.Proof.Bridge
import proofs.«412814_j42056319762467_3_alg».proof.Proof.LibBlockedSum
import Idealize.ShloMosaic.Lib.Pipeline.Value
import Idealize.ShloMosaic.Lib.ValueIdx
import Idealize.ShloMosaic.PureOps.Ideal.Laws

set_option maxRecDepth 16384

noncomputable section

namespace Cert.KernelIdeal.HandValue.Call1

open Cert.KernelIdeal Cert.KernelIdeal.Gen Cert.KernelIdeal.Hand
open Idealize.ShloMosaic Idealize.ShloMosaic.TcCoe Idealize.ShloMosaic.ValueIdx Idealize.SL.Sem
open Cert.Bridge Cert.Spec Cert.LibBlockedSum
open scoped BigOperators

/-! ## The two matrix products of the body at an index

Each is a `tpu.matmul` into a zero accumulator: at the exact values, the sum over the contracted axis of the products
of the operands' entries. -/

theorem lhsA_0 (i : S2048x256.Idx) (q : dot_S2048x2048_S2048x256_S2048x256_1_0_0_1_n_n.contr.Idx) :
    (dot_S2048x2048_S2048x256_S2048x256_1_0_0_1_n_n.lhsIdx i q 0).val = (i 0).val := by
  unfold DotDims.lhsIdx
  rw [dif_neg (show ¬(0 : Fin S2048x2048.rank) ∈ dot_S2048x2048_S2048x256_S2048x256_1_0_0_1_n_n.lhsBatch by decide), dif_pos (show (0 : Fin S2048x2048.rank) ∈ dot_S2048x2048_S2048x256_S2048x256_1_0_0_1_n_n.lhsNonContracting by decide)]
  rfl
theorem lhsA_1 (i : S2048x256.Idx) (q : dot_S2048x2048_S2048x256_S2048x256_1_0_0_1_n_n.contr.Idx) :
    (dot_S2048x2048_S2048x256_S2048x256_1_0_0_1_n_n.lhsIdx i q 1).val = (q ⟨0, by decide⟩).val :=
  dot_S2048x2048_S2048x256_S2048x256_1_0_0_1_n_n.lhsIdx_val_of_single rfl i q
theorem rhsA_0 (i : S2048x256.Idx) (q : dot_S2048x2048_S2048x256_S2048x256_1_0_0_1_n_n.contr.Idx) :
    (dot_S2048x2048_S2048x256_S2048x256_1_0_0_1_n_n.rhsIdx i q 0).val = (q ⟨0, by decide⟩).val :=
  dot_S2048x2048_S2048x256_S2048x256_1_0_0_1_n_n.rhsIdx_val_of_single rfl i q
theorem rhsA_1 (i : S2048x256.Idx) (q : dot_S2048x2048_S2048x256_S2048x256_1_0_0_1_n_n.contr.Idx) :
    (dot_S2048x2048_S2048x256_S2048x256_1_0_0_1_n_n.rhsIdx i q 1).val = (i 1).val := by
  unfold DotDims.rhsIdx
  rw [dif_neg (show ¬(1 : Fin S2048x256.rank) ∈ dot_S2048x2048_S2048x256_S2048x256_1_0_0_1_n_n.rhsBatch by decide), dif_pos (show (1 : Fin S2048x256.rank) ∈ dot_S2048x2048_S2048x256_S2048x256_1_0_0_1_n_n.rhsNonContracting by decide)]
  rfl

/-- A block of A times a block of P1, at row `p` and column `q`: the sum over the block's 2048 columns. -/
theorem matA_apply (l : FVec Ideal S2048x2048 .bf16) (r : FVec Ideal S2048x256 .bf16) (p : Fin 2048) (q : Fin 256) :
    matmul (F := Ideal) dot_S2048x2048_S2048x256_S2048x256_1_0_0_1_n_n none l r (constant (F := Ideal) S2048x256 .f32 0x00000000#32) (ix2 p q)
      = ∑ k : Fin 2048, l (ix2 p k) * r (ix2 k q) := by
  show FloatOps.matmul dot_S2048x2048_S2048x256_S2048x256_1_0_0_1_n_n none l r (constant S2048x256 .f32 0x00000000#32) (ix2 p q) = _
  rw [Ideal.matmul_constant_zero_apply, ← Equiv.sum_comp (ValueIdx.contrEquiv1 dot_S2048x2048_S2048x256_S2048x256_1_0_0_1_n_n 2048 rfl rfl).symm]
  refine Finset.sum_congr rfl fun k _ => ?_
  have hk := ValueIdx.contrEquiv1_symm_val dot_S2048x2048_S2048x256_S2048x256_1_0_0_1_n_n 2048 rfl rfl k
  have el : dot_S2048x2048_S2048x256_S2048x256_1_0_0_1_n_n.lhsIdx (ix2 p q) ((ValueIdx.contrEquiv1 dot_S2048x2048_S2048x256_S2048x256_1_0_0_1_n_n 2048 rfl rfl).symm k) = ix2 p k := funext fun a => Fin.ext (by
    match a with
    | ⟨0, _⟩ => exact lhsA_0 _ _
    | ⟨1, _⟩ => exact (lhsA_1 _ _).trans hk)
  have er : dot_S2048x2048_S2048x256_S2048x256_1_0_0_1_n_n.rhsIdx (ix2 p q) ((ValueIdx.contrEquiv1 dot_S2048x2048_S2048x256_S2048x256_1_0_0_1_n_n 2048 rfl rfl).symm k) = ix2 k q := funext fun a => Fin.ext (by
    match a with
    | ⟨0, _⟩ => exact (rhsA_0 _ _).trans hk
    | ⟨1, _⟩ => exact rhsA_1 _ _)
  rw [el, er]

theorem lhsW_0 (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide), dif_pos (show (0 : Fin S2048x256.rank) ∈ dot_S2048x256_S256x64_S2048x64_1_0_0_1_n_n.lhsNonContracting by decide)]
  rfl
theorem lhsW_1 (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q
theorem rhsW_0 (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q
theorem rhsW_1 (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide), dif_pos (show (1 : Fin S256x64.rank) ∈ dot_S2048x256_S256x64_S2048x64_1_0_0_1_n_n.rhsNonContracting by decide)]
  rfl

/-- A block of hidden rows times W2, at row `p` and column `q`: the sum over the 256 hidden columns. -/
theorem matW_apply (l : FVec Ideal S2048x256 .bf16) (r : FVec Ideal S256x64 .bf16) (p : Fin 2048) (q : Fin 64) :
    matmul (F := Ideal) dot_S2048x256_S256x64_S2048x64_1_0_0_1_n_n none l r (constant (F := Ideal) S2048x64 .f32 0x00000000#32) (ix2 p q)
      = ∑ k : Fin 256, l (ix2 p k) * r (ix2 k q) := by
  show FloatOps.matmul dot_S2048x256_S256x64_S2048x64_1_0_0_1_n_n none l r (constant S2048x64 .f32 0x00000000#32) (ix2 p q) = _
  rw [Ideal.matmul_constant_zero_apply, ← Equiv.sum_comp (ValueIdx.contrEquiv1 dot_S2048x256_S256x64_S2048x64_1_0_0_1_n_n 256 rfl rfl).symm]
  refine Finset.sum_congr rfl fun k _ => ?_
  have hk := ValueIdx.contrEquiv1_symm_val dot_S2048x256_S256x64_S2048x64_1_0_0_1_n_n 256 rfl rfl k
  have el : dot_S2048x256_S256x64_S2048x64_1_0_0_1_n_n.lhsIdx (ix2 p q) ((ValueIdx.contrEquiv1 dot_S2048x256_S256x64_S2048x64_1_0_0_1_n_n 256 rfl rfl).symm k) = ix2 p k := funext fun a => Fin.ext (by
    match a with
    | ⟨0, _⟩ => exact lhsW_0 _ _
    | ⟨1, _⟩ => exact (lhsW_1 _ _).trans hk)
  have er : dot_S2048x256_S256x64_S2048x64_1_0_0_1_n_n.rhsIdx (ix2 p q) ((ValueIdx.contrEquiv1 dot_S2048x256_S256x64_S2048x64_1_0_0_1_n_n 256 rfl rfl).symm k) = ix2 k q := funext fun a => Fin.ext (by
    match a with
    | ⟨0, _⟩ => exact (rhsW_0 _ _).trans hk
    | ⟨1, _⟩ => exact rhsW_1 _ _)
  rw [el, er]

/-! ## The three payloads at an index -/

/-- The reset value of the accumulator is zero everywhere. -/
theorem pay1_apply (p : Fin 2048) (q : Fin 256) : k1_pay1 (F := Ideal) (ix2 p q) = 0 := by
  unfold k1_pay1
  rw [shapeCast_self]
  exact Ideal.ofBits_zero_f32

/-- One accumulation step: the accumulator's entry plus the block product's entry. -/
theorem pay2_apply (v6 v9 : Vec Ideal S2048x256 .f32) (v10 : Vec Ideal S2048x2048 .bf16) (p : Fin 2048) (q : Fin 256) :
    k1_pay2 (F := Ideal) v6 v9 v10 (ix2 p q) = v9 (ix2 p q) + ∑ k : Fin 2048, v10 (ix2 p k) * v6 (ix2 k q) := by
  unfold k1_pay2
  simp only [shapeCast_self]
  refine (addf_apply _ _ _).trans ?_
  refine congrArg (v9 (ix2 p q) + ·) ?_
  exact matA_apply _ _ p q

/-- The epilogue: the positive part of the accumulator's row times W2's column. -/
theorem pay3_apply (v20 : Vec Ideal S2048x256 .f32) (v24 : Vec Ideal S256x64 .bf16) (p : Fin 2048) (q : Fin 64) :
    k1_pay3 (F := Ideal) v20 v24 (ix2 p q) = ∑ k : Fin 256, max (v20 (ix2 p k)) 0 * v24 (ix2 k q) := by
  unfold k1_pay3
  simp only [shapeCast_self]
  refine (matW_apply _ _ p q).trans ?_
  refine Finset.sum_congr rfl fun k _ => ?_
  refine congrArg (· * v24 (ix2 k q)) ?_
  show max (v20 (ix2 p k)) (Ideal.ofBits .f32 0x00000000#32) = _
  rw [Ideal.ofBits_zero_f32]

variable (V : (c : Dev nD) → (b : Ref sig .tc) → Buf (Elt Ideal) ((c : Thread nD τ).loc b))

/-! ## The blocks the body reads, as entries of the whole arrays

Point `t` of the 4 × 4 grid is row block `t / 4` and column block `t % 4`. -/

/-- The three arrays the call reads, as it finds them: A, P1 and W2. -/
abbrev arrA (c : Dev nD) : S8192x8192.Idx → EReal := V c main_v15
abbrev arrP (c : Dev nD) : S8192x256.Idx → EReal := V c main_v18
abbrev arrW (c : Dev nD) : S256x64.Idx → EReal := V c main_v17

/-- What the body loads at point `t`: the block of A, the 2048 rows of P1, all of W2; and the accumulator after it. -/
abbrev blkA (c : Dev nD) (t : Fin cfg1.N) : S2048x2048.Idx → EReal := iblk1 (F := Ideal) V c 0 t
abbrev bufP (c : Dev nD) (t : Fin cfg1.N) : S8192x256.Idx → EReal := iblk1 (F := Ideal) V c 1 t
abbrev rowsP (c : Dev nD) (t : Fin cfg1.N) : S2048x256.Idx → EReal := P1blk1 (F := Ideal) V c t
abbrev blkW (c : Dev nD) (t : Fin cfg1.N) : S256x64.Idx → EReal := iblk1 (F := Ideal) V c 2 t
abbrev accv (c : Dev nD) (n : ℕ) (h : n < cfg1.N) : S2048x256.Idx → EReal := acc1 (F := Ideal) V c n h

/-- The block indices of the four windows and the row offset of the P1 load, decided over the sixteen points. -/
theorem idx_facts : ∀ t : Fin cfg1.N,
    win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0
    ∧ k1_off1 (grid1.coords t) (0 : Fin 2) = 2048 * (t.val % 4) ∧ k1_off1 (grid1.coords t) (1 : Fin 2) = 0 :=
  (by decide +kernel : ∀ t : Fin grid1.N, _)

/-- Entry `(p, k)` of the block of A at point `t` is A at row `2048 (t / 4) + p`, column `2048 (t % 4) + k`. -/
theorem blkA_apply (c : Dev nD) (t : Fin cfg1.N) (i kb : Fin 4) (hi : t.val / 4 = i.val) (hk : t.val % 4 = kb.val)
    (p k : Fin 2048) :
    blkA V c t (ix2 p k) = arrA V c (ix2 (blockIdx 4 2048 rfl i p) (blockIdx 4 2048 rfl kb k)) := by
  obtain ⟨e0, e1, -⟩ := idx_facts t
  show arrA V c (((cfg1.win 0).blk t).view.emb (ix2 p k)) = _
  refine congrArg (arrA V c) (funext fun a => Fin.ext ?_)
  match a with
  | ⟨0, _⟩ =>
    show win1_0.index t (0 : Fin 2) * 2048 + 1 * p.val = i.val * 2048 + p.val
    rw [e0, hi]; omega
  | ⟨1, _⟩ =>
    show win1_0.index t (1 : Fin 2) * 2048 + 1 * k.val = kb.val * 2048 + k.val
    rw [e1, hk]; omega

/-- The resident P1 buffer is the whole array. -/
theorem bufP_apply (c : Dev nD) (t : Fin cfg1.N) (j : S8192x256.Idx) : bufP V c t j = arrP V c j := by
  obtain ⟨-, -, e0, e1, -⟩ := idx_facts t
  show arrP V c (((cfg1.win 1).blk t).view.emb j) = _
  refine congrArg (arrP V c) (funext fun a => Fin.ext ?_)
  match a with
  | ⟨0, _⟩ =>
    show win1_1.index t (0 : Fin 2) * 8192 + 1 * (j 0).val = (j 0).val
    rw [e0]; omega
  | ⟨1, _⟩ =>
    show win1_1.index t (1 : Fin 2) * 256 + 1 * (j 1).val = (j 1).val
    rw [e1]; omega

/-- Entry `(k, q)` of the rows of P1 the point reads is P1 at row `2048 (t % 4) + k`. -/
theorem rowsP_apply (c : Dev nD) (t : Fin cfg1.N) (kb : Fin 4) (hk : t.val % 4 = kb.val) (k : Fin 2048) (q : Fin 256) :
    rowsP V c t (ix2 k q) = arrP V c (ix2 (blockIdx 4 2048 rfl kb k) q) := by
  obtain ⟨-, -, -, -, -, -, -, -, e0, e1⟩ := idx_facts t
  show bufP V c t ((rP1 (grid1.coords t)).emb (ix2 k q)) = _
  refine (bufP_apply V c t _).trans ?_
  refine congrArg (arrP V c) (funext fun a => Fin.ext ?_)
  match a with
  | ⟨0, _⟩ =>
    show k1_off1 (grid1.coords t) (0 : Fin 2) + 1 * k.val = kb.val * 2048 + k.val
    rw [e0, hk]; omega
  | ⟨1, _⟩ =>
    show k1_off1 (grid1.coords t) (1 : Fin 2) + 1 * q.val = q.val
    rw [e1]; omega

/-- The resident W2 buffer is the whole array. -/
theorem blkW_apply (c : Dev nD) (t : Fin cfg1.N) (j : S256x64.Idx) : blkW V c t j = arrW V c j := by
  obtain ⟨-, -, -, -, e0, e1, -⟩ := idx_facts t
  show arrW V c (((cfg1.win 2).blk t).view.emb j) = _
  refine congrArg (arrW V c) (funext fun a => Fin.ext ?_)
  match a with
  | ⟨0, _⟩ =>
    show win1_2.index t (0 : Fin 2) * 256 + 1 * (j 0).val = (j 0).val
    rw [e0]; omega
  | ⟨1, _⟩ =>
    show win1_2.index t (1 : Fin 2) * 64 + 1 * (j 1).val = (j 1).val
    rw [e1]; omega

/-! ## The accumulator is the sum over the column blocks done so far -/

/-- The part of entry `(2048 i + p, q)` of `A · P1` that column block `kb` of A contributes. -/
def term (c : Dev nD) (i : Fin 4) (p : Fin 2048) (q : Fin 256) (kb : Fin 4) : EReal :=
  ∑ kk : Fin 2048, arrA V c (ix2 (blockIdx 4 2048 rfl i p) (blockIdx 4 2048 rfl kb kk))
      * arrP V c (ix2 (blockIdx 4 2048 rfl kb kk) q)

/-- The product the body forms at point `t` is that part. -/
theorem prod_apply (c : Dev nD) (t : Fin cfg1.N) (i kb : Fin 4) (hi : t.val / 4 = i.val) (hk : t.val % 4 = kb.val)
    (p : Fin 2048) (q : Fin 256) :
    ∑ k : Fin 2048, blkA V c t (ix2 p k) * rowsP V c t (ix2 k q) = term V c i p q kb :=
  Finset.sum_congr rfl fun k _ => congrArg₂ (· * ·) (blkA_apply V c t i kb hi hk p k) (rowsP_apply V c t kb hk k q)

/-- After the point of row block `i` and column block `k` the accumulator holds the parts of the column blocks `0 … k`. -/
theorem acc_inv (c : Dev nD) (i : Fin 4) : ∀ (k : ℕ) (hk : k < 4) (h : 4 * i.val + k < cfg1.N) (p : Fin 2048) (q : Fin 256),
    accv V c (4 * i.val + k) h (ix2 p q) = upto 4 (term V c i p q) k
  | 0, hk, h, p, q => by
    have h0 : (⟨4 * i.val + 0, h⟩ : Fin cfg1.N).val % 4 = 0 := by show (4 * i.val + 0) % 4 = 0; omega
    have hi' : (⟨4 * i.val + 0, h⟩ : Fin cfg1.N).val / 4 = i.val := by show (4 * i.val + 0) / 4 = i.val; omega
    have hk' : (⟨4 * i.val + 0, h⟩ : Fin cfg1.N).val % 4 = (⟨0, hk⟩ : Fin 4).val := h0
    refine (congrFun (acc1_first (F := Ideal) V c ⟨4 * i.val + 0, h⟩ h0) (ix2 p q)).trans ?_
    refine (pay2_apply (rowsP V c ⟨4 * i.val + 0, h⟩) (k1_pay1 (F := Ideal)) (blkA V c ⟨4 * i.val + 0, h⟩) p q).trans ?_
    refine (congrArg₂ (· + ·) (pay1_apply p q) (prod_apply V c ⟨4 * i.val + 0, h⟩ i ⟨0, hk⟩ hi' hk' p q)).trans ?_
    rw [zero_add, upto_zero 4 _ hk]
  | k + 1, hk, h, p, q => by
    have hne : ¬(⟨4 * i.val + (k + 1), h⟩ : Fin cfg1.N).val % 4 = 0 := by show ¬(4 * i.val + (k + 1)) % 4 = 0; omega
    have hi' : (⟨4 * i.val + (k + 1), h⟩ : Fin cfg1.N).val / 4 = i.val := by show (4 * i.val + (k + 1)) / 4 = i.val; omega
    have hk' : (⟨4 * i.val + (k + 1), h⟩ : Fin cfg1.N).val % 4 = (⟨k + 1, hk⟩ : Fin 4).val := by
      show (4 * i.val + (k + 1)) % 4 = k + 1; omega
    refine (congrFun (acc1_next (F := Ideal) V c ⟨4 * i.val + (k + 1), h⟩ hne) (ix2 p q)).trans ?_
    refine (pay2_apply (rowsP V c ⟨4 * i.val + (k + 1), h⟩)
      (accv V c ((⟨4 * i.val + (k + 1), h⟩ : Fin cfg1.N).val - 1) (Nat.lt_of_le_of_lt (Nat.sub_le _ _) h))
      (blkA V c ⟨4 * i.val + (k + 1), h⟩) p q).trans ?_
    rw [upto_succ 4 _ k hk]
    exact congrArg₂ (· + ·) (acc_inv c i k (Nat.lt_of_succ_lt hk) (Nat.lt_of_succ_lt h) p q)
      (prod_apply V c ⟨4 * i.val + (k + 1), h⟩ i ⟨k + 1, hk⟩ hi' hk' p q)

/-- After the last column block it holds the whole entry of `A · P1`. -/
theorem acc_last (c : Dev nD) (i : Fin 4) (h : 4 * i.val + 3 < cfg1.N) (p : Fin 2048) (q : Fin 256) :
    accv V c (4 * i.val + 3) h (ix2 p q) = mm (toM (arrA V c)) (toM (arrP V c)) (blockIdx 4 2048 rfl i p) q := by
  rw [acc_inv V c i 3 (by decide) h p q, upto_last 4 _ 3 (by decide)]
  show _ = ∑ k : Fin 8192, toM (arrA V c) (blockIdx 4 2048 rfl i p) k * toM (arrP V c) k q
  rw [sum_blocks 4 2048 rfl]
  rfl

/-! ## What the points `k = 3` write back, and the whole array -/

/-- The array the call leaves: `relu (A · P1) · W2`. -/
abbrev G (c : Dev nD) : S8192x64.Idx → EReal :=
  ofM (mm (relu (mm (toM (arrA V c)) (toM (arrP V c)))) (toM (arrW V c)))

/-- The output window's buffer after the last point of row block `i`, at `(p, q)`, is entry `(2048 i + p, q)` of it. -/
theorem out_apply (c : Dev nD) (i : Fin 4) (h : 4 * i.val + 3 < cfg1.N) (p : Fin 2048) (q : Fin 64) :
    k1_pay3 (F := Ideal) (accv V c (4 * i.val + 3) h) (blkW V c ⟨4 * i.val + 3, h⟩) (ix2 p q)
      = G V c (ix2 (blockIdx 4 2048 rfl i p) q) := by
  refine (pay3_apply (accv V c (4 * i.val + 3) h) (blkW V c ⟨4 * i.val + 3, h⟩) p q).trans ?_
  show _ = ∑ k : Fin 256, relu (mm (toM (arrA V c)) (toM (arrP V c))) (blockIdx 4 2048 rfl i p) k * toM (arrW V c) k q
  refine Finset.sum_congr rfl fun k _ => ?_
  refine congrArg₂ (· * ·) ?_ (blkW_apply V c ⟨4 * i.val + 3, h⟩ (ix2 k q))
  show max (accv V c (4 * i.val + 3) h (ix2 p k)) 0 = max (mm (toM (arrA V c)) (toM (arrP V c)) (blockIdx 4 2048 rfl i p) k) 0
  rw [acc_last V c i h p k]

/-- What a point `k = 3` writes back is its block of that array. -/
theorem flushed_eq (c : Dev nD) (t : Fin cfg1.N) (hf : (cfg1.win 3).flush t = true) :
    (dat1 (F := Ideal) V c).flushed 3 t = ((cfg1.win 3).blk t).view.read (Elt Ideal) (G V c) := by
  have hN : cfg1.N = 16 := N_1
  have h3 : t.val % 4 = 3 := (flush1_3 t).mp hf
  have hlt : t.val < 16 := hN ▸ t.isLt
  obtain ⟨i, h, rfl⟩ : ∃ (i : Fin 4) (h : 4 * i.val + 3 < cfg1.N), t = ⟨4 * i.val + 3, h⟩ :=
    ⟨⟨t.val / 4, by omega⟩, lt_of_lt_of_eq (by show 4 * (t.val / 4) + 3 < 16; omega) hN.symm, Fin.ext (by show t.val = 4 * (t.val / 4) + 3; omega)⟩
  obtain ⟨-, -, -, -, -, -, e0, e1, -⟩ := idx_facts ⟨4 * i.val + 3, h⟩
  show (cfg1.win 3).cut (grid1.coords ⟨4 * i.val + 3, h⟩) ((dat1 (F := Ideal) V c).after 3 ⟨4 * i.val + 3, h⟩) = _
  rw [after1_3]
  funext j
  obtain ⟨p, q, rfl⟩ : ∃ (p : Fin 2048) (q : Fin 64), j = ix2 p q := ⟨j 0, j 1, eq_ix2 j⟩
  show k1_pay3 (F := Ideal) (accv V c (4 * i.val + 3) h) (blkW V c ⟨4 * i.val + 3, h⟩) (ix2 p q)
    = G V c (((cfg1.win 3).blk ⟨4 * i.val + 3, h⟩).view.emb (ix2 p q))
  refine (out_apply V c i h p q).trans ?_
  refine congrArg (G V c) (funext fun a => Fin.ext ?_)
  have hd : (4 * i.val + 3) / 4 = i.val := by omega
  match a with
  | ⟨0, _⟩ =>
    show i.val * 2048 + p.val = win1_3.index ⟨4 * i.val + 3, h⟩ (0 : Fin 2) * 2048 + 1 * p.val
    rw [e0]; show i.val * 2048 + p.val = (4 * i.val + 3) / 4 * 2048 + 1 * p.val; rw [hd]; omega
  | ⟨1, _⟩ =>
    show q.val = win1_3.index ⟨4 * i.val + 3, h⟩ (1 : Fin 2) * 64 + 1 * q.val
    rw [e1]; omega

/-- An index of the array is in point `t`'s block iff each coordinate is in the block's range on its axis. -/
theorem mem_blk (t : Fin cfg1.N) (j : S8192x64.Idx) :
    j ∈ ((cfg1.win 3).blk t).view.set
      ↔ ∀ a : Fin 2, win1_3.index t a * S2048x64.size a ≤ (j a).val ∧ (j a).val < win1_3.index t a * S2048x64.size a + S2048x64.size a := by
  show j ∈ ((View.whole main_v19).slice (win1_3.rect t)).set ↔ _
  rw [View.set_slice_whole, Rect.mem_set_unit]
  exact Iff.rfl

/-- Row `r` of the array is written back by the last point of row block `r / 2048`. -/
theorem cover (j : S8192x64.Idx) : ∃ t : Fin cfg1.N, (cfg1.win 3).flush t = true ∧ j ∈ ((cfg1.win 3).blk t).view.set := by
  have hN : cfg1.N = 16 := N_1
  have h0 : (j 0).val < 8192 := (j 0).isLt
  have h1 : (j 1).val < 64 := (j 1).isLt
  have ht : 4 * ((j 0).val / 2048) + 3 < cfg1.N := lt_of_lt_of_eq (by omega) hN.symm
  obtain ⟨-, -, -, -, -, -, e0, e1, -⟩ := idx_facts ⟨4 * ((j 0).val / 2048) + 3, ht⟩
  have hd : (4 * ((j 0).val / 2048) + 3) / 4 = (j 0).val / 2048 := by omega
  refine ⟨⟨4 * ((j 0).val / 2048) + 3, ht⟩, (flush1_3 _).mpr (by show (4 * ((j 0).val / 2048) + 3) % 4 = 3; omega), ?_⟩
  rw [mem_blk]
  intro a
  match a with
  | ⟨0, _⟩ =>
    show win1_3.index ⟨4 * ((j 0).val / 2048) + 3, ht⟩ (0 : Fin 2) * 2048 ≤ (j 0).val
      ∧ (j 0).val < win1_3.index ⟨4 * ((j 0).val / 2048) + 3, ht⟩ (0 : Fin 2) * 2048 + 2048
    rw [e0]
    show (4 * ((j 0).val / 2048) + 3) / 4 * 2048 ≤ (j 0).val ∧ (j 0).val < (4 * ((j 0).val / 2048) + 3) / 4 * 2048 + 2048
    rw [hd]; omega
  | ⟨1, _⟩ =>
    show win1_3.index ⟨4 * ((j 0).val / 2048) + 3, ht⟩ (1 : Fin 2) * 64 ≤ (j 1).val
      ∧ (j 1).val < win1_3.index ⟨4 * ((j 0).val / 2048) + 3, ht⟩ (1 : Fin 2) * 64 + 64
    rw [e1]; omega

/-- After the call the array P2 is `relu (A · P1) · W2`, as matrices. -/
theorem final1 (c : Dev nD) :
    ((dat1 (F := Ideal) V c).arrAt 3 cfg1.N : S8192x64.Idx → EReal)
      = ofM (mm (relu (mm (toM (V c main_v15 : S8192x8192.Idx → EReal)) (toM (V c main_v18 : S8192x256.Idx → EReal))))
          (toM (V c main_v17 : S256x64.Idx → EReal))) :=
  (dat1 (F := Ideal) V c).arrAt_eq_of_cover 3 (G V c) (flushed_eq V c) cover

end Cert.KernelIdeal.HandValue.Call1

end
-- ==== Proof.Value2.lean ====
/-
  The value of the third pallas_call at the exact instance: after its sixteen points the output array holds A · P2,
  the accumulation over the four column blocks of A being the whole sum over its columns.

  The point t of the 4 × 4 grid is (i, k) = (t / 4, t % 4). It multiplies block (i, k) of A (2048 × 2048) with rows
  2048 k … 2048 k + 2047 of P2 and adds the product to an accumulator that starts from zero at k = 0; at k = 3 the
  accumulator is written to rows 2048 i … 2048 i + 2047 of Z. Entry (p, q) of the accumulator after the point (i, k)
  is therefore the sum over the column blocks kb ≤ k of ∑ kk < 2048, A (2048 i + p, 2048 kb + kk) · P2 (2048 kb + kk, q),
  and for k = 3 this is the sum over all 8192 columns: entry (2048 i + p, q) of A · P2. Only commutativity and
  associativity of the sum are used, so nothing is asked of the entries.
-/
import proofs.«412814_j42056319762467_3_alg».proof.Proof.KernelIdeal.R2
import proofs.«412814_j42056319762467_3_alg».proof.Proof.Bridge
import proofs.«412814_j42056319762467_3_alg».proof.Proof.LibBlockedSum
import Idealize.ShloMosaic.Lib.Pipeline.Value
import Idealize.ShloMosaic.Lib.ValueIdx
import Idealize.ShloMosaic.PureOps.Ideal.Laws

set_option maxRecDepth 16384

noncomputable section

namespace Cert.KernelIdeal.HandValue.Call2

open Cert.KernelIdeal Cert.KernelIdeal.Gen Cert.KernelIdeal.Hand
open Idealize.ShloMosaic Idealize.ShloMosaic.TcCoe Idealize.ShloMosaic.ValueIdx Idealize.SL.Sem
open Cert.Bridge Cert.Spec Cert.LibBlockedSum
open scoped BigOperators

/-! ## The product of one point, entry by entry -/

theorem lhs2_0 (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem lhs2_1 (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q
theorem rhs2_0 (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q
theorem rhs2_1 (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- The matrix unit's product into the zero accumulator, at row p and column q: the sum over the 2048 inner positions. -/
theorem matmul2_apply (l : FVec Ideal S2048x2048 .bf16) (r : FVec Ideal S2048x64 .bf16) (p : Fin 2048) (q : Fin 64) :
    matmul (F := Ideal) dot_S2048x2048_S2048x64_S2048x64_1_0_0_1_n_n none l r (constant (F := Ideal) S2048x64 .f32 0x00000000#32) (ix2 p q)
      = ∑ kk : Fin 2048, l (ix2 p kk) * r (ix2 kk q) := by
  refine (Ideal.matmul_constant_zero_apply dot_S2048x2048_S2048x64_S2048x64_1_0_0_1_n_n none l r (ix2 p q)).trans ?_
  rw [← Equiv.sum_comp (ValueIdx.contrEquiv1 dot_S2048x2048_S2048x64_S2048x64_1_0_0_1_n_n 2048 rfl rfl).symm]
  refine Finset.sum_congr rfl fun k _ => ?_
  have hk := ValueIdx.contrEquiv1_symm_val dot_S2048x2048_S2048x64_S2048x64_1_0_0_1_n_n 2048 rfl rfl k
  have el : dot_S2048x2048_S2048x64_S2048x64_1_0_0_1_n_n.lhsIdx (ix2 p q) ((ValueIdx.contrEquiv1 dot_S2048x2048_S2048x64_S2048x64_1_0_0_1_n_n 2048 rfl rfl).symm k) = ix2 p k := funext fun a => Fin.ext (by
    match a with
    | ⟨0, _⟩ => exact lhs2_0 _ _
    | ⟨1, _⟩ => exact (lhs2_1 _ _).trans hk)
  have er : dot_S2048x2048_S2048x64_S2048x64_1_0_0_1_n_n.rhsIdx (ix2 p q) ((ValueIdx.contrEquiv1 dot_S2048x2048_S2048x64_S2048x64_1_0_0_1_n_n 2048 rfl rfl).symm k) = ix2 k q := funext fun a => Fin.ext (by
    match a with
    | ⟨0, _⟩ => exact (rhs2_0 _ _).trans hk
    | ⟨1, _⟩ => exact rhs2_1 _ _)
  rw [el, er]

/-- The reset value is zero everywhere. -/
theorem zero2_apply (j : S2048x64.Idx) : k2_pay1 (F := Ideal) j = 0 := by
  unfold k2_pay1
  simp only [shapeCast_self]
  exact Ideal.ofBits_zero_f32

/-- One point's step, entry by entry: what the accumulator held plus the product of the block of A with the rows of P2. -/
theorem step2_apply (x6 : Vec Ideal S2048x64 .f32) (x9 : Vec Ideal S2048x64 .f32) (x10 : Vec Ideal S2048x2048 .bf16)
    (p : Fin 2048) (q : Fin 64) :
    k2_pay2 x6 x9 x10 (ix2 p q) = x9 (ix2 p q) + ∑ kk : Fin 2048, x10 (ix2 p kk) * x6 (ix2 kk q) := by
  unfold k2_pay2
  simp only [shapeCast_self]
  refine (addf_apply _ _ _).trans ?_
  exact congrArg (x9 (ix2 p q) + ·) (matmul2_apply _ _ p q)

/-! ## The blocks a point reads, as entries of the two arrays -/

variable (V : (c : Dev nD) → (b : Ref sig .tc) → Buf (Elt Ideal) ((c : Thread nD τ).loc b))

/-- The array A as the call finds it; -/
abbrev Aarr2 (c : Dev nD) : S8192x8192.Idx → EReal := V c main_v15
/-- the array P2 as the call finds it; -/
abbrev Parr2 (c : Dev nD) : S8192x64.Idx → EReal := V c main_v19
/-- the block of A at a point; -/
abbrev Ablk2 (c : Dev nD) (t : Fin cfg2.N) : Vec Ideal S2048x2048 .bf16 := iblk2 V c 0 t
/-- the rows of P2 at a point. -/
abbrev Pblk2 (c : Dev nD) (t : Fin cfg2.N) : Vec Ideal S2048x64 .f32 := P2blk2 V c t

/-- Where the three windows and the row offset into P2 sit at the point t: t is (row block t / 4, column block t % 4). -/
theorem idx_facts2 : ∀ t : Fin cfg2.N,
    win2_0.index t (0 : Fin 2) = t.val / 4 ∧ win2_0.index t (1 : Fin 2) = t.val % 4
    ∧ win2_1.index t (0 : Fin 2) = 0 ∧ win2_1.index t (1 : Fin 2) = 0
    ∧ win2_2.index t (0 : Fin 2) = t.val / 4 ∧ win2_2.index t (1 : Fin 2) = 0
    ∧ k2_off1 (grid2.coords t) (0 : Fin 2) = 2048 * (t.val % 4) ∧ k2_off1 (grid2.coords t) (1 : Fin 2) = 0 :=
  (by decide +kernel : ∀ t : Fin grid2.N, _)

/-- Entry (p, kk) of the block of A at the point (i, k) is entry (2048 i + p, 2048 k + kk) of A. -/
theorem Ablk2_apply (c : Dev nD) (t : Fin cfg2.N) (i k : Fin 4) (hi : t.val / 4 = i.val) (hk : t.val % 4 = k.val)
    (p kk : Fin 2048) :
    Ablk2 V c t (ix2 p kk) = Aarr2 V c (ix2 (blockIdx 4 2048 rfl i p) (blockIdx 4 2048 rfl k kk)) := by
  obtain ⟨e0, e1, -, -, -, -, -, -⟩ := idx_facts2 t
  show ((cfg2.win 0).blk t).view.read (Elt Ideal) (V c (Pipeline.arrRef spec2 0)) (ix2 p kk) = _
  rw [View.read_apply]
  show V c main_v15 (((cfg2.win 0).blk t).view.emb (ix2 p kk)) = V c main_v15 _
  congr 1
  funext a
  apply Fin.ext
  match a with
  | ⟨0, _⟩ => show win2_0.index t (0 : Fin 2) * 2048 + 1 * p.val = i.val * 2048 + p.val; rw [e0, hi]; omega
  | ⟨1, _⟩ => show win2_0.index t (1 : Fin 2) * 2048 + 1 * kk.val = k.val * 2048 + kk.val; rw [e1, hk]; omega

/-- Entry (kk, q) of the rows of P2 read at the point (i, k) is entry (2048 k + kk, q) of P2. -/
theorem Pblk2_apply (c : Dev nD) (t : Fin cfg2.N) (k : Fin 4) (hk : t.val % 4 = k.val) (kk : Fin 2048) (q : Fin 64) :
    Pblk2 V c t (ix2 kk q) = Parr2 V c (ix2 (blockIdx 4 2048 rfl k kk) q) := by
  obtain ⟨-, -, e2, e3, -, -, e6, e7⟩ := idx_facts2 t
  show ((cfg2.win 1).blk t).view.read (Elt Ideal) (V c (Pipeline.arrRef spec2 1)) ((rP2 (grid2.coords t)).idx (ix2 kk q)) = _
  rw [View.read_apply]
  show V c main_v19 (((cfg2.win 1).blk t).view.emb ((rP2 (grid2.coords t)).idx (ix2 kk q))) = V c main_v19 _
  congr 1
  funext a
  apply Fin.ext
  match a with
  | ⟨0, _⟩ => show win2_1.index t (0 : Fin 2) * 8192 + 1 * (k2_off1 (grid2.coords t) (0 : Fin 2) + 1 * kk.val) = k.val * 2048 + kk.val; rw [e2, e6, hk]; omega
  | ⟨1, _⟩ => show win2_1.index t (1 : Fin 2) * 64 + 1 * (k2_off1 (grid2.coords t) (1 : Fin 2) + 1 * q.val) = q.val; rw [e3, e7]; omega

/-! ## The accumulator after a point: the row sums over the column blocks met so far -/

/-- The share of entry (2048 i + p, q) of A · P2 that the columns of block kb contribute. -/
def part2 (c : Dev nD) (i : Fin 4) (p : Fin 2048) (q : Fin 64) (kb : Fin 4) : EReal :=
  ∑ kk : Fin 2048, Aarr2 V c (ix2 (blockIdx 4 2048 rfl i p) (blockIdx 4 2048 rfl kb kk)) * Parr2 V c (ix2 (blockIdx 4 2048 rfl kb kk) q)

/-- The product a point (i, k) adds is that share for kb = k. -/
theorem prod2_apply (c : Dev nD) (t : Fin cfg2.N) (i k : Fin 4) (hi : t.val / 4 = i.val) (hk : t.val % 4 = k.val)
    (p : Fin 2048) (q : Fin 64) :
    ∑ kk : Fin 2048, Ablk2 V c t (ix2 p kk) * Pblk2 V c t (ix2 kk q) = part2 V c i p q k :=
  Finset.sum_congr rfl fun kk _ => by rw [Ablk2_apply V c t i k hi hk p kk, Pblk2_apply V c t k hk kk q]

/-- After the point (i, k) the accumulator holds, at (p, q), the parts of the column blocks 0 … k. -/
theorem acc2_inv (c : Dev nD) : ∀ (n : ℕ) (hn : n < cfg2.N) (i k : Fin 4), n / 4 = i.val → n % 4 = k.val →
    ∀ (p : Fin 2048) (q : Fin 64), acc2 V c n hn (ix2 p q) = upto 4 (part2 V c i p q) k.val := by
  intro n
  induction n with
  | zero =>
    intro hn i k hi hk p q
    obtain rfl : k = ⟨0, by decide⟩ := Fin.ext hk.symm
    rw [upto_zero 4 _ (by decide)]
    refine (congrFun (acc2_first V c ⟨0, hn⟩ rfl) (ix2 p q)).trans ?_
    refine (step2_apply (Pblk2 V c ⟨0, hn⟩) (k2_pay1 (F := Ideal)) (Ablk2 V c ⟨0, hn⟩) p q).trans ?_
    rw [zero2_apply, zero_add]
    exact prod2_apply V c ⟨0, hn⟩ i ⟨0, by decide⟩ hi rfl p q
  | succ m ih =>
    intro hn i k hi hk p q
    by_cases h0 : (m + 1) % 4 = 0
    · obtain rfl : k = ⟨0, by decide⟩ := Fin.ext (hk.symm.trans h0)
      rw [upto_zero 4 _ (by decide)]
      refine (congrFun (acc2_first V c ⟨m + 1, hn⟩ h0) (ix2 p q)).trans ?_
      refine (step2_apply (Pblk2 V c ⟨m + 1, hn⟩) (k2_pay1 (F := Ideal)) (Ablk2 V c ⟨m + 1, hn⟩) p q).trans ?_
      rw [zero2_apply, zero_add]
      exact prod2_apply V c ⟨m + 1, hn⟩ i ⟨0, by decide⟩ hi h0 p q
    · obtain ⟨kv, hkv⟩ := k
      cases kv with
      | zero => exact absurd hk h0
      | succ j =>
        have hm : m < cfg2.N := Nat.lt_of_succ_lt hn
        have hk1 : (m + 1) % 4 = j + 1 := hk
        have e := ih hm i ⟨j, Nat.lt_of_succ_lt hkv⟩ (by omega) (by show m % 4 = j; omega) p q
        show acc2 V c (m + 1) hn (ix2 p q) = upto 4 (part2 V c i p q) (j + 1)
        rw [upto_succ 4 (part2 V c i p q) j hkv]
        refine (congrFun (acc2_next V c ⟨m + 1, hn⟩ h0) (ix2 p q)).trans ?_
        refine (step2_apply (Pblk2 V c ⟨m + 1, hn⟩) (acc2 V c m hm) (Ablk2 V c ⟨m + 1, hn⟩) p q).trans ?_
        rw [e]
        exact congrArg (upto 4 (part2 V c i p q) j + ·) (prod2_apply V c ⟨m + 1, hn⟩ i ⟨j + 1, hkv⟩ hi hk p q)

/-! ## From the accumulator to the array -/

/-- What Z ends holding: A · P2, as matrices. -/
abbrev G2 (c : Dev nD) : S8192x64.Idx → EReal := ofM (mm (toM (Aarr2 V c)) (toM (Parr2 V c)))

/-- At the last point of a row block (k = 3) the accumulator holds the whole row sums: the four parts together are the
    sum over all 8192 columns. -/
theorem acc2_last (c : Dev nD) (t : Fin cfg2.N) (h3 : t.val % 4 = 3) (i : Fin 4) (hi : t.val / 4 = i.val)
    (p : Fin 2048) (q : Fin 64) :
    acc2 V c t.val t.isLt (ix2 p q) = G2 V c (ix2 (blockIdx 4 2048 rfl i p) q) := by
  rw [acc2_inv V c t.val t.isLt i ⟨3, by decide⟩ hi h3 p q, upto_last 4 _ 3 (by decide)]
  show ∑ kb : Fin 4, part2 V c i p q kb
    = ∑ k : Fin 8192, Aarr2 V c (ix2 (blockIdx 4 2048 rfl i p) k) * Parr2 V c (ix2 k q)
  rw [sum_blocks 4 2048 rfl]
  rfl

/-- What a point with k = 3 writes back is its block of A · P2: rows 2048 i … 2048 i + 2047. -/
theorem flushed2_eq (c : Dev nD) (t : Fin cfg2.N) (hf : (cfg2.win 2).flush t = true) :
    (dat2 (F := Ideal) V c).flushed 2 t = ((cfg2.win 2).blk t).view.read (Elt Ideal) (G2 V c) := by
  have h3 : t.val % 4 = 3 := (flush2_2 t).mp hf
  have h16 : t.val < 16 := Nat.lt_of_lt_of_eq t.isLt N_2
  have hi : t.val / 4 < 4 := by omega
  obtain ⟨-, -, -, -, e4, e5, -, -⟩ := idx_facts2 t
  show (cfg2.win 2).cut (grid2.coords t) ((dat2 V c).after 2 t) = _
  rw [after2_2]
  funext j
  obtain ⟨p, q, rfl⟩ : ∃ (p : Fin 2048) (q : Fin 64), j = ix2 p q := ⟨j 0, j 1, eq_ix2 j⟩
  rw [View.read_apply]
  show acc2 V c t.val t.isLt (ix2 p q) = G2 V c (((cfg2.win 2).blk t).view.emb (ix2 p q))
  rw [acc2_last V c t h3 ⟨t.val / 4, hi⟩ rfl p q]
  congr 1
  funext a
  apply Fin.ext
  match a with
  | ⟨0, _⟩ => show t.val / 4 * 2048 + p.val = win2_2.index t (0 : Fin 2) * 2048 + 1 * p.val; rw [e4]; omega
  | ⟨1, _⟩ => show q.val = win2_2.index t (1 : Fin 2) * 64 + 1 * q.val; rw [e5]; omega

/-- An index of Z is in the block of the point t iff each coordinate is in the block's range on its axis. -/
theorem mem_blk2 (t : Fin cfg2.N) (i : S8192x64.Idx) :
    i ∈ ((cfg2.win 2).blk t).view.set ↔ ∀ a : Fin 2, win2_2.index t a * S2048x64.size a ≤ (i a).val ∧ (i a).val < win2_2.index t a * S2048x64.size a + S2048x64.size a := by
  show i ∈ ((View.whole main_v20).slice (win2_2.rect t)).set ↔ _
  rw [View.set_slice_whole, Rect.mem_set_unit]
  exact Iff.rfl

/-- Row r of Z is in the block written back at the point (r / 2048, 3). -/
theorem cover2 (i : S8192x64.Idx) :
    ∃ t : Fin cfg2.N, (cfg2.win 2).flush t = true ∧ i ∈ ((cfg2.win 2).blk t).view.set := by
  have h0 : (i 0).val < 8192 := (i 0).isLt
  have h1 : (i 1).val < 64 := (i 1).isLt
  have hlt : 4 * ((i 0).val / 2048) + 3 < cfg2.N := Nat.lt_of_lt_of_eq (by omega : 4 * ((i 0).val / 2048) + 3 < 16) N_2.symm
  obtain ⟨-, -, -, -, e4, e5, -, -⟩ := idx_facts2 ⟨4 * ((i 0).val / 2048) + 3, hlt⟩
  have e4' : win2_2.index ⟨4 * ((i 0).val / 2048) + 3, hlt⟩ (0 : Fin 2) = (4 * ((i 0).val / 2048) + 3) / 4 := e4
  refine ⟨⟨4 * ((i 0).val / 2048) + 3, hlt⟩, (flush2_2 _).mpr (by show (4 * ((i 0).val / 2048) + 3) % 4 = 3; omega), ?_⟩
  rw [mem_blk2]
  intro a
  match a with
  | ⟨0, _⟩ =>
    show win2_2.index ⟨4 * ((i 0).val / 2048) + 3, hlt⟩ (0 : Fin 2) * 2048 ≤ (i 0).val
      ∧ (i 0).val < win2_2.index ⟨4 * ((i 0).val / 2048) + 3, hlt⟩ (0 : Fin 2) * 2048 + 2048
    rw [e4']; omega
  | ⟨1, _⟩ =>
    show win2_2.index ⟨4 * ((i 0).val / 2048) + 3, hlt⟩ (1 : Fin 2) * 64 ≤ (i 1).val
      ∧ (i 1).val < win2_2.index ⟨4 * ((i 0).val / 2048) + 3, hlt⟩ (1 : Fin 2) * 64 + 64
    rw [e5]; omega

/-- After the call the array Z is `A · P2`, as matrices. -/
theorem final2 (c : Dev nD) :
    ((dat2 (F := Ideal) V c).arrAt 2 cfg2.N : S8192x64.Idx → EReal)
      = ofM (mm (toM (V c main_v15 : S8192x8192.Idx → EReal)) (toM (V c main_v19 : S8192x64.Idx → EReal))) :=
  (dat2 (F := Ideal) V c).arrAt_eq_of_cover 2 (G2 V c) (flushed2_eq V c) cover2

end Cert.KernelIdeal.HandValue.Call2

end
-- ==== Proof.Value3.lean ====
/-
  The value of the fourth pallas_call at the exact instance: after its thirty-two points the output array holds Z · Zᵀ.
  Point 8 i + j multiplies rows block i (2048 rows) of Z by the transpose of rows block j (1024 rows) of Z and writes
  output block (i, j) back; the 4 × 8 blocks tile the output, so the array ends as the whole matrix of inner products.
-/
import proofs.«412814_j42056319762467_3_alg».proof.Proof.KernelIdeal.R3
import proofs.«412814_j42056319762467_3_alg».proof.Proof.Bridge
import Idealize.ShloMosaic.Lib.Pipeline.Value
import Idealize.ShloMosaic.Lib.ValueIdx
import Idealize.ShloMosaic.PureOps.Ideal.Laws

set_option maxRecDepth 16384

noncomputable section

namespace Cert.KernelIdeal.HandValue.Call3

open Cert.KernelIdeal Cert.KernelIdeal.Gen Cert.KernelIdeal.Hand
open Idealize.ShloMosaic Idealize.ShloMosaic.TcCoe Idealize.ShloMosaic.ValueIdx Idealize.SL.Sem
open Cert.Bridge Cert.Spec

variable (V : (c : Dev nD) → (b : Ref sig .tc) → Buf (Elt Ideal) ((c : Thread nD τ).loc b))

theorem hz3 : (![0, 0] : Fin 2 → Nat) = fun _ => 0 := funext fun a => by fin_cases a <;> rfl

theorem lhs3_0 (i : S2048x1024.Idx) (q : dot_S2048x64_S1024x64_S2048x1024_1_1_0_0_n_n.contr.Idx) :
    (dot_S2048x64_S1024x64_S2048x1024_1_1_0_0_n_n.lhsIdx i q 0).val = (i 0).val := by
  unfold DotDims.lhsIdx
  rw [dif_neg (show ¬(0 : Fin S2048x64.rank) ∈ dot_S2048x64_S1024x64_S2048x1024_1_1_0_0_n_n.lhsBatch by decide), dif_pos (show (0 : Fin S2048x64.rank) ∈ dot_S2048x64_S1024x64_S2048x1024_1_1_0_0_n_n.lhsNonContracting by decide)]
  rfl
theorem lhs3_1 (i : S2048x1024.Idx) (q : dot_S2048x64_S1024x64_S2048x1024_1_1_0_0_n_n.contr.Idx) :
    (dot_S2048x64_S1024x64_S2048x1024_1_1_0_0_n_n.lhsIdx i q 1).val = (q ⟨0, by decide⟩).val :=
  dot_S2048x64_S1024x64_S2048x1024_1_1_0_0_n_n.lhsIdx_val_of_single rfl i q
theorem rhs3_0 (i : S2048x1024.Idx) (q : dot_S2048x64_S1024x64_S2048x1024_1_1_0_0_n_n.contr.Idx) :
    (dot_S2048x64_S1024x64_S2048x1024_1_1_0_0_n_n.rhsIdx i q 0).val = (i 1).val := by
  unfold DotDims.rhsIdx
  rw [dif_neg (show ¬(0 : Fin S1024x64.rank) ∈ dot_S2048x64_S1024x64_S2048x1024_1_1_0_0_n_n.rhsBatch by decide), dif_pos (show (0 : Fin S1024x64.rank) ∈ dot_S2048x64_S1024x64_S2048x1024_1_1_0_0_n_n.rhsNonContracting by decide)]
  rfl
theorem rhs3_1 (i : S2048x1024.Idx) (q : dot_S2048x64_S1024x64_S2048x1024_1_1_0_0_n_n.contr.Idx) :
    (dot_S2048x64_S1024x64_S2048x1024_1_1_0_0_n_n.rhsIdx i q 1).val = (q ⟨0, by decide⟩).val :=
  dot_S2048x64_S1024x64_S2048x1024_1_1_0_0_n_n.rhsIdx_val_of_single rfl i q

/-- One entry of the block product: row p of the first block against ROW q of the second (both operands are
    contracted along their second axis, so the second block enters transposed). -/
theorem pay3_apply (x0 : Vec Ideal S2048x64 .f32) (x1 : Vec Ideal S1024x64 .f32) (p : Fin 2048) (q : Fin 1024) :
    k3_pay1 (F := Ideal) x0 x1 (ix2 p q) = ∑ k : Fin 64, x0 (ix2 p k) * x1 (ix2 q k) := by
  unfold k3_pay1
  refine (Ideal.matmul_constant_zero_apply dot_S2048x64_S1024x64_S2048x1024_1_1_0_0_n_n none _ _ (ix2 p q)).trans ?_
  rw [← Equiv.sum_comp (contrEquiv1 dot_S2048x64_S1024x64_S2048x1024_1_1_0_0_n_n 64 rfl rfl).symm]
  refine Finset.sum_congr rfl fun k _ => ?_
  have hk := contrEquiv1_symm_val dot_S2048x64_S1024x64_S2048x1024_1_1_0_0_n_n 64 rfl rfl k
  have el : dot_S2048x64_S1024x64_S2048x1024_1_1_0_0_n_n.lhsIdx (ix2 p q) ((contrEquiv1 dot_S2048x64_S1024x64_S2048x1024_1_1_0_0_n_n 64 rfl rfl).symm k) = ix2 p k := funext fun a => Fin.ext (by
    match a with
    | ⟨0, _⟩ => exact lhs3_0 _ _
    | ⟨1, _⟩ => exact (lhs3_1 _ _).trans hk)
  have er : dot_S2048x64_S1024x64_S2048x1024_1_1_0_0_n_n.rhsIdx (ix2 p q) ((contrEquiv1 dot_S2048x64_S1024x64_S2048x1024_1_1_0_0_n_n 64 rfl rfl).symm k) = ix2 q k := funext fun a => Fin.ext (by
    match a with
    | ⟨0, _⟩ => exact rhs3_0 _ _
    | ⟨1, _⟩ => exact (rhs3_1 _ _).trans hk)
  rw [el, er, shapeCast_self, shapeCast_self]
  rfl

/-- The output block a point leaves, entry by entry. -/
theorem out3_apply (x0 : Vec Ideal S2048x64 .f32) (x1 : Vec Ideal S1024x64 .f32) (p : Fin 2048) (q : Fin 1024) :
    out3_2 (F := Ideal) x0 x1 (ix2 p q) = ∑ k : Fin 64, x0 (ix2 p k) * x1 (ix2 q k) := by
  unfold out3_2
  rw [View.canon_unit_zero hz3]
  simp only [View.ld_unit_zero (S := S2048x64) hz3, View.ld_unit_zero (S := S1024x64) hz3]
  exact pay3_apply x0 x1 p q

/-- The block indices of the three windows over the grid: point t = 8 i + j takes row block i (of 2048 rows) of Z
    through the first window, row block j (of 1024 rows) of Z through the second, and writes output block (i, j). -/
theorem idx_facts3 : ∀ t : Fin cfg3.N, win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val / 8 ∧ win3_2.index t (1 : Fin 2) = t.val % 8 :=
  (by decide +kernel : ∀ t : Fin grid3.N, _)

/-- The input array Z as the call finds it, at its literal type. -/
abbrev Z3 (c : Dev nD) : S8192x64.Idx → EReal := V c main_v20

/-- The whole result: the inner products of the rows of Z. -/
abbrev G3 (c : Dev nD) : S8192x8192.Idx → EReal := ofM (gram (toM (Z3 V c)))

/-- Row p of the first window's block at point t is row 2048 (t / 8) + p of Z. -/
theorem iblk3_0_apply (c : Dev nD) (t : Fin cfg3.N) (p : Fin 2048) (k : Fin 64) (r : Fin 8192)
    (hr : r.val = t.val / 8 * 2048 + p.val) :
    (iblk3 V c 0 t : Vec Ideal S2048x64 .f32) (ix2 p k) = Z3 V c (ix2 r k) := by
  obtain ⟨e0, e1, -, -, -, -⟩ := idx_facts3 t
  unfold iblk3
  rw [View.read_apply]
  show V c main_v20 (((cfg3.win 0).blk t).view.emb (ix2 p k)) = V c main_v20 (ix2 r k)
  congr 1
  funext a; apply Fin.ext
  match a with
  | ⟨0, _⟩ => show win3_0.index t (0 : Fin 2) * 2048 + 1 * p.val = r.val; omega
  | ⟨1, _⟩ => show win3_0.index t (1 : Fin 2) * 64 + 1 * k.val = k.val; omega

/-- Row q of the second window's block at point t is row 1024 (t % 8) + q of Z. -/
theorem iblk3_1_apply (c : Dev nD) (t : Fin cfg3.N) (q : Fin 1024) (k : Fin 64) (s : Fin 8192)
    (hs : s.val = t.val % 8 * 1024 + q.val) :
    (iblk3 V c 1 t : Vec Ideal S1024x64 .f32) (ix2 q k) = Z3 V c (ix2 s k) := by
  obtain ⟨-, -, e2, e3, -, -⟩ := idx_facts3 t
  unfold iblk3
  rw [View.read_apply]
  show V c main_v20 (((cfg3.win 1).blk t).view.emb (ix2 q k)) = V c main_v20 (ix2 s k)
  congr 1
  funext a; apply Fin.ext
  match a with
  | ⟨0, _⟩ => show win3_1.index t (0 : Fin 2) * 1024 + 1 * q.val = s.val; omega
  | ⟨1, _⟩ => show win3_1.index t (1 : Fin 2) * 64 + 1 * k.val = k.val; omega

/-- The whole result read through the output block of point t, at (p, q): entry (2048 (t / 8) + p, 1024 (t % 8) + q). -/
theorem G3_read (c : Dev nD) (t : Fin cfg3.N) (p : Fin 2048) (q : Fin 1024) (r s : Fin 8192)
    (hr : r.val = t.val / 8 * 2048 + p.val) (hs : s.val = t.val % 8 * 1024 + q.val) :
    ((cfg3.win 2).blk t).view.read (Elt Ideal) (G3 V c) (ix2 p q)
      = ∑ k : Fin 64, Z3 V c (ix2 r k) * Z3 V c (ix2 s k) := by
  obtain ⟨-, -, -, -, e4, e5⟩ := idx_facts3 t
  rw [View.read_apply]
  have he : ((cfg3.win 2).blk t).view.emb (ix2 p q) = (ix2 r s : S8192x8192.Idx) := by
    funext a; apply Fin.ext
    match a with
    | ⟨0, _⟩ => show win3_2.index t (0 : Fin 2) * 2048 + 1 * p.val = r.val; omega
    | ⟨1, _⟩ => show win3_2.index t (1 : Fin 2) * 1024 + 1 * q.val = s.val; omega
  show G3 V c (((cfg3.win 2).blk t).view.emb (ix2 p q)) = _
  rw [he]
  rfl

/-- What point t writes back is its block of the whole result. -/
theorem flushed3_eq (c : Dev nD) (t : Fin cfg3.N) :
    (dat3 (F := Ideal) V c).flushed 2 t = ((cfg3.win 2).blk t).view.read (Elt Ideal) (G3 V c) := by
  show (cfg3.win 2).cut (grid3.coords t) ((dat3 (F := Ideal) V c).after 2 t) = _
  rw [after3_2]
  funext j
  obtain ⟨p, q, rfl⟩ : ∃ (p : Fin 2048) (q : Fin 1024), j = ix2 p q := ⟨j 0, j 1, eq_ix2 j⟩
  have ht : t.val < 32 := t.isLt
  have hp : p.val < 2048 := p.isLt
  have hq : q.val < 1024 := q.isLt
  refine (out3_apply (iblk3 V c 0 t) (iblk3 V c 1 t) p q).trans ?_
  refine Eq.trans ?_ (G3_read V c t p q ⟨t.val / 8 * 2048 + p.val, by omega⟩ ⟨t.val % 8 * 1024 + q.val, by omega⟩ rfl rfl).symm
  refine Finset.sum_congr rfl fun k _ => ?_
  exact congrArg₂ (fun a b : EReal => a * b) (iblk3_0_apply V c t p k ⟨t.val / 8 * 2048 + p.val, by omega⟩ rfl)
    (iblk3_1_apply V c t q k ⟨t.val % 8 * 1024 + q.val, by omega⟩ rfl)

/-- An index of the output array is in point t's block iff each coordinate is in the block's range on its axis. -/
theorem mem_blk3 (t : Fin cfg3.N) (i : S8192x8192.Idx) :
    i ∈ ((cfg3.win 2).blk t).view.set ↔ ∀ a : Fin 2, win3_2.index t a * S2048x1024.size a ≤ (i a).val ∧ (i a).val < win3_2.index t a * S2048x1024.size a + S2048x1024.size a := by
  show i ∈ ((View.whole main_v21).slice (win3_2.rect t)).set ↔ _
  rw [View.set_slice_whole, Rect.mem_set_unit]
  exact Iff.rfl

/-- Entry (r, s) of the output lies in the block of point 8 (r / 2048) + s / 1024, which is written back. -/
theorem cover3 (i : S8192x8192.Idx) :
    ∃ t : Fin cfg3.N, (cfg3.win 2).flush t = true ∧ i ∈ ((cfg3.win 2).blk t).view.set := by
  have hi0 : (i 0).val < 8192 := (i 0).isLt
  have hi1 : (i 1).val < 8192 := (i 1).isLt
  have hlt : (i 0).val / 2048 * 8 + (i 1).val / 1024 < 32 := by omega
  refine ⟨⟨(i 0).val / 2048 * 8 + (i 1).val / 1024, hlt⟩, flush3_2 _, ?_⟩
  obtain ⟨-, -, -, -, e4, e5⟩ := idx_facts3 ⟨(i 0).val / 2048 * 8 + (i 1).val / 1024, hlt⟩
  have e4' : win3_2.index ⟨(i 0).val / 2048 * 8 + (i 1).val / 1024, hlt⟩ (0 : Fin 2) = ((i 0).val / 2048 * 8 + (i 1).val / 1024) / 8 := e4
  have e5' : win3_2.index ⟨(i 0).val / 2048 * 8 + (i 1).val / 1024, hlt⟩ (1 : Fin 2) = ((i 0).val / 2048 * 8 + (i 1).val / 1024) % 8 := e5
  rw [mem_blk3]
  intro a
  match a with
  | ⟨0, _⟩ =>
    show win3_2.index ⟨(i 0).val / 2048 * 8 + (i 1).val / 1024, hlt⟩ (0 : Fin 2) * 2048 ≤ (i 0).val ∧ (i 0).val < win3_2.index ⟨(i 0).val / 2048 * 8 + (i 1).val / 1024, hlt⟩ (0 : Fin 2) * 2048 + 2048
    omega
  | ⟨1, _⟩ =>
    show win3_2.index ⟨(i 0).val / 2048 * 8 + (i 1).val / 1024, hlt⟩ (1 : Fin 2) * 1024 ≤ (i 1).val ∧ (i 1).val < win3_2.index ⟨(i 0).val / 2048 * 8 + (i 1).val / 1024, hlt⟩ (1 : Fin 2) * 1024 + 1024
    omega

/-- After the call the result array is the matrix of inner products of the rows of Z. -/
theorem final3 (c : Dev nD) :
    ((dat3 (F := Ideal) V c).arrAt 2 cfg3.N : S8192x8192.Idx → EReal)
      = ofM (gram (toM (V c main_v20 : S8192x64.Idx → EReal))) :=
  (dat3 (F := Ideal) V c).arrAt_eq_of_cover 2 (G3 V c) (fun t _ => flushed3_eq V c t) cover3

end Cert.KernelIdeal.HandValue.Call3

end
-- ==== Proof.HostK.lean ====
/-
  What the host operations in front of the pallas_calls leave, at the exact instance: the dense adjacency matrix
  (the weights scattered into zeros at (dst, src), colliding edges summed) and the two weight matrices unchanged
  (a change of float format is the identity there).
-/
import proofs.«412814_j42056319762467_3_alg».proof.Proof.Gen.KernelIdeal.Launch
import proofs.«412814_j42056319762467_3_alg».proof.Proof.Bridge
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Ideal.Laws

noncomputable section

namespace Cert.KernelIdeal.HandHost

open Cert.KernelIdeal Cert.KernelIdeal.Gen
open Idealize.ShloMosaic Idealize.ShloMosaic.TcCoe Idealize.ShloMosaic.ValueIdx Idealize.SL.Sem
open Cert.Bridge Cert.Spec

variable (m : (ℓ : Loc nD τ sig) → Buf (Elt Ideal) ℓ)

/-- Core `c`'s buffers after the host operations. -/
abbrev H1 (c : Dev nD) : Valuation τ sig (Elt Ideal) := StableHlo.after (hostOps0 (F := Ideal)) (fun b => m (c, b))

/-! ## Words -/

/-- The normalisation of a possibly negative index, `v + 8192` where `v < 0` and `v` elsewhere, is the identity on
    a word that is not negative. -/
theorem norm_word (w : BitVec 32) (hw : 0 ≤ w.toInt) :
    Scalar.select (IntOp.cmpi .slt w 0#32) (IntOp.addi w 8192#32) w = w := by
  have h : ¬ IntOp.cmpi .slt w 0#32 = 1#1 := by
    rw [IntOp.cmpi_slt]
    have e0 : (0#32 : BitVec 32).toInt = 0 := by decide
    rw [e0]; omega
  unfold Scalar.select
  exact if_neg h

/-! ## The scatter's result index -/

/-- An update lands at operand index `i` exactly when, on every operand axis, its start plus its window coordinate is
    `i`'s coordinate. -/
theorem resultIdx_eq_some_iff {s si u : Shape} (D : ScatterDims s si u) {w : Nat} (j : u.Idx) (idx : IVec si w) (i : s.Idx) :
    D.resultIdx? j idx = some i ↔ ∀ a, D.start j idx a + (D.window j a : Int) = ((i a).val : Int) := by
  unfold ScatterDims.resultIdx?
  split
  · next h =>
    rw [Option.some.injEq]
    constructor
    · intro hf a
      rw [← hf]
      exact (Int.toNat_of_nonneg (h a).1).symm
    · intro h2
      funext a
      apply Fin.ext
      show (D.start j idx a + (D.window j a : Int)).toNat = (i a).val
      rw [h2 a, Int.toNat_natCast]
  · next h =>
    constructor
    · intro hf; exact absurd hf (by simp)
    · intro h2
      exfalso
      apply h
      intro a
      rw [h2 a]
      exact ⟨Int.natCast_nonneg _, by exact_mod_cast (i a).isLt⟩

/-- The scatter of this program: both operand axes are scattered, no axis is a window axis, and the index vector lies
    along axis 1 of the scatter indices. -/
abbrev SD : ScatterDims S8192x8192 S262144x2 S262144 := scatter_S8192x8192_S262144x2_S262144_n_01_01_1

/-- No operand axis is a window axis: every window coordinate is 0. -/
theorem window_zero (j : S262144.Idx) (a : Fin S8192x8192.rank) : SD.window j a = 0 := by
  have h : ∀ a : Fin S8192x8192.rank, a ∉ SD.sKept := by decide
  unfold ScatterDims.window
  exact dif_neg (h a)

/-- The start on operand axis 0 is component 0 of the update's index vector, read signed. -/
theorem start_zero (j : S262144.Idx) (idx : IVec S262144x2 32) :
    SD.start j idx (0 : Fin 2) = (idx (ix2 (j 0) (0 : Fin 2))).toInt := by
  unfold ScatterDims.start
  rw [dif_pos (by decide)]
  congr 2
  funext b
  apply Fin.ext
  match b with
  | ⟨0, _⟩ => rfl
  | ⟨1, _⟩ => rfl

/-- The start on operand axis 1 is component 1. -/
theorem start_one (j : S262144.Idx) (idx : IVec S262144x2 32) :
    SD.start j idx (1 : Fin 2) = (idx (ix2 (j 0) (1 : Fin 2))).toInt := by
  unfold ScatterDims.start
  rw [dif_pos (by decide)]
  congr 2
  funext b
  apply Fin.ext
  match b with
  | ⟨0, _⟩ => rfl
  | ⟨1, _⟩ => rfl

/-- WHERE AN UPDATE LANDS: update `j` lands at `(d, s)` exactly when the two components of its index vector, read
    signed, are `d` and `s`. -/
theorem lands_iff (j : S262144.Idx) (idx : IVec S262144x2 32) (d s : Fin 8192) :
    SD.resultIdx? j idx = some (ix2 d s)
      ↔ (idx (ix2 (j 0) (0 : Fin 2))).toInt = (d.val : Int) ∧ (idx (ix2 (j 0) (1 : Fin 2))).toInt = (s.val : Int) := by
  rw [resultIdx_eq_some_iff]
  constructor
  · intro h
    have h0 := h (0 : Fin 2)
    have h1 := h (1 : Fin 2)
    rw [window_zero, start_zero] at h0
    rw [window_zero, start_one] at h1
    exact ⟨by simpa using h0, by simpa using h1⟩
  · rintro ⟨h0, h1⟩ a
    match a with
    | ⟨0, _⟩ =>
      show SD.start j idx (0 : Fin 2) + (SD.window j (0 : Fin 2) : Int) = _
      rw [window_zero, start_zero, h0]; simp
    | ⟨1, _⟩ =>
      show SD.start j idx (1 : Fin 2) + (SD.window j (1 : Fin 2) : Int) = _
      rw [window_zero, start_one, h1]; simp

/-! ## The scatter indices read at a row -/

/-- A vector laid out as a one-column array reads, at row `j 0`, the vector there. -/
theorem col_apply {α : Type} (v : S262144.Idx → α) (j : S262144x1.Idx) :
    broadcastInDim S262144x1 ![0] Facts₀.bcast_S262144_S262144x1_0 v j = v (ix1 (j 0)) := by
  simp only [broadcastInDim]
  congr 1
  funext a
  have ha : a = 0 := Subsingleton.elim _ _
  subst ha
  apply Fin.ext
  split
  · next h1 => change 262144 = 1 at h1; omega
  · rfl

/-- The normalisation of an index vector, entry by entry: `v + 8192` where `v < 0`, `v` elsewhere. -/
abbrev normIdx (v : IVec S262144 32) : IVec S262144 32 :=
  select (cmpi .slt v (broadcastInDim S262144 ![] Facts₀.bcast_S_S262144 (constantI S_ 32 0#32)))
    (addi v (broadcastInDim S262144 ![] Facts₀.bcast_S_S262144 (constantI S_ 32 8192#32))) v

/-- On an entry that is not negative the normalisation changes nothing. -/
theorem normIdx_apply (v : IVec S262144 32) (i : S262144.Idx) (hv : 0 ≤ (v i).toInt) : normIdx v i = v i :=
  norm_word (v i) hv

/-- The scatter indices: row `e` holds the (normalised) destination and source of edge `e`. -/
abbrev scatIdx (vd vs : IVec S262144 32) : IVec S262144x2 32 :=
  concatenate S262144x2 1
    [⟨S262144x1, broadcastInDim S262144x1 ![0] Facts₀.bcast_S262144_S262144x1_0 (normIdx vd)⟩,
     ⟨S262144x1, broadcastInDim S262144x1 ![0] Facts₀.bcast_S262144_S262144x1_0 (normIdx vs)⟩]
    Facts₀.concatenates_S262144x1_S262144x1_S262144x2_d1

/-- Component 0 of row `e` is the first vector's entry `e`. -/
theorem scatIdx_zero (vd vs : IVec S262144 32) (e : Fin 262144) :
    scatIdx vd vs (ix2 e (0 : Fin 2)) = normIdx vd (ix1 e) := by
  have h := concatenate_pair_apply_left (t := S262144x2) (s₁ := S262144x1) (s₂ := S262144x1) (1 : Fin 2)
    (broadcastInDim S262144x1 ![0] Facts₀.bcast_S262144_S262144x1_0 (normIdx vd))
    (broadcastInDim S262144x1 ![0] Facts₀.bcast_S262144_S262144x1_0 (normIdx vs))
    Facts₀.concatenates_S262144x1_S262144x1_S262144x2_d1 (ix2 e (0 : Fin 2)) rfl (ix2 e (0 : Fin 1))
    (fun b => match b with | ⟨0, _⟩ => rfl | ⟨1, _⟩ => rfl)
  rw [col_apply] at h
  exact h

/-- Component 1 of row `e` is the second vector's entry `e`. -/
theorem scatIdx_one (vd vs : IVec S262144 32) (e : Fin 262144) :
    scatIdx vd vs (ix2 e (1 : Fin 2)) = normIdx vs (ix1 e) := by
  have h := concatenate_pair_apply_right (t := S262144x2) (s₁ := S262144x1) (s₂ := S262144x1) (1 : Fin 2)
    (broadcastInDim S262144x1 ![0] Facts₀.bcast_S262144_S262144x1_0 (normIdx vd))
    (broadcastInDim S262144x1 ![0] Facts₀.bcast_S262144_S262144x1_0 (normIdx vs))
    Facts₀.concatenates_S262144x1_S262144x1_S262144x2_d1 (ix2 e (1 : Fin 2)) rfl rfl (ix2 e (0 : Fin 1))
    (fun b => match b with | ⟨0, _⟩ => fun _ => rfl | ⟨1, _⟩ => fun hb => absurd rfl hb)
    rfl
  rw [col_apply] at h
  exact h

/-! ## The scattered array is the adjacency matrix -/

/-- The host's accumulating scatter, its float format then changed, read at an entry: at the exact instance the format
    change is the identity and the scatter is the operand's entry plus the sum of the updates that land on it. -/
theorem truncf_scatterAdd_apply {s si u : Shape} (D : ScatterDims s si u) (X : FVec Ideal s .f32) (idx : IVec si 32)
    (W : FVec Ideal u .f32) (h : FTy.bits .bf16 < FTy.bits .f32) (i : s.Idx) :
    (truncf .bf16 (Host.scatterAdd D X idx W) h : FVec Ideal s .bf16) i = Ideal.hostScatterAdd D X idx W i := rfl

/-- A rank-1 index set is its one coordinate's range. -/
def idxEquiv1 {n : Nat} : (⟨1, ![n]⟩ : Shape).Idx ≃ Fin n where
  toFun j := j 0
  invFun e := ix1 e
  left_inv j := (eq_ix1 j).symm
  right_inv _ := rfl

/-- THE SCATTER AT AN ENTRY. Over zeros, with row `e` of the scatter indices naming `(dst e, src e)`, entry `(d, s)` of
    the accumulated array is the sum of the updates `e` with `dst e = d` and `src e = s`: the adjacency matrix's entry. -/
theorem scattered_apply (X : S8192x8192.Idx → EReal) (hX : ∀ i, X i = 0) (idx : IVec S262144x2 32)
    (W : S262144.Idx → EReal) (dst src : Fin 262144 → Fin 8192)
    (h0 : ∀ e : Fin 262144, (idx (ix2 e (0 : Fin 2))).toInt = ((dst e).val : Int))
    (h1 : ∀ e : Fin 262144, (idx (ix2 e (1 : Fin 2))).toInt = ((src e).val : Int)) (d s : Fin 8192) :
    Ideal.hostScatterAdd SD X idx W (ix2 d s) = adj dst src (toV W) d s := by
  unfold Ideal.hostScatterAdd adj
  rw [hX, zero_add]
  refine Finset.sum_equiv idxEquiv1 ?_ ?_
  · intro j
    simp only [Finset.mem_filter, Finset.mem_univ, true_and]
    rw [lands_iff]
    show _ ↔ dst (j 0) = d ∧ src (j 0) = s
    constructor
    · rintro ⟨a, b⟩
      have a' : ((dst (j 0)).val : Int) = (d.val : Int) := (h0 (j 0)).symm.trans a
      have b' : ((src (j 0)).val : Int) = (s.val : Int) := (h1 (j 0)).symm.trans b
      exact ⟨Fin.ext (by exact_mod_cast a'), Fin.ext (by exact_mod_cast b')⟩
    · rintro ⟨a, b⟩
      exact ⟨(h0 (j 0)).trans (by rw [a]), (h1 (j 0)).trans (by rw [b])⟩
  · intro j _
    exact congrArg W (eq_ix1 j)

/-! ## What the host operations leave -/

/-- The first weight matrix reaches the calls as it was (only its float format is changed). -/
theorem host_v16 (c : Dev nD) :
    (H1 m c (Proc.devRef .tc main_v16) : S512x256.Idx → EReal) = (m ((c.tc : Thread nD τ).loc main_arg4) : S512x256.Idx → EReal) := by
  show StableHlo.after (hostOps0 (F := Ideal)) (fun b => m (c, b)) (Proc.devRef .tc main_v16) = _
  after_results
  rfl

/-- So does the second. -/
theorem host_v17 (c : Dev nD) :
    (H1 m c (Proc.devRef .tc main_v17) : S256x64.Idx → EReal) = (m ((c.tc : Thread nD τ).loc main_arg5) : S256x64.Idx → EReal) := by
  show StableHlo.after (hostOps0 (F := Ideal)) (fun b => m (c, b)) (Proc.devRef .tc main_v17) = _
  after_results
  rfl

/-- No host operation writes the features. -/
theorem host_arg0 (c : Dev nD) :
    (H1 m c (Proc.devRef .tc main_arg0) : S8192x512.Idx → EReal) = (m ((c.tc : Thread nD τ).loc main_arg0) : S8192x512.Idx → EReal) := by
  show StableHlo.after (hostOps0 (F := Ideal)) (fun b => m (c, b)) (Proc.devRef .tc main_arg0) = _
  after_results

set_option maxHeartbeats 8000000 in
/-- The scattered array as the operations compute it: the weights accumulated into zeros at the rows of the scatter
    indices, then its float format changed. -/
theorem v15_term (c : Dev nD) :
    (H1 m c (Proc.devRef .tc main_v15) : S8192x8192.Idx → EReal)
      = (truncf .bf16 (Host.scatterAdd (F := Ideal) SD
          (broadcastInDim S8192x8192 ![] Facts₀.bcast_S_S8192x8192 (constant (F := Ideal) S_ .f32 0x00000000#32))
          (scatIdx (m ((c.tc : Thread nD τ).loc main_arg2)) (m ((c.tc : Thread nD τ).loc main_arg1)))
          (m ((c.tc : Thread nD τ).loc main_arg3))) Facts₀.bitsLt_bf16_f32 : S8192x8192.Idx → EReal) := by
  show StableHlo.after (hostOps0 (F := Ideal)) (fun b => m (c, b)) (Proc.devRef .tc main_v15) = _
  after_results

/-- With both index vectors in range, the scattered array is the dense adjacency matrix of the graph. -/
theorem host_v15 (c : Dev nD)
    (hs : InRange 8192 (m ((c.tc : Thread nD τ).loc main_arg1) : S262144.Idx → BitVec 32))
    (hd : InRange 8192 (m ((c.tc : Thread nD τ).loc main_arg2) : S262144.Idx → BitVec 32)) :
    (H1 m c (Proc.devRef .tc main_v15) : S8192x8192.Idx → EReal)
      = ofM (adj (nodeOf (m ((c.tc : Thread nD τ).loc main_arg2) : S262144.Idx → BitVec 32) hd)
          (nodeOf (m ((c.tc : Thread nD τ).loc main_arg1) : S262144.Idx → BitVec 32) hs)
          (toV (m ((c.tc : Thread nD τ).loc main_arg3) : S262144.Idx → EReal))) := by
  refine (v15_term m c).trans ?_
  funext i
  obtain ⟨d, s, rfl⟩ : ∃ d s, i = ix2 d s := ⟨i 0, i 1, eq_ix2 i⟩
  rw [ofM_apply]
  rw [truncf_scatterAdd_apply]
  refine scattered_apply _ (fun _ => Ideal.ofBits_zero_f32) _ _ (nodeOf _ hd) (nodeOf _ hs) (fun e => ?_) (fun e => ?_) d s
  · rw [scatIdx_zero, normIdx_apply _ _ (hd e).1]
    exact (nodeOf_val _ hd e).symm
  · rw [scatIdx_one, normIdx_apply _ _ (hs e).1]
    exact (nodeOf_val _ hs e).symm

end Cert.KernelIdeal.HandHost

end
-- ==== Proof.KValue.lean ====
/-
  The kernel's result as a function of its inputs, at the exact instance: the last call's output array, read back
  through the four calls and the host operations, is `gram (adj · (relu (adj · (x · W1)) · W2))`.
-/
import proofs.«412814_j42056319762467_3_alg».proof.Proof.KernelIdeal.Run
import proofs.«412814_j42056319762467_3_alg».proof.Proof.Value0
import proofs.«412814_j42056319762467_3_alg».proof.Proof.Value1
import proofs.«412814_j42056319762467_3_alg».proof.Proof.Value2
import proofs.«412814_j42056319762467_3_alg».proof.Proof.Value3
import proofs.«412814_j42056319762467_3_alg».proof.Proof.HostK

set_option maxRecDepth 16384

noncomputable section

namespace Cert.KernelIdeal.HandValue

open Cert.KernelIdeal Cert.KernelIdeal.Hand Cert.KernelIdeal.HandHost
open Idealize.ShloMosaic Idealize.ShloMosaic.TcCoe Idealize.ShloMosaic.ValueIdx Idealize.SL.Sem
open Cert.Bridge Cert.Spec

variable (m : (ℓ : Loc nD τ sig) → Buf (Elt Ideal) ℓ)

/-- The first call's output P1 = x · W1, as the second call finds it. -/
theorem v18_eq (c : Dev nD) :
    (V2 m c main_v18 : S8192x256.Idx → EReal)
      = ofM (mm (toM (m ((c.tc : Thread nD τ).loc main_arg0) : S8192x512.Idx → EReal))
          (toM (m ((c.tc : Thread nD τ).loc main_arg4) : S512x256.Idx → EReal))) := by
  refine ((W2_arr m c 2).trans (Call0.final0 (V1 m) c)).trans ?_
  rw [show (V1 m c main_arg0 : S8192x512.Idx → EReal) = _ from host_arg0 m c,
    show (V1 m c main_v16 : S512x256.Idx → EReal) = _ from host_v16 m c]

variable (c : Dev nD)
  (hs : InRange 8192 (m ((c.tc : Thread nD τ).loc main_arg1) : S262144.Idx → BitVec 32))
  (hd : InRange 8192 (m ((c.tc : Thread nD τ).loc main_arg2) : S262144.Idx → BitVec 32))

/-- The adjacency matrix as the second call finds it (the first call does not touch it). -/
theorem v15_eq2 :
    (V2 m c main_v15 : S8192x8192.Idx → EReal)
      = ofM (adj (nodeOf (m ((c.tc : Thread nD τ).loc main_arg2) : S262144.Idx → BitVec 32) hd)
          (nodeOf (m ((c.tc : Thread nD τ).loc main_arg1) : S262144.Idx → BitVec 32) hs)
          (toV (m ((c.tc : Thread nD τ).loc main_arg3) : S262144.Idx → EReal))) :=
  (W2_of_ne m c main_v15 (by decide)).trans (host_v15 m c hs hd)

/-- The second weight matrix as the second call finds it. -/
theorem v17_eq2 :
    (V2 m c main_v17 : S256x64.Idx → EReal) = (m ((c.tc : Thread nD τ).loc main_arg5) : S256x64.Idx → EReal) :=
  (W2_of_ne m c main_v17 (by decide)).trans (host_v17 m c)

/-- The adjacency matrix as the third call finds it (the second call only reads it). -/
theorem v15_eq3 : (V3 m c main_v15 : S8192x8192.Idx → EReal) = (V2 m c main_v15 : S8192x8192.Idx → EReal) :=
  (W3_arr m c 0).trans (((dat1 (V2 m) c).arrAt_in 0 rfl _).trans (A_eq1 (V2 m) c 0))

/-- The second call's output P2 = relu (A · P1) · W2, as the third call finds it. -/
theorem v19_eq3 :
    (V3 m c main_v19 : S8192x64.Idx → EReal)
      = ofM (mm (relu (mm (toM (V2 m c main_v15 : S8192x8192.Idx → EReal)) (toM (V2 m c main_v18 : S8192x256.Idx → EReal))))
          (toM (V2 m c main_v17 : S256x64.Idx → EReal))) :=
  (W3_arr m c 3).trans (Call1.final1 (V2 m) c)

/-- The third call's output Z = A · P2, as the fourth call finds it. -/
theorem v20_eq4 :
    (V4 m c main_v20 : S8192x64.Idx → EReal)
      = ofM (mm (toM (V3 m c main_v15 : S8192x8192.Idx → EReal)) (toM (V3 m c main_v19 : S8192x64.Idx → EReal))) :=
  (W4_arr m c 2).trans (Call2.final2 (V3 m) c)

/-- THE KERNEL'S RESULT: with both index vectors in range, the result array after the run is the dense formula of
    the inputs. -/
theorem kernel_result :
    (W5 m c (Proc.devRef .tc main_v21) : S8192x8192.Idx → EReal)
      = ofM (denseResult (toM (m ((c.tc : Thread nD τ).loc main_arg0) : S8192x512.Idx → EReal))
          (nodeOf (m ((c.tc : Thread nD τ).loc main_arg2) : S262144.Idx → BitVec 32) hd)
          (nodeOf (m ((c.tc : Thread nD τ).loc main_arg1) : S262144.Idx → BitVec 32) hs)
          (toV (m ((c.tc : Thread nD τ).loc main_arg3) : S262144.Idx → EReal))
          (toM (m ((c.tc : Thread nD τ).loc main_arg4) : S512x256.Idx → EReal))
          (toM (m ((c.tc : Thread nD τ).loc main_arg5) : S256x64.Idx → EReal))) := by
  refine ((W5_main_v21 m c).trans (Call3.final3 (V4 m) c)).trans ?_
  rw [v20_eq4 m c, v19_eq3 m c, v15_eq3 m c, v15_eq2 m c hs hd, v17_eq2 m c, v18_eq m c]
  simp only [toM_ofM]
  rfl

end Cert.KernelIdeal.HandValue

end
-- ==== Proof.RefValue.lean ====
/-
  The reference program's result, index by index, as the sparse formula of Spec.lean.
-/
import proofs.«412814_j42056319762467_3_alg».proof.Proof.Gen.ReferenceIdeal.Run
import proofs.«412814_j42056319762467_3_alg».proof.Proof.Gen.ReferenceIdeal.Read
import proofs.«412814_j42056319762467_3_alg».proof.Proof.Bridge
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.Bridge Cert.Spec

/-! ## A gather of whole rows, read at an index -/

section Gather
variable {α : Type}

/-- The dimension numbers of "take rows": operand `[N, C]`, start indices `[E, 1]`, result `[E, C]`; axis 0 of the
    operand is collapsed and start-indexed, axis 1 of the result is the offset axis over a whole row. -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result element `(e, j)` of the row gather is the operand's `(n, j)` when start index `e` is the in-range row `n`:
    the clamp `min n (N - 1)` leaves it alone. -/
theorem gather_row_apply {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w)
    (e : Fin E) (j : Fin C) (n : Fin N) (hn : (idx (ix2 e 0)).toInt = n.val) :
    Host.gather (rowGather N E C wf) x idx (ix2 e j) = x (ix2 n j) := by
  unfold Host.gather
  congr 1
  funext a
  refine Fin.ext ?_
  match a with
  | ⟨0, _⟩ =>
    show (rowGather N E C wf).start (ix2 e j) idx 0 + (rowGather N E C wf).batchCoord (ix2 e j) 0
      + (rowGather N E C wf).offCoord (ix2 e j) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e j) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, hn]
    show min (n.val : Int).toNat (N - 1) = n.val
    have := n.isLt
    omega
  | ⟨1, _⟩ =>
    show (rowGather N E C wf).start (ix2 e j) idx 1 + (rowGather N E C wf).batchCoord (ix2 e j) 1
      + (rowGather N E C wf).offCoord (ix2 e j) 1 = j.val
    rw [GatherDims.batchCoord_eq_zero _ _ _ List.not_mem_nil]
    unfold GatherDims.start
    rw [dif_neg (show ¬ (1 : Fin 2) ∈ (rowGather N E C wf).startIndexMap from fun h => absurd (List.mem_singleton.mp h) (show ¬ (1 : Fin 2) = 0 by decide))]
    simp only [Nat.add_zero, Nat.zero_add]
    unfold GatherDims.offCoord
    rw [dif_pos (show (1 : Fin 2) ∈ (rowGather N E C wf).sKept from (GatherDims.mem_sKept _ _).mpr
      ⟨fun h => absurd (List.mem_singleton.mp h) (show ¬ (1 : Fin 2) = 0 by decide), List.not_mem_nil⟩)]
    rfl

end Gather

/-! ## A scatter-add of whole rows, read at an index -/

section Scatter

/-- The dimension numbers of "add rows into rows": operand `[N, C]`, scatter indices `[E, 1]`, updates `[E, C]`;
    axis 0 of the operand is inserted and indexed, axis 1 of the updates is the window over a whole row. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem scatter_start0 (idx : IVec ⟨2, ![E, 1]⟩ w) (e : Fin E) (j : Fin C) :
    (rowScatter N E C wf).start (ix2 e j) idx 0 = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e j) ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem scatter_start1 (idx : IVec ⟨2, ![E, 1]⟩ w) (e : Fin E) (j : Fin C) :
    (rowScatter N E C wf).start (ix2 e j) idx 1 = 0 := by
  unfold ScatterDims.start
  rw [dif_neg (show ¬ (1 : Fin 2) ∈ (rowScatter N E C wf).scatterDimsToOperandDims from
    fun h => absurd (List.mem_singleton.mp h) (show ¬ (1 : Fin 2) = 0 by decide))]

theorem scatter_window0 (e : Fin E) (j : Fin C) : (rowScatter N E C wf).window (ix2 e j) 0 = 0 := by
  unfold ScatterDims.window
  rw [dif_neg (show ¬ (0 : Fin 2) ∈ (rowScatter N E C wf).sKept from fun h => by
    have := (List.mem_filter.mp h).2
    simp at this)]

theorem scatter_window1 (e : Fin E) (j : Fin C) : (rowScatter N E C wf).window (ix2 e j) 1 = j.val := by
  unfold ScatterDims.window
  rw [dif_pos (show (1 : Fin 2) ∈ (rowScatter N E C wf).sKept from
    List.mem_filter.mpr ⟨List.mem_finRange _, by simp⟩)]
  rfl

/-- Update `(e, j)` lands at `(n, j)` when scatter index `e` is the in-range row `n`: nothing is dropped. -/
theorem resultIdx_row (idx : IVec ⟨2, ![E, 1]⟩ w) (e : Fin E) (j : Fin C) (n : Fin N)
    (hn : (idx (ix2 e 0)).toInt = n.val) :
    (rowScatter N E C wf).resultIdx? (ix2 e j) idx = some (ix2 n j) := by
  have h0 : (rowScatter N E C wf).start (ix2 e j) idx 0 + (rowScatter N E C wf).window (ix2 e j) 0 = (n.val : Int) := by
    rw [scatter_start0, scatter_window0, hn]; simp
  have h1 : (rowScatter N E C wf).start (ix2 e j) idx 1 + (rowScatter N E C wf).window (ix2 e j) 1 = (j.val : Int) := by
    rw [scatter_start1, scatter_window1]; simp
  unfold ScatterDims.resultIdx?
  rw [dif_pos (fun a => by
    match a with
    | ⟨0, _⟩ =>
      show 0 ≤ (rowScatter N E C wf).start (ix2 e j) idx 0 + (rowScatter N E C wf).window (ix2 e j) 0 ∧
        (rowScatter N E C wf).start (ix2 e j) idx 0 + (rowScatter N E C wf).window (ix2 e j) 0 < (N : Int)
      rw [h0]; have := n.isLt; omega
    | ⟨1, _⟩ =>
      show 0 ≤ (rowScatter N E C wf).start (ix2 e j) idx 1 + (rowScatter N E C wf).window (ix2 e j) 1 ∧
        (rowScatter N E C wf).start (ix2 e j) idx 1 + (rowScatter N E C wf).window (ix2 e j) 1 < (C : Int)
      rw [h1]; have := j.isLt; omega)]
  congr 1
  funext a
  refine Fin.ext ?_
  match a with
  | ⟨0, _⟩ =>
    show ((rowScatter N E C wf).start (ix2 e j) idx 0 + (rowScatter N E C wf).window (ix2 e j) 0).toNat = n.val
    rw [h0]; simp
  | ⟨1, _⟩ =>
    show ((rowScatter N E C wf).start (ix2 e j) idx 1 + (rowScatter N E C wf).window (ix2 e j) 1).toNat = j.val
    rw [h1]; simp

/-- Element `(d, c)` of the scatter-add: the operand's, plus the updates `(e, c)` of the positions `e` whose index is `d`. -/
theorem scatter_rows_apply (x : (⟨2, ![N, C]⟩ : Shape).Idx → EReal) (idx : IVec ⟨2, ![E, 1]⟩ w)
    (upd : (⟨2, ![E, C]⟩ : Shape).Idx → EReal) (node : Fin E → Fin N)
    (hnode : ∀ e, (idx (ix2 e 0)).toInt = (node e).val) (d : Fin N) (c : Fin C) :
    Ideal.hostScatterAdd (rowScatter N E C wf) x idx upd (ix2 d c)
      = x (ix2 d c) + ∑ e ∈ Finset.univ.filter (fun e => node e = d), upd (ix2 e c) := by
  unfold Ideal.hostScatterAdd
  congr 1
  rw [Finset.sum_filter, sum_idx2, Finset.sum_filter]
  refine Finset.sum_congr rfl fun e _ => ?_
  have key : ∀ j : Fin C, ((rowScatter N E C wf).resultIdx? (ix2 e j) idx = some (ix2 d c)) ↔ (node e = d ∧ j = c) := by
    intro j
    rw [resultIdx_row wf idx e j (node e) (hnode e), Option.some_inj]
    constructor
    · intro h
      exact ⟨congrFun h 0, congrFun h 1⟩
    · rintro ⟨rfl, rfl⟩; rfl
  simp only [key]
  by_cases hd : node e = d
  · simp only [hd, true_and]
    rw [Finset.sum_ite_eq' Finset.univ c (fun j => upd (ix2 e j))]
    simp
  · simp [hd]

end Scatter

/-! ## The index vectors -/

/-- A word that reads as a non-negative integer is not below zero. -/
theorem slt_zero_of_nonneg (a : BitVec 32) (h : 0 ≤ a.toInt) : IntOp.cmpi .slt a 0#32 = 0#1 := by
  have hb : a.slt 0#32 = false := by
    unfold BitVec.slt
    rw [BitVec.toInt_zero]
    exact decide_eq_false (by omega)
  show BitVec.ofBool (a.slt 0#32) = 0#1
  rw [hb]; rfl

section Program

variable (x0 : (⟨S8192x512, .f32⟩ : BufTy).Contents (Elt Ideal)) (x1 x2 : (⟨S262144, .i32⟩ : BufTy).Contents (Elt Ideal))
  (x3 : (⟨S262144, .f32⟩ : BufTy).Contents (Elt Ideal)) (x4 : (⟨S512x256, .f32⟩ : BufTy).Contents (Elt Ideal))
  (x5 : (⟨S256x64, .f32⟩ : BufTy).Contents (Elt Ideal))

/-- The first gather's start index at position `e` is `x1 e`: the wrap of a negative index is not taken. -/
theorem val_v6_at (hs : InRange 8192 x1) (e : Fin 262144) : Read.val_main_v6 (F := Ideal) x1 (ix2 e 0) = x1 (ix1 e) := by
  have hi : Read.idx_main_v6 (ix2 e (0 : Fin 1)) = ix1 e := funext fun a => by match a with | ⟨0, _⟩ => rfl
  rw [Read.val_main_v6_apply, hi, Read.val_main_v5_apply, Read.val_main_v2_apply, Read.val_main_v1_apply,
    Read.val_main_c_apply, slt_zero_of_nonneg _ (hs e).1, select_zero]

/-- The second gather's start index likewise. -/
theorem val_v21_at (hs : InRange 8192 x1) (e : Fin 262144) : Read.val_main_v21 (F := Ideal) x1 (ix2 e 0) = x1 (ix1 e) := by
  have hi : Read.idx_main_v21 (ix2 e (0 : Fin 1)) = ix1 e := funext fun a => by match a with | ⟨0, _⟩ => rfl
  rw [Read.val_main_v21_apply, hi, Read.val_main_v20_apply, Read.val_main_v17_apply, Read.val_main_v16_apply,
    Read.val_main_c_1_apply, slt_zero_of_nonneg _ (hs e).1, select_zero]

/-- The scatters' index at position `e` is `x2 e`. -/
theorem val_v12_at (e : Fin 262144) : Read.val_main_v12 (F := Ideal) x2 (ix2 e 0) = x2 (ix1 e) := by
  have hi : Read.idx_main_v12 (ix2 e (0 : Fin 1)) = ix1 e := funext fun a => by match a with | ⟨0, _⟩ => rfl
  rw [Read.val_main_v12_apply, hi]

theorem val_v27_at (e : Fin 262144) : Read.val_main_v27 (F := Ideal) x2 (ix2 e 0) = x2 (ix1 e) := by
  have hi : Read.idx_main_v27 (ix2 e (0 : Fin 1)) = ix1 e := funext fun a => by match a with | ⟨0, _⟩ => rfl
  rw [Read.val_main_v27_apply, hi]

/-! ## The first layer -/

/-- `x · W1`. -/
theorem val_v0_at (p : Fin 8192) (q : Fin 256) :
    Read.val_main_v0 (F := Ideal) x0 x4 (ix2 p q) = mm (toM x0) (toM x4) p q := by
  rw [Read.val_main_v0_apply]
  unfold mm toM
  refine Finset.sum_congr rfl fun k _ => ?_
  have hl : Read.lidx_main_v0 (ix2 p q) k = ix2 p k := funext fun a => by match a with | ⟨0, _⟩ => rfl | ⟨1, _⟩ => rfl
  have hr : Read.ridx_main_v0 (ix2 p q) k = ix2 k q := funext fun a => by match a with | ⟨0, _⟩ => rfl | ⟨1, _⟩ => rfl
  rw [hl, hr]

/-- The gathered rows: row `e` is row `src e` of `x · W1`. -/
theorem val_v7_at (hs : InRange 8192 x1) (e : Fin 262144) (j : Fin 256) :
    Read.val_main_v7 (F := Ideal) x0 x1 x4 (ix2 e j) = mm (toM x0) (toM x4) (nodeOf x1 hs e) j := by
  rw [← val_v0_at]
  unfold Read.val_main_v7
  exact gather_row_apply Gen.gather_S8192x256_S262144x1_S262144x256_1_0_n_n_0_1_1256_wf _ _ e j (nodeOf x1 hs e)
    (by rw [val_v6_at x1 hs e]; exact (nodeOf_val x1 hs e).symm)

/-- The weighted rows. -/
theorem val_v10_at (hs : InRange 8192 x1) (e : Fin 262144) (j : Fin 256) :
    Read.val_main_v10 (F := Ideal) x0 x1 x3 x4 (ix2 e j) = mm (toM x0) (toM x4) (nodeOf x1 hs e) j * toV x3 e := by
  have hi : Read.idx_main_v8 (Read.idx_main_v9 (ix2 e j)) = ix1 e := funext fun a => by match a with | ⟨0, _⟩ => rfl
  rw [Read.val_main_v10_apply, val_v7_at x0 x1 x4 hs e j, Read.val_main_v9_apply, Read.val_main_v8_apply, hi]
  rfl

/-- The first sparse product. -/
theorem val_v13_at (hs : InRange 8192 x1) (hd : InRange 8192 x2) (d : Fin 8192) (j : Fin 256) :
    Read.val_main_v13 (F := Ideal) x0 x1 x2 x3 x4 (ix2 d j)
      = spmm (nodeOf x2 hd) (nodeOf x1 hs) (toV x3) (mm (toM x0) (toM x4)) d j := by
  unfold Read.val_main_v13
  simp only [Host.scatterAdd, Ideal.hostScatterAdd_def]
  rw [show scatter_S8192x256_S262144x1_S262144x256_1_0_0_1 = rowScatter 8192 262144 256 Gen.scatter_S8192x256_S262144x1_S262144x256_1_0_0_1_wf from rfl]
  rw [scatter_rows_apply _ _ _ _ (nodeOf x2 hd) (fun e => by rw [val_v12_at x2 e]; exact (nodeOf_val x2 hd e).symm) d j]
  rw [Read.val_main_v11_apply, Read.val_main_cst_apply]
  show Ideal.ofBits .f32 0x00000000#32 + _ = _
  rw [Ideal.ofBits_zero_f32, zero_add]
  unfold spmm
  exact Finset.sum_congr rfl fun e _ => val_v10_at x0 x1 x3 x4 hs e j

/-- The positive part of the first sparse product. -/
theorem val_v14_at (hs : InRange 8192 x1) (hd : InRange 8192 x2) (d : Fin 8192) (j : Fin 256) :
    Read.val_main_v14 (F := Ideal) x0 x1 x2 x3 x4 (ix2 d j)
      = relu (spmm (nodeOf x2 hd) (nodeOf x1 hs) (toV x3) (mm (toM x0) (toM x4))) d j := by
  rw [Read.val_main_v14_apply, val_v13_at x0 x1 x2 x3 x4 hs hd d j, Read.val_main_call0_v0_apply,
    Read.val_main_call0_cst_apply]
  show max _ (Ideal.ofBits .f32 0x00000000#32) = _
  rw [Ideal.ofBits_zero_f32]
  rfl

/-! ## The second layer -/

/-- `relu (…) · W2`. -/
theorem val_v15_at (hs : InRange 8192 x1) (hd : InRange 8192 x2) (p : Fin 8192) (q : Fin 64) :
    Read.val_main_v15 (F := Ideal) x0 x1 x2 x3 x4 x5 (ix2 p q)
      = mm (relu (spmm (nodeOf x2 hd) (nodeOf x1 hs) (toV x3) (mm (toM x0) (toM x4)))) (toM x5) p q := by
  rw [Read.val_main_v15_apply]
  unfold mm
  refine Finset.sum_congr rfl fun k _ => ?_
  have hl : Read.lidx_main_v15 (ix2 p q) k = ix2 p k := funext fun a => by match a with | ⟨0, _⟩ => rfl | ⟨1, _⟩ => rfl
  have hr : Read.ridx_main_v15 (ix2 p q) k = ix2 k q := funext fun a => by match a with | ⟨0, _⟩ => rfl | ⟨1, _⟩ => rfl
  rw [hl, hr, val_v14_at x0 x1 x2 x3 x4 hs hd p k]
  rfl

/-- The gathered rows of the second layer. -/
theorem val_v22_at (hs : InRange 8192 x1) (hd : InRange 8192 x2) (e : Fin 262144) (j : Fin 64) :
    Read.val_main_v22 (F := Ideal) x0 x1 x2 x3 x4 x5 (ix2 e j)
      = mm (relu (spmm (nodeOf x2 hd) (nodeOf x1 hs) (toV x3) (mm (toM x0) (toM x4)))) (toM x5) (nodeOf x1 hs e) j := by
  rw [← val_v15_at x0 x1 x2 x3 x4 x5 hs hd]
  unfold Read.val_main_v22
  exact gather_row_apply Gen.gather_S8192x64_S262144x1_S262144x64_1_0_n_n_0_1_164_wf _ _ e j (nodeOf x1 hs e)
    (by rw [val_v21_at x1 hs e]; exact (nodeOf_val x1 hs e).symm)

/-- The weighted rows of the second layer. -/
theorem val_v25_at (hs : InRange 8192 x1) (hd : InRange 8192 x2) (e : Fin 262144) (j : Fin 64) :
    Read.val_main_v25 (F := Ideal) x0 x1 x2 x3 x4 x5 (ix2 e j)
      = mm (relu (spmm (nodeOf x2 hd) (nodeOf x1 hs) (toV x3) (mm (toM x0) (toM x4)))) (toM x5) (nodeOf x1 hs e) j
        * toV x3 e := by
  have hi : Read.idx_main_v23 (Read.idx_main_v24 (ix2 e j)) = ix1 e := funext fun a => by match a with | ⟨0, _⟩ => rfl
  rw [Read.val_main_v25_apply, val_v22_at x0 x1 x2 x3 x4 x5 hs hd e j, Read.val_main_v24_apply, Read.val_main_v23_apply, hi]
  rfl

/-- The second sparse product. -/
theorem val_v28_at (hs : InRange 8192 x1) (hd : InRange 8192 x2) (d : Fin 8192) (j : Fin 64) :
    Read.val_main_v28 (F := Ideal) x0 x1 x2 x3 x4 x5 (ix2 d j)
      = spmm (nodeOf x2 hd) (nodeOf x1 hs) (toV x3)
          (mm (relu (spmm (nodeOf x2 hd) (nodeOf x1 hs) (toV x3) (mm (toM x0) (toM x4)))) (toM x5)) d j := by
  unfold Read.val_main_v28
  simp only [Host.scatterAdd, Ideal.hostScatterAdd_def]
  rw [show scatter_S8192x64_S262144x1_S262144x64_1_0_0_1
    = rowScatter 8192 262144 64 Gen.scatter_S8192x64_S262144x1_S262144x64_1_0_0_1_wf from rfl]
  rw [scatter_rows_apply _ _ _ _ (nodeOf x2 hd) (fun e => by rw [val_v27_at x2 e]; exact (nodeOf_val x2 hd e).symm) d j]
  rw [Read.val_main_v26_apply, Read.val_main_cst_3_apply]
  show Ideal.ofBits .f32 0x00000000#32 + _ = _
  rw [Ideal.ofBits_zero_f32, zero_add]
  unfold spmm
  exact Finset.sum_congr rfl fun e _ => val_v25_at x0 x1 x2 x3 x4 x5 hs hd e j

/-- The matrix of inner products of the rows. -/
theorem val_v29_at (hs : InRange 8192 x1) (hd : InRange 8192 x2) (p q : Fin 8192) :
    Read.val_main_v29 (F := Ideal) x0 x1 x2 x3 x4 x5 (ix2 p q)
      = sparseResult (toM x0) (nodeOf x2 hd) (nodeOf x1 hs) (toV x3) (toM x4) (toM x5) p q := by
  rw [Read.val_main_v29_apply]
  unfold sparseResult gram
  refine Finset.sum_congr rfl fun k _ => ?_
  have hl : Read.lidx_main_v29 (ix2 p q) k = ix2 p k := funext fun a => by match a with | ⟨0, _⟩ => rfl | ⟨1, _⟩ => rfl
  have hr : Read.ridx_main_v29 (ix2 p q) k = ix2 q k := funext fun a => by match a with | ⟨0, _⟩ => rfl | ⟨1, _⟩ => rfl
  rw [hl, hr, val_v28_at x0 x1 x2 x3 x4 x5 hs hd p k, val_v28_at x0 x1 x2 x3 x4 x5 hs hd q k]

end Program

/-- With both index vectors in range, the reference's result is `gram (spmm (relu (spmm (x · W1)) · W2))`:
    the gather reads row `src e`, the scatter adds into row `dst e`, nothing is clamped or dropped. -/
theorem val_result (x0 : (⟨S8192x512, .f32⟩ : BufTy).Contents (Elt Ideal)) (x1 x2 : (⟨S262144, .i32⟩ : BufTy).Contents (Elt Ideal))
    (x3 : (⟨S262144, .f32⟩ : BufTy).Contents (Elt Ideal)) (x4 : (⟨S512x256, .f32⟩ : BufTy).Contents (Elt Ideal))
    (x5 : (⟨S256x64, .f32⟩ : BufTy).Contents (Elt Ideal)) (hs : InRange 8192 x1) (hd : InRange 8192 x2) :
    Cert.ReferenceIdeal.Read.val_main_v29 (F := Ideal) x0 x1 x2 x3 x4 x5
      = ofM (sparseResult (toM x0) (nodeOf x2 hd) (nodeOf x1 hs) (toV x3) (toM x4) (toM x5)) := by
  funext i
  obtain ⟨p, q, rfl⟩ : ∃ p q, i = ix2 p q := ⟨i 0, i 1, eq_ix2 i⟩
  rw [val_v29_at x0 x1 x2 x3 x4 x5 hs hd p q]
  rfl

end Cert.ReferenceIdeal.RefValue

end
-- ==== Proof.PreFacts.lean ====
/-
  What the precondition says of the inputs: every float entry is a real number, and both index vectors
  lie in `[0, 8192)`.

  The precondition is a conjunction, by `and` on one-bit words, of six reductions by `and` over whole arrays,
  and it is stated to be the word 1. A conjunction is 1 exactly when both sides are; a reduction by `and` into a
  single word is 1 only when every element it folds is 1. So each of the six element predicates holds at every
  index. For a float entry `x` the element predicate is `|x| < +∞` on the extended reals, where `|x|` is
  `max x (-x)`: at `⊤` and at `⊥` that maximum is `⊤`, which is not below `⊤`, so `x` is a real number.
  For an index entry `v` the element predicate is `0 ≤ v` and `v < 8192`, both read signed.
-/
import proofs.«412814_j42056319762467_3_alg».proof.Pre_finite_inputs
import proofs.«412814_j42056319762467_3_alg».proof.Proof.Gen.Pre_finite_inputs
import proofs.«412814_j42056319762467_3_alg».proof.Proof.Bridge
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Bridge

/-- The scalar shape has one index. -/
instance subsingleton_scalar_idx : Subsingleton Cert.Pre_finite_inputs.S_.Idx := ⟨fun a b => funext fun d => d.elim0⟩

/-- The word `0x7F800000` denotes `+∞` at `f32`. -/
theorem ofBits_inf : Ideal.ofBits .f32 0x7F800000#32 = ⊤ := by simp [Ideal.ofBits, Ideal.ieee]

/-- ONE FLOAT ENTRY: an extended real whose absolute value `max x (-x)` is below `+∞` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One float entry, as the printed comparison states it: `|x| < +∞` is the word 1. -/
theorem real_of_cmp (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [ofBits_inf] at h
  unfold Ideal.cmp at h
  rw [StableHlo.Predicate.ofBool_eq_one_iff, decide_eq_true_eq] at h
  exact real_of_abs_lt_top x h

/-- ONE FLOAT ARRAY: the reduction by `and` of `|x| < +∞` over the whole array is 1, so every entry is real. -/
theorem finite_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (h : Host.reduce IntOp.andi
          (cmpf .olt (Host.absf x) (broadcastInDim s ![] hb (constant Cert.Pre_finite_inputs.S_ .f32 0x7F800000#32)))
          (constantI Cert.Pre_finite_inputs.S_ 1 1#1) hr h0 ix0 = 1#1) :
    Finite x := by
  intro i
  exact real_of_cmp (x i) (Host.reduce_andi_all _ _ hr h0 ix0 h i)

/-- ONE INDEX ENTRY: `0 ≤ v` and `v < 8192`, both signed compares that came out 1. -/
theorem range_of_cmp (v : BitVec 32) (h1 : IntOp.cmpi .sge v 0#32 = 1#1) (h2 : IntOp.cmpi .slt v 8192#32 = 1#1) :
    0 ≤ v.toInt ∧ v.toInt < ((8192 : Nat) : Int) := by
  rw [IntOp.cmpi_sge] at h1
  rw [IntOp.cmpi_slt] at h2
  have e0 : (0#32 : BitVec 32).toInt = 0 := by decide
  have e1 : (8192#32 : BitVec 32).toInt = 8192 := by decide
  rw [e0] at h1
  rw [e1] at h2
  exact ⟨h1, by exact_mod_cast h2⟩

/-- ONE INDEX VECTOR: the reduction by `and` of `(v ≥ 0) ∧ (v < 8192)` over the whole vector is 1, so every entry lies in
    `[0, 8192)`. -/
theorem inRange_of_all {n : Nat} (v : IVec ⟨1, ![n]⟩ 32)
    (hb : Cert.Pre_finite_inputs.S_.BroadcastsInDim (⟨1, ![n]⟩ : Shape) (![] : Fin 0 → Fin 1))
    (hr : (⟨1, ![n]⟩ : Shape).ReducesTo [0] Cert.Pre_finite_inputs.S_) (h0 : 0 < Cert.Pre_finite_inputs.S_.numel)
    (h : Host.reduce IntOp.andi
          (andi (cmpi .sge v (broadcastInDim (⟨1, ![n]⟩ : Shape) ![] hb (constantI Cert.Pre_finite_inputs.S_ 32 0#32)))
                (cmpi .slt v (broadcastInDim (⟨1, ![n]⟩ : Shape) ![] hb (constantI Cert.Pre_finite_inputs.S_ 32 8192#32))))
          (constantI Cert.Pre_finite_inputs.S_ 1 1#1) hr h0 ix0 = 1#1) :
    InRange 8192 v := by
  intro e
  have he := Host.reduce_andi_all _ _ hr h0 ix0 h (ix1 e)
  obtain ⟨h1, h2⟩ := IntOp.andi_eq_one.1 he
  exact range_of_cmp (v (ix1 e)) h1 h2

/-- The precondition, all ones, read back: the four float inputs are finite and the two index vectors in range. -/
theorem of_pre [hP : Cert.Pre_finite_inputs.Facts]
    (x0 : FVec Ideal Cert.Pre_finite_inputs.S8192x512 .f32) (x1 x2 : IVec Cert.Pre_finite_inputs.S262144 32)
    (x3 : FVec Ideal Cert.Pre_finite_inputs.S262144 .f32) (x4 : FVec Ideal Cert.Pre_finite_inputs.S512x256 .f32)
    (x5 : FVec Ideal Cert.Pre_finite_inputs.S256x64 .f32)
    (h : Cert.Pre_finite_inputs.fn (F := Ideal) x0 x1 x2 x3 x4 x5 = (fun _ => 1#1)) :
    Finite x0 ∧ Finite x3 ∧ Finite x4 ∧ Finite x5 ∧ InRange 8192 x1 ∧ InRange 8192 x2 := by
  have h0 := congrFun h ValueIdx.ix0
  dsimp only [Cert.Pre_finite_inputs.fn, Cert.Pre_finite_inputs.fn_part1] at h0
  obtain ⟨h0, hx2⟩ := IntOp.andi_eq_one.1 h0
  obtain ⟨h0, hx1⟩ := IntOp.andi_eq_one.1 h0
  obtain ⟨h0, hx5⟩ := IntOp.andi_eq_one.1 h0
  obtain ⟨h0, hx4⟩ := IntOp.andi_eq_one.1 h0
  obtain ⟨hx0, hx3⟩ := IntOp.andi_eq_one.1 h0
  exact ⟨finite_of_all x0 _ _ _ hx0, finite_of_all x3 _ _ _ hx3, finite_of_all x4 _ _ _ hx4, finite_of_all x5 _ _ _ hx5,
    inRange_of_all x1 _ _ _ hx1, inRange_of_all x2 _ _ _ hx2⟩

end Cert.PreFacts

end
-- ==== Proof.Algebra.lean ====
/-
  The dense and the sparse graph convolution agree on real entries.
-/
import proofs.«412814_j42056319762467_3_alg».proof.Proof.Spec
import Mathlib.Algebra.BigOperators.Ring.Finset

open scoped BigOperators

namespace Cert.Spec

variable {ι κ μ ν ε : Type} [Fintype ι] [Fintype κ] [Fintype μ] [Fintype ν] [Fintype ε] [DecidableEq ν]

/-- The coercion of the reals into the extended reals commutes with finite sums. -/
theorem coe_sum {α : Type} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- A product of real matrices is real. -/
theorem IsReal.mm {a : ι → κ → EReal} {b : κ → μ → EReal} (ha : IsReal a) (hb : IsReal b) :
    IsReal (mm a b) := by
  choose ra hra using ha
  choose rb hrb using hb
  intro i j
  refine ⟨∑ k, ra i k * rb k j, ?_⟩
  rw [coe_sum]
  unfold Cert.Spec.mm
  refine Finset.sum_congr rfl (fun k _ => ?_)
  rw [hra, hrb, EReal.coe_mul]

/-- The positive part of a real matrix is real. -/
theorem IsReal.relu {a : ι → κ → EReal} (ha : IsReal a) : IsReal (relu a) := by
  intro i j
  obtain ⟨r, hr⟩ := ha i j
  unfold Cert.Spec.relu
  rw [hr]
  rcases le_total r 0 with h | h
  · exact ⟨0, by rw [max_eq_right (by exact_mod_cast h)]; rfl⟩
  · exact ⟨r, by rw [max_eq_left (by exact_mod_cast h)]⟩

/-- The dense adjacency matrix of real weights is real. -/
theorem isReal_adj (dst src : ε → ν) {w : ε → EReal} (hw : ∀ e, ∃ r : ℝ, w e = (r : EReal)) :
    IsReal (adj dst src w) := by
  choose rw hrw using hw
  intro d s
  refine ⟨∑ e ∈ Finset.univ.filter (fun e => dst e = d ∧ src e = s), rw e, ?_⟩
  rw [coe_sum]
  unfold Cert.Spec.adj
  exact Finset.sum_congr rfl (fun e _ => hrw e)

/-- The sparse product of real weights and a real matrix is real. -/
theorem isReal_spmm (dst src : ε → ν) {w : ε → EReal} {h : ν → μ → EReal}
    (hw : ∀ e, ∃ r : ℝ, w e = (r : EReal)) (hh : IsReal h) : IsReal (spmm dst src w h) := by
  choose rw hrw using hw
  choose rh hrh using hh
  intro d j
  refine ⟨∑ e ∈ Finset.univ.filter (fun e => dst e = d), rh (src e) j * rw e, ?_⟩
  rw [coe_sum]
  unfold Cert.Spec.spmm
  refine Finset.sum_congr rfl (fun e _ => ?_)
  rw [hrh, hrw, EReal.coe_mul]

/-- Over the reals: summing, over the sources, the total weight of the edges from a source to the
destination times the source's value is the same as summing value-of-source times weight over the
edges into the destination; every such edge is counted exactly once, at its own source. -/
theorem real_mm_adj (dst src : ε → ν) (rw : ε → ℝ) (rh : ν → ℝ) (d : ν) :
    ∑ s, (∑ e ∈ Finset.univ.filter (fun e => dst e = d ∧ src e = s), rw e) * rh s
      = ∑ e ∈ Finset.univ.filter (fun e => dst e = d), rh (src e) * rw e := by
  rw [← Finset.sum_fiberwise (Finset.univ.filter (fun e => dst e = d)) src]
  refine Finset.sum_congr rfl (fun s _ => ?_)
  rw [Finset.sum_mul, Finset.filter_filter]
  refine Finset.sum_congr rfl (fun e he => ?_)
  have hs : src e = s := (Finset.mem_filter.mp he).2.2
  rw [hs, mul_comm]

/-- With real weights and a real matrix, the dense adjacency times the matrix is the sparse product. -/
theorem mm_adj_eq_spmm (dst src : ε → ν) (w : ε → EReal) (h : ν → μ → EReal)
    (hw : ∀ e, ∃ r : ℝ, w e = (r : EReal)) (hh : IsReal h) :
    mm (adj dst src w) h = spmm dst src w h := by
  choose rw hrw using hw
  choose rh hrh using hh
  funext d j
  have hL : mm (adj dst src w) h d j
      = ((∑ s, (∑ e ∈ Finset.univ.filter (fun e => dst e = d ∧ src e = s), rw e) * rh s j : ℝ) : EReal) := by
    rw [coe_sum]
    unfold Cert.Spec.mm Cert.Spec.adj
    refine Finset.sum_congr rfl (fun s _ => ?_)
    rw [EReal.coe_mul, coe_sum, hrh]
    congr 1
    exact Finset.sum_congr rfl (fun e _ => hrw e)
  have hR : spmm dst src w h d j
      = ((∑ e ∈ Finset.univ.filter (fun e => dst e = d), rh (src e) j * rw e : ℝ) : EReal) := by
    rw [coe_sum]
    unfold Cert.Spec.spmm
    refine Finset.sum_congr rfl (fun e _ => ?_)
    rw [hrh, hrw, EReal.coe_mul]
  rw [hL, hR, real_mm_adj dst src rw (fun s => rh s j) d]

/-- The two programs' results agree when every input entry is a real number. -/
theorem denseResult_eq_sparseResult (x : ν → ι → EReal) (dst src : ε → ν) (w : ε → EReal)
    (W1 : ι → κ → EReal) (W2 : κ → μ → EReal)
    (hx : IsReal x) (hw : ∀ e, ∃ r : ℝ, w e = (r : EReal)) (hW1 : IsReal W1) (hW2 : IsReal W2) :
    denseResult x dst src w W1 W2 = sparseResult x dst src w W1 W2 := by
  unfold denseResult sparseResult
  have h1 : IsReal (Cert.Spec.mm x W1) := hx.mm hW1
  have e1 : Cert.Spec.mm (adj dst src w) (Cert.Spec.mm x W1) = spmm dst src w (Cert.Spec.mm x W1) :=
    mm_adj_eq_spmm dst src w _ hw h1
  rw [e1]
  have h2 : IsReal (Cert.Spec.mm (Cert.Spec.relu (spmm dst src w (Cert.Spec.mm x W1))) W2) :=
    (isReal_spmm dst src hw h1).relu.mm hW2
  rw [mm_adj_eq_spmm dst src w _ hw h2]

end Cert.Spec
-- ==== Proof.lean ====
/-
  The proof of `Cert.Claim`: a two-layer graph convolution with an inner-product decoder, computed by a Pallas
  kernel through a DENSE adjacency matrix (the edge weights scattered into an 8192 × 8192 array, then
  gram (A · (relu (A · (x · W1)) · W2)) in four pallas_calls) against a reference that works edge by edge
  (gather the source rows, weight them, segment-sum into the destination rows).

  The precondition says every float input is finite and both index vectors lie in [0, 8192). In range, the scatter
  drops nothing and the gather clamps nothing, so the kernel's result is the dense formula and the reference's the
  sparse one (Spec.lean); on real entries a weight moves across the sum over the sources, and the two agree
  (Algebra.lean). The three frames are the runs with the results dropped; the idealization rewrote nothing.
-/
import proofs.«412814_j42056319762467_3_alg».proof.Defs
import proofs.«412814_j42056319762467_3_alg».proof.Proof.Gen.Kernel
import proofs.«412814_j42056319762467_3_alg».proof.Proof.Gen.KernelIdeal
import proofs.«412814_j42056319762467_3_alg».proof.Proof.Gen.ReferenceIdeal
import proofs.«412814_j42056319762467_3_alg».proof.Proof.Gen.Pre_finite_inputs
import proofs.«412814_j42056319762467_3_alg».proof.Proof.Kernel.Run
import proofs.«412814_j42056319762467_3_alg».proof.Proof.KernelIdeal.Run
import proofs.«412814_j42056319762467_3_alg».proof.Proof.KValue
import proofs.«412814_j42056319762467_3_alg».proof.Proof.RefValue
import proofs.«412814_j42056319762467_3_alg».proof.Proof.PreFacts
import proofs.«412814_j42056319762467_3_alg».proof.Proof.Algebra
import Idealize.ShloMosaic.Adequacy
import Idealize.ShloMosaic.Init

noncomputable section

namespace Cert.Proof

open Idealize.ShloMosaic Idealize.ShloMosaic.TcCoe Idealize.SL.Sem Cert.Bridge Cert.Spec

/-- The word-level program runs and leaves its arguments alone. -/
theorem frame_k : Cert.frame_Kernel := fun m g _ => Cert.Kernel.Hand.frame (F := Bits) m g

/-- So does its idealization. -/
theorem frame_ki : Cert.frame_KernelIdeal := fun m g _ => Cert.KernelIdeal.Hand.frame (F := Ideal) m g

/-- The reference's frame is its run with the result dropped. -/
theorem frame_ri : Cert.frame_ReferenceIdeal := fun m g _ =>
  (θ_run Cert.ReferenceIdeal.defs _ _).mono (fun _ h c => (h c).2) (Cert.ReferenceIdeal.Value.run (F := Ideal) m g)

/-- The ideal pass rewrote no operation. -/
theorem preserves : Cert.preserves_Kernel_KernelIdeal := trivial

/-- From memories agreeing on the arguments both programs end with the same result array: the kernel's is the dense
    formula of the inputs, the reference's the sparse one, and on finite inputs with in-range indices they agree. -/
theorem algebraic : Cert.algebraic_KernelIdeal_ReferenceIdeal := by
  intro m g m' g' hpre hagree
  refine ⟨fun c => Cert.KernelIdeal.Hand.W5 (F := Ideal) m c (Proc.devRef .tc Cert.KernelIdeal.main_v21), ?_, ?_⟩
  · refine (θ_run Cert.KernelIdeal.defs _ _).mono (fun _ h c => ?_) (Cert.KernelIdeal.Hand.run_all (F := Ideal) m g)
    exact ⟨h c _ (Cert.KernelIdeal.Hand.mem_uc Cert.KernelIdeal.main_v21 (by decide)),
      (h c _ (Cert.KernelIdeal.Hand.mem_uc Cert.KernelIdeal.main_arg0 (by decide))).trans (Cert.KernelIdeal.Hand.W5_main_arg0 m c),
      (h c _ (Cert.KernelIdeal.Hand.mem_uc Cert.KernelIdeal.main_arg1 (by decide))).trans (Cert.KernelIdeal.Hand.W5_main_arg1 m c),
      (h c _ (Cert.KernelIdeal.Hand.mem_uc Cert.KernelIdeal.main_arg2 (by decide))).trans (Cert.KernelIdeal.Hand.W5_main_arg2 m c),
      (h c _ (Cert.KernelIdeal.Hand.mem_uc Cert.KernelIdeal.main_arg3 (by decide))).trans (Cert.KernelIdeal.Hand.W5_main_arg3 m c),
      (h c _ (Cert.KernelIdeal.Hand.mem_uc Cert.KernelIdeal.main_arg4 (by decide))).trans (Cert.KernelIdeal.Hand.W5_main_arg4 m c),
      (h c _ (Cert.KernelIdeal.Hand.mem_uc Cert.KernelIdeal.main_arg5 (by decide))).trans (Cert.KernelIdeal.Hand.W5_main_arg5 m c)⟩
  · refine (θ_run Cert.ReferenceIdeal.defs _ _).mono (fun _ h c => ⟨(h c).1.trans ?_, (h c).2⟩)
      (Cert.ReferenceIdeal.Value.run (F := Ideal) m' g')
    obtain ⟨hx, hw, hW1, hW2, hs, hd⟩ := Cert.PreFacts.of_pre _ _ _ _ _ _ (hpre c)
    rw [Cert.ReferenceIdeal.Read.val_main_v29_eq, (hagree c).1, (hagree c).2.1, (hagree c).2.2.1, (hagree c).2.2.2.1,
      (hagree c).2.2.2.2.1, (hagree c).2.2.2.2.2]
    refine (Cert.ReferenceIdeal.RefValue.val_result _ _ _ _ _ _ hs hd).trans ?_
    refine Eq.trans ?_ (Cert.KernelIdeal.HandValue.kernel_result m c hs hd).symm
    exact congrArg ofM (denseResult_eq_sparseResult _ _ _ _ _ _ (isReal_toM _ hx) (fun e => hw (ValueIdx.ix1 e))
      (isReal_toM _ hW1) (isReal_toM _ hW2)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
